-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S64x768 : Shape := ⟨2, ![64, 768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn_part1 {F : FTy → Type} [FloatOps F] (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  main_v18

def fn {F : FTy → Type} [FloatOps F] (main_arg0 : FVec F S8x4096x768 .f32) (main_arg1 : FVec F S64x768 .f32) (main_arg2 : FVec F S64x768 .f32) (main_arg3 : FVec F S64x768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_v13 main_v16
-- ==== Kernel.lean ====
abbrev S8x4096x768 : Shape := ⟨3, ![8, 4096, 768]⟩
abbrev S64x768 : Shape := ⟨2, ![64, 768]⟩
abbrev S8x4096x64 : Shape := ⟨3, ![8, 4096, 64]⟩
abbrev S1x1024x768 : Shape := ⟨3, ![1, 1024, 768]⟩
abbrev S1x1024x64 : Shape := ⟨3, ![1, 1024, 64]⟩
abbrev S1024x768 : Shape := ⟨2, ![1024, 768]⟩
abbrev S1024x64 : Shape := ⟨2, ![1024, 64]⟩
abbrev S8x1x4096 : Shape := ⟨3, ![8, 1, 4096]⟩
abbrev S1x1x1024 : Shape := ⟨3, ![1, 1, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 9
  | .vmem => 33
  | .smem => 0
  | _ => 0

abbrev bufTy : (tb : Table) → Fin (tcTables nBuf tb) → BufTy
  | .hbm, ⟨0, _⟩ => ⟨S8x4096x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S8x4096x64, .bf16⟩
  | .hbm, ⟨5, _⟩ => ⟨S8x4096x64, .bf16⟩
  | .hbm, ⟨6, _⟩ => ⟨S8x4096x64, .bf16⟩
  | .hbm, ⟨7, _⟩ => ⟨S8x1x4096, .f32⟩
  | .hbm, ⟨8, _⟩ => ⟨S8x4096x64, .f32⟩
  | .local _ .vmem, ⟨0, _⟩ => ⟨S1x1024x768, .f32⟩
  | .local _ .vmem, ⟨1, _⟩ => ⟨S1x1024x768, .f32⟩
  | .local _ .vmem, ⟨2, _⟩ => ⟨S64x768, .f32⟩
  | .local _ .vmem, ⟨3, _⟩ => ⟨S64x768, .f32⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1x1024x64, .bf16⟩
  | .local _ .vmem, ⟨20, _⟩ => ⟨S1x1024x64, .bf16⟩
  | .local _ .vmem, ⟨21, _⟩ => ⟨S1x1024x64, .bf16⟩
  | .local _ .vmem, ⟨22, _⟩ => ⟨S1x1024x64, .bf16⟩
  | .local _ .vmem, ⟨23, _⟩ => ⟨S1x1024x64, .bf16⟩
  | .local _ .vmem, ⟨24, _⟩ => ⟨S1x1024x64, .bf16⟩
  | .local _ .vmem, ⟨25, _⟩ => ⟨S1x1x1024, .f32⟩
  | .local _ .vmem, ⟨26, _⟩ => ⟨S1x1x1024, .f32⟩
  | .local _ .vmem, ⟨27, _⟩ => ⟨S1x1024x64, .f32⟩
  | .local _ .vmem, ⟨28, _⟩ => ⟨S1x1024x64, .f32⟩
  | .local _ .vmem, ⟨29, _⟩ => ⟨S1024x64, .f32⟩
  | .local _ .vmem, ⟨30, _⟩ => ⟨S1024x1024, .f32⟩
  | .local _ .vmem, ⟨31, _⟩ => ⟨S1024x64, .bf16⟩
  | .local _ .vmem, ⟨32, _⟩ => ⟨S1x1024, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_scratch0 : Ref sig .tc := ⟨.vmem, 29, rfl⟩
abbrev cc2_scratch1 : Ref sig .tc := ⟨.vmem, 30, rfl⟩
abbrev cc2_scratch2 : Ref sig .tc := ⟨.vmem, 31, rfl⟩
abbrev cc2_scratch3 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![8, 4, 4], ![false, false, false]⟩

def k1_cond3 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 4, 4], ![false, false, false]⟩

def k2_cond3 (i : grid2.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_20 : BitVec 32 := 0#32
  let v26 : BitVec 1 := Scalar.cmpi .ne v25 c0_i32_20
  v26

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x1024x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S64x768_S64x768_0_0 : ∀ a, (![0, 0] : Fin 2 → Nat) a + S64x768.size a ≤ S64x768.size a
  h_S64x768 : 0 < S64x768.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  broadcasts_S1x1024_S1024x1024 : S1x1024.Broadcasts S1024x1024
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  dot_S1024x768_S64x768_S1024x64_1_1_0_0_n_n_wf : DotDims.WF S1024x768 S64x768 S1024x64 [1] [1] [0] [0] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x4096x768.size a
  hwx0_0 : ∀ i : grid0.Coords, EltTy.bits .f32 = 32 ∨ (Rect.block (s := S8x4096x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768.size a ≤ S64x768.size a
  hwx0_2 : ∀ i : grid0.Coords, EltTy.bits .f32 = 32 ∨ (Rect.block (s := S64x768) S64x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x4096x64.size a
  hwx0_3 : ∀ i : grid0.Coords, EltTy.bits .bf16 = 32 ∨ (Rect.block (s := S8x4096x64) S1x1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S8x4096x64.size a
  hwx0_4 : ∀ i : grid0.Coords, EltTy.bits .bf16 = 32 ∨ (Rect.block (s := S8x4096x64) S1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S8x4096x64.size a
  hwx0_5 : ∀ i : grid0.Coords, EltTy.bits .bf16 = 32 ∨ (Rect.block (s := S8x4096x64) S1x1024x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S8x4096x64.size a
  hwx1_0 : ∀ i : grid1.Coords, EltTy.bits .bf16 = 32 ∨ (Rect.block (s := S8x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S8x4096x64.size a
  hwx1_1 : ∀ i : grid1.Coords, EltTy.bits .bf16 = 32 ∨ (Rect.block (s := S8x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S8x1x4096.size a
  hwx1_2 : ∀ i : grid1.Coords, EltTy.bits .f32 = 32 ∨ (Rect.block (s := S8x1x4096) S1x1x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x64.size a ≤ S8x4096x64.size a
  hwx2_0 : ∀ i : grid2.Coords, EltTy.bits .bf16 = 32 ∨ (Rect.block (s := S8x4096x64) S1x1024x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x64.size a ≤ S8x4096x64.size a
  hwx2_1 : ∀ i : grid2.Coords, EltTy.bits .bf16 = 32 ∨ (Rect.block (s := S8x4096x64) S1x1024x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x64.size a ≤ S8x4096x64.size a
  hwx2_2 : ∀ i : grid2.Coords, EltTy.bits .bf16 = 32 ∨ (Rect.block (s := S8x4096x64) S1x1024x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1024.size a ≤ S8x1x4096.size a
  hwx2_3 : ∀ i : grid2.Coords, EltTy.bits .f32 = 32 ∨ (Rect.block (s := S8x1x4096) S1x1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x64.size a ≤ S8x4096x64.size a
  hwx2_4 : ∀ i : grid2.Coords, EltTy.bits .f32 = 32 ∨ (Rect.block (s := S8x4096x64) S1x1024x64.size (cc2_transform_4 i) (hinb2_4 i)).WholeWords (EltTy.packing .f32)

variable [Facts₀]

def dot_S1024x768_S64x768_S1024x64_1_1_0_0_n_n : DotDims S1024x768 S64x768 S1024x64 where
  lhsContracting := [1]
  rhsContracting := [1]
  lhsNonContracting := [0]
  rhsNonContracting := [0]
  lhsBatch := []
  rhsBatch := []
  wf := dot_S1024x768_S64x768_S1024x64_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

abbrev win2_0 : Pipeline.Window sig grid2 :=
  Pipeline.Window.ofSpec (Memref.whole main_v0_0) S1x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S1x1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_2) S1x1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1) S1x1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x1024x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond3 i == 1#1) | ⟨_ + 5, h⟩ => absurd h (Nat.not_lt.2 (Nat.le_add_left _ _))

class Facts : Prop extends Facts₀ where

variable [Facts]
-- ==== ReferenceIdeal.lean ====
abbrev S8x4096x768 : Shape := ⟨3, ![8, 4096, 768]⟩
abbrev S64x768 : Shape := ⟨2, ![64, 768]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x1x4096 : Shape := ⟨3, ![8, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S8x4096x64, .f32⟩
  | .hbm, ⟨5, _⟩ => ⟨S8x4096x64, .f32⟩
  | .hbm, ⟨6, _⟩ => ⟨S8x4096x64, .f32⟩
  | .hbm, ⟨7, _⟩ => ⟨S8x4096x4096, .f32⟩
  | .hbm, ⟨8, _⟩ => ⟨S_, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096, .f32⟩
  | .hbm, ⟨14, _⟩ => ⟨S_, .f32⟩
  | .hbm, ⟨15, _⟩ => ⟨S8x4096, .f32⟩
  | .hbm, ⟨16, _⟩ => ⟨S8x4096, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x1x4096, .f32⟩
  | .hbm, ⟨24, _⟩ => ⟨S8x4096x4096, .f32⟩
  | .hbm, ⟨25, _⟩ => ⟨S8x4096x4096, .f32⟩
  | .hbm, ⟨26, _⟩ => ⟨S8x4096x64, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d1 : S8x4096x4096.ReducesTo [1] S8x4096
  h_S_ : 0 < S_.numel
  bcast_S_S8x4096 : S_.BroadcastsInDim S8x4096 (![] : Fin 0 → Fin S8x4096.rank)
  bcast_S8x4096_S8x1x4096_0_2 : S8x4096.BroadcastsInDim S8x1x4096 (![0, 2] : Fin 2 → Fin S8x1x4096.rank)
  bcast_S8x1x4096_S8x4096x4096_0_1_2 : S8x1x4096.BroadcastsInDim S8x4096x4096 (![0, 1, 2] : Fin 3 → Fin S8x4096x4096.rank)
  dot_S8x4096x768_S64x768_S8x4096x64_2_1_01_0_n_n_wf : DotDims.WF S8x4096x768 S64x768 S8x4096x64 [2] [1] [0, 1] [0] [] []
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x768_S64x768_S8x4096x64_2_1_01_0_n_n : DotDims S8x4096x768 S64x768 S8x4096x64 where
  lhsContracting := [2]
  rhsContracting := [1]
  lhsNonContracting := [0, 1]
  rhsNonContracting := [0]
  lhsBatch := []
  rhsBatch := []
  wf := dot_S8x4096x768_S64x768_S8x4096x64_2_1_01_0_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.KB.Blk.lean ====
/-
  The blocks each grid point of the three kernels reads, and what the two attention kernels carry from
  one grid point to the next, as functions of the buffer contents `V` a kernel region is entered at.

  Region 0 (projection) has nothing to carry: each point writes three blocks computed from its row
  block of `x` and the two weight matrices.
  Region 1 (column statistics) keeps, per key tile, a running maximum `m`, a running sum `l` and the
  previous score tile; the first query step of a key tile resets `m` to -inf and `l` to 0, every later
  step folds the PREVIOUS score tile into `(m, l)` and then parks the new tile.
  Region 2 (output) keeps an accumulator and the previous step's score tile, value tile and
  normaliser row; the last key step of a query tile folds twice (the parked tile, then its own).
-/
import proofs.«424057_j71219147702834_3_alg».proof.Proof.Gen.Kernel.Skeleton
import proofs.«424057_j71219147702834_3_alg».proof.Proof.Gen.Kernel.Points

set_option maxRecDepth 16384

noncomputable section

namespace Cert.Kernel.Fr

open Idealize.ShloMosaic Idealize.ShloMosaic.TcCoe
open Idealize.SL Idealize.SL.Sem
open Cert.Kernel Cert.Kernel.Gen

variable {F : FTy → Type} [FloatOps F]

section Blocks
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The same for region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The same for region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Region 1: running maximum, running sum, parked score tile -/

/-- The carried triple `(m, l, parked tile)`. -/
abbrev St1 (F : FTy → Type) [FloatOps F] : Type := Vec F S1x1024 .f32 × Vec F S1x1024 .f32 × Vec F S1024x1024 .f32

/-- First query step of a key tile: `m = -inf`, `l = 0`, the tile `q·kᵀ` parked. -/
def reset1 (xq xk : Vec F S1x1024x64 .bf16) : St1 F := (k1_pay1, k1_pay2, k1_pay7 xq xk)
/-- A later step: the parked tile folded into `(m, l)` (new maximum, the old sum rescaled plus the tile's
    column sums of exponentials), the new tile parked. -/
def step1 (xq xk : Vec F S1x1024x64 .bf16) (p : St1 F) : St1 F :=
  (k1_pay6 p.2.2 p.1, k1_pay5 p.2.2 p.1 (k1_pay4 p.2.2 p.1 p.2.1), k1_pay7 xq xk)

/-- What region 1's scratch holds after point `n`. -/
def sc1 (c : Dev nD) : (n : ℕ) → n < cfg1.N → St1 F
  | 0, hn => reset1 (iblk1 V c 0 ⟨0, hn⟩) (iblk1 V c 1 ⟨0, hn⟩)
  | n + 1, hn =>
    if (n + 1) % 4 = 0 then reset1 (iblk1 V c 0 ⟨n + 1, hn⟩) (iblk1 V c 1 ⟨n + 1, hn⟩)
    else step1 (iblk1 V c 0 ⟨n + 1, hn⟩) (iblk1 V c 1 ⟨n + 1, hn⟩) (sc1 c n (Nat.lt_of_succ_lt hn))

/-- What the last query step of a key tile writes to its block of the statistics row: the parked (own) tile
    folded once more, then `m + log l`. -/
def out1 (c : Dev nD) (t : Fin cfg1.N) : Vec F S1x1x1024 .f32 :=
  k1_pay8 (sc1 V c t.val t.isLt).2.2 (sc1 V c t.val t.isLt).1 (sc1 V c t.val t.isLt).2.1

theorem sc1_reset (c : Dev nD) (t : Fin cfg1.N) (h : t.val % 4 = 0) :
    sc1 V c t.val t.isLt = reset1 (iblk1 V c 0 t) (iblk1 V c 1 t) := by
  obtain ⟨n, hn⟩ := t
  cases n with
  | zero => rfl
  | succ n => exact if_pos h
theorem sc1_step (c : Dev nD) (t : Fin cfg1.N) (h : ¬ t.val % 4 = 0) :
    sc1 V c t.val t.isLt = step1 (iblk1 V c 0 t) (iblk1 V c 1 t) (sc1 V c (t.val - 1) (Nat.lt_of_le_of_lt (Nat.sub_le _ _) t.isLt)) := by
  obtain ⟨n, hn⟩ := t
  cases n with
  | zero => exact absurd (Nat.zero_mod _) h
  | succ n => exact if_neg h

/-! ## Region 2: accumulator, parked score tile, parked value tile, parked normaliser row -/

/-- The carried quadruple `(acc, parked scores, parked values, parked normaliser)`. -/
abbrev St2 (F : FTy → Type) [FloatOps F] : Type :=
  Vec F S1024x64 .f32 × Vec F S1024x1024 .f32 × Vec F S1024x64 .bf16 × Vec F S1x1024 .f32

/-- First key step of a query tile: the accumulator zeroed, this step's tiles parked. -/
def reset2 (xq xk xv : Vec F S1x1024x64 .bf16) (xml : Vec F S1x1x1024 .f32) : St2 F :=
  (k2_pay3, k2_pay5 xq xk, k2_pay6 xv, k2_pay7 xml)
/-- A middle step: the parked tiles' contribution `exp(s - ml)·v` added, this step's tiles parked. -/
def step2 (xq xk xv : Vec F S1x1024x64 .bf16) (xml : Vec F S1x1x1024 .f32) (p : St2 F) : St2 F :=
  (k2_pay4 p.2.1 p.2.2.2 p.1 p.2.2.1, k2_pay5 xq xk, k2_pay6 xv, k2_pay7 xml)
/-- The last step: a middle step, then the just-parked tiles' contribution added as well. -/
def last2 (xq xk xv : Vec F S1x1024x64 .bf16) (xml : Vec F S1x1x1024 .f32) (p : St2 F) : St2 F :=
  (k2_pay1 (k2_pay5 xq xk) (k2_pay7 xml) (k2_pay4 p.2.1 p.2.2.2 p.1 p.2.2.1) (k2_pay6 xv), k2_pay5 xq xk, k2_pay6 xv, k2_pay7 xml)

/-- What region 2's scratch holds after point `n`. -/
def sc2 (c : Dev nD) : (n : ℕ) → n < cfg2.N → St2 F
  | 0, hn => reset2 (iblk2 V c 0 ⟨0, hn⟩) (iblk2 V c 1 ⟨0, hn⟩) (iblk2 V c 2 ⟨0, hn⟩) (iblk2 V c 3 ⟨0, hn⟩)
  | n + 1, hn =>
    if (n + 1) % 4 = 0 then reset2 (iblk2 V c 0 ⟨n + 1, hn⟩) (iblk2 V c 1 ⟨n + 1, hn⟩) (iblk2 V c 2 ⟨n + 1, hn⟩) (iblk2 V c 3 ⟨n + 1, hn⟩)
    else if (n + 1) % 4 = 3 then last2 (iblk2 V c 0 ⟨n + 1, hn⟩) (iblk2 V c 1 ⟨n + 1, hn⟩) (iblk2 V c 2 ⟨n + 1, hn⟩) (iblk2 V c 3 ⟨n + 1, hn⟩) (sc2 c n (Nat.lt_of_succ_lt hn))
    else step2 (iblk2 V c 0 ⟨n + 1, hn⟩) (iblk2 V c 1 ⟨n + 1, hn⟩) (iblk2 V c 2 ⟨n + 1, hn⟩) (iblk2 V c 3 ⟨n + 1, hn⟩) (sc2 c n (Nat.lt_of_succ_lt hn))

/-- What the last key step of a query tile writes to its output block: the accumulator. -/
def out2 (c : Dev nD) (t : Fin cfg2.N) : Vec F S1x1024x64 .f32 := k2_pay2 (sc2 V c t.val t.isLt).1

theorem sc2_reset (c : Dev nD) (t : Fin cfg2.N) (h : t.val % 4 = 0) :
    sc2 V c t.val t.isLt = reset2 (iblk2 V c 0 t) (iblk2 V c 1 t) (iblk2 V c 2 t) (iblk2 V c 3 t) := by
  obtain ⟨n, hn⟩ := t
  cases n with
  | zero => rfl
  | succ n => exact if_pos h
theorem sc2_step (c : Dev nD) (t : Fin cfg2.N) (h0 : ¬ t.val % 4 = 0) (h3 : ¬ t.val % 4 = 3) :
    sc2 V c t.val t.isLt = step2 (iblk2 V c 0 t) (iblk2 V c 1 t) (iblk2 V c 2 t) (iblk2 V c 3 t) (sc2 V c (t.val - 1) (Nat.lt_of_le_of_lt (Nat.sub_le _ _) t.isLt)) := by
  obtain ⟨n, hn⟩ := t
  cases n with
  | zero => exact absurd (Nat.zero_mod _) h0
  | succ n => exact (if_neg h0).trans (if_neg h3)
theorem sc2_last (c : Dev nD) (t : Fin cfg2.N) (h3 : t.val % 4 = 3) :
    sc2 V c t.val t.isLt = last2 (iblk2 V c 0 t) (iblk2 V c 1 t) (iblk2 V c 2 t) (iblk2 V c 3 t) (sc2 V c (t.val - 1) (Nat.lt_of_le_of_lt (Nat.sub_le _ _) t.isLt)) := by
  obtain ⟨n, hn⟩ := t
  cases n with
  | zero => exact absurd h3 (by simp)
  | succ n =>
    have h3' : (n + 1) % 4 = 3 := h3
    exact (if_neg (by omega)).trans (if_pos h3')

end Blocks

end Cert.Kernel.Fr

end
-- ==== Proof.KB.Dat0.lean ====
/-
  Region 0 (the projection kernel) entered at buffer contents `V`: its proof data. Each grid point (batch b, row
  tile s) reads its 1024 rows of x and the two weight matrices and writes three blocks: the scaled q, k, and the
  unscaled q (used as v). Nothing is carried between points.
-/
import proofs.«424057_j71219147702834_3_alg».proof.Proof.KB.Blk
import proofs.«424057_j71219147702834_3_alg».proof.Proof.Gen.Kernel.Launch
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Proof data of region 0 on core `c`: arrays as found; after the body the inputs' buffers hold their blocks and the
    three outputs' the projections of the point's blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay4 (iblk0 V c 0 t) (iblk0 V c 1 t)
    | ⟨4, _⟩ => k0_pay5 (iblk0 V c 0 t) (iblk0 V c 2 t)
    | ⟨5, _⟩ => k0_pay3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay4 (iblk0 V c 0 t) (iblk0 V c 1 t) := by dsimp only [dat0]
theorem after0_4 (c : Dev nD) (t : Fin cfg0.N) : (dat0 V c).after 4 t = k0_pay5 (iblk0 V c 0 t) (iblk0 V c 2 t) := by dsimp only [dat0]
theorem after0_5 (c : Dev nD) (t : Fin cfg0.N) : (dat0 V c).after 5 t = k0_pay3 (iblk0 V c 0 t) (iblk0 V c 1 t) := by dsimp only [dat0]

/-! ## The kernel function's triple

Every load and every store of the projection kernel is of a whole buffer: the rectangle at zero offsets with the
buffer's own extents. Through it a load reads the contents and a single store leaves its payload. -/

/-- The zero offsets of a rank-2 buffer, as a constant function. -/
private theorem zero_off2 : (![0, 0] : Fin 2 → ℕ) = fun _ => 0 := by
  funext a; fin_cases a <;> rfl
/-- The zero offsets of a rank-3 buffer, as a constant function. -/
private theorem zero_off3 : (![0, 0, 0] : Fin 3 → ℕ) = fun _ => 0 := by
  funext a; fin_cases a <;> rfl

/-- A buffer overwritten once through its whole rectangle reads the payload, whatever it held. -/
private theorem read_whole_store {κ : Kind} {sp : Space} {S : Shape} {e : EltTy} (v : View sig κ sp S e)
    (f : v.ty.Contents (Elt F)) {off : Fin S.rank → ℕ} (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _
    (fun y => ⟨_, List.mem_singleton_self _, View.mem_set_unit_zero hz inb y⟩), View.canon_unit_zero hz inb w]

/-- A load through the whole rectangle reads what the buffer reads. -/
private theorem readAt_whole {κ : Kind} {sp : Space} {S : Shape} {e : EltTy} (v : View sig κ sp S e)
    (f : v.ty.Contents (Elt F)) {off : Fin S.rank → ℕ} (hz : off = fun _ => 0)
    (inb : ∀ a, off a + S.size a ≤ S.size a) :
    v.readAt (Elt F) (Rect.unit off S.size inb).toLoadRect f = v.read (Elt F) f := by
  rw [View.readAt_eq_ld, View.ld_unit_zero hz inb]

set_option maxHeartbeats 1000000 in
/-- The projection kernel on whole buffers: from the x block at `x0`, the two weight matrices at `x1`, `x2` and the three
    outputs at anything, it runs to the continuation with the inputs as they were and the outputs at the scaled q
    (`k0_pay4 x0 x1`), k (`k0_pay5 x0 x2`) and the unscaled q (`k0_pay3 x0 x1`). -/
theorem sound_kernel0 (c : Dev nD) (E : Set ℕ) (i : grid0.Coords)
    (a2 : Memref sig .tc .vmem S1x1024x768 .f32) (h2 : a2.IsWhole)
    (a3 : Memref sig .tc .vmem S64x768 .f32) (h3 : a3.IsWhole)
    (a4 : Memref sig .tc .vmem S64x768 .f32) (h4 : a4.IsWhole)
    (a5 : Memref sig .tc .vmem S1x1024x64 .bf16) (h5 : a5.IsWhole)
    (a6 : Memref sig .tc .vmem S1x1024x64 .bf16) (h6 : a6.IsWhole)
    (a7 : Memref sig .tc .vmem S1x1024x64 .bf16) (h7 : a7.IsWhole)
    (x0 : Vec F S1x1024x768 .f32) (x1 x2 : Vec F S64x768 .f32) (K : PUnit → sProp 𝕄) :
    iprop(owns (c : Thread nD τ) a2 fullShare x0 ∗ owns (c : Thread nD τ) a3 fullShare x1
        ∗ owns (c : Thread nD τ) a4 fullShare x2
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a2 fullShare x0 ∗ owns (c : Thread nD τ) a3 fullShare x1
            ∗ owns (c : Thread nD τ) a4 fullShare x2
            ∗ owns (c : Thread nD τ) a5 fullShare (k0_pay4 x0 x1)
            ∗ owns (c : Thread nD τ) a6 fullShare (k0_pay5 x0 x2)
            ∗ owns (c : Thread nD τ) a7 fullShare (k0_pay3 x0 x1)) -∗ K ⟨⟩))
      ⊢ wp frame (wpE (defs₀ (F := F)) Variants.none c none) E (cc0__proj_kernel i a2 h2 a3 h3 a4 h4 a5 h5 a6 h6 a7 h7) K := by
  simp only [cc0__proj_kernel_eq_skeleton]; unfold cc0__proj_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2; subst hf3; subst hf4
  sl_exec
  sl_step
  iapply Hk
  -- the loads were of the whole buffers
  have e2 := readAt_whole (F := F) a2.view f2 (S := S1x1024x768) zero_off3 inb_S1x1024x768_S1x1024x768_0_0_0
  have e3 := readAt_whole (F := F) a3.view f3 (S := S64x768) zero_off2 inb_S64x768_S64x768_0_0
  have e4 := readAt_whole (F := F) a4.view f4 (S := S64x768) zero_off2 inb_S64x768_S64x768_0_0
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_whole_store (F := F) a5.view f5 (S := S1x1024x64) zero_off3 inb_S1x1024x64_S1x1024x64_0_0_0, e2, e3]
  isplitl [H6]
  · iexists _; isplitr
    swap; · iexact H6
    ipureintro
    rw [read_whole_store (F := F) a6.view f6 (S := S1x1024x64) zero_off3 inb_S1x1024x64_S1x1024x64_0_0_0, e2, e4]
  iexists _; isplitr
  swap; · iexact H7
  ipureintro
  rw [read_whole_store (F := F) a7.view f7 (S := S1x1024x64) zero_off3 inb_S1x1024x64_S1x1024x64_0_0_0, e2, e3]

/-! ## What the body finds in the input windows

An input window's buffer holds its block whether or not the point fetched it: an unfetched point has the block index
of the point before, and the body leaves every input as it found it. The x block is fetched at every point; the two
weight matrices, whose block index never moves, at the first point only. -/

/-- The x block's buffer holds the point's rows of x. -/
theorem before0_0 (c : Dev nD) (t : Fin cfg0.N) (d) : (dat0 V c).before 0 t d = iblk0 V c 0 t :=
  (dat0 V c).before_in_eq_fetched 0 rfl (fun _ => rfl) (fun _ _ _ => rfl) (fun t => by rw [after0_0]; rfl) t d
/-- The first weight buffer holds the query weights. -/
theorem before0_1 (c : Dev nD) (t : Fin cfg0.N) (d) : (dat0 V c).before 1 t d = iblk0 V c 1 t :=
  (dat0 V c).before_in_eq_fetched 1 rfl (fun _ => rfl) (fun _ _ _ => rfl) (fun t => by rw [after0_1]; rfl) t d
/-- The second weight buffer holds the key weights. -/
theorem before0_2 (c : Dev nD) (t : Fin cfg0.N) (d) : (dat0 V c).before 2 t d = iblk0 V c 2 t :=
  (dat0 V c).before_in_eq_fetched 2 rfl (fun _ => rfl) (fun _ _ _ => rfl) (fun t => by rw [after0_2]; rfl) t d

/-! ## The body obligation -/

set_option maxHeartbeats 1000000 in
/-- The body at a point: the three inputs' buffers hold the point's blocks, so the kernel's triple applies at them; the
    invariant and what the core owes are not read and are the same before and after; the outputs' buffers, handed
    over at whatever they held, come back at the three projections. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
    ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t)
          ∗ owns (c : Thread nD τ) (st0_5 t) fullShare ((dat0 V c).after 5 t))) := by
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every point of region 0 meets the pipeline's obligation. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Runs1.lean ====
/-
  Region 1's kernel body as Hoare triples, one per control case. The body branches on the query step `qi` (grid
  coordinate 2): `qi = 0` resets the running maximum and sum; `qi > 0` folds the parked score tile into them;
  every step parks its own tile; `qi = 3` folds that tile as well and writes `m + log l`.
  Case A: `qi = 0`. Case B: `qi ∈ {1, 2}`. Case C: `qi = 3`.
-/
import proofs.«424057_j71219147702834_3_alg».proof.Proof.KB.Blk
import proofs.«424057_j71219147702834_3_alg».proof.Proof.Gen.Kernel.Launch
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions, from the grid coordinates, and their closed forms over the grid -/

abbrev cond1_0 (i : grid1.Coords) : Prop := (Scalar.cmpi .ne (Scalar.extui (Scalar.cmpi .eq (BitVec.ofNat 32 (i 2).val) 0#32)) 0#32) = 1#1
abbrev cond1_1 (i : grid1.Coords) : Prop := (Scalar.cmpi .ne (Scalar.extui (Scalar.cmpi .sgt (BitVec.ofNat 32 (i 2).val) 0#32)) 0#32) = 1#1
abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ ¬ t.val % 4 = 0 :=
  (by decide +kernel : ∀ t : Fin grid1.N, cond1_1 (grid1.coords t) ↔ ¬ t.val % 4 = 0)
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬ t.val % 4 = 3 → cfg1.idle 2 (grid1.coords t) = true := by decide +kernel
theorem noFlush1_2 : ∀ t : Fin cfg1.N, ¬ t.val % 4 = 3 → (cfg1.win 2).flush t = false := by decide +kernel
theorem liveAt1_2 : ∀ t : Fin cfg1.N, t.val % 4 = 3 → cfg1.idle 2 (grid1.coords t) = false := by decide +kernel

/-! ## Whole-buffer stores and loads

Every load and store of this kernel goes through the rectangle of the buffer's own sizes at zero offsets. -/

theorem offs2_k1 : (![0, 0] : Fin 2 → Nat) = fun _ => 0 := funext fun a => by fin_cases a <;> rfl
theorem offs3_k1 : (![0, 0, 0] : Fin 3 → Nat) = fun _ => 0 := funext fun a => by fin_cases a <;> rfl

section Whole
variable {Val : EltTy → Type} [∀ e, Nonempty (Val e)] {S : Shape} {e : EltTy}

/-- A buffer whose LAST store went through the whole-shape rectangle reads as that store's payload, whatever it
    held before and whatever the earlier stores were. -/
theorem read_whole_last_k1 {sg : RefSig} {κ : Kind} {sp : Space} (v : View sg κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A whole-shape load after such a store reads the payload too. -/
theorem readCov_whole_last_k1 {sg : RefSig} {κ : Kind} {sp : Space} (v : View sg κ sp S e)
    {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

/-! ## The three triples -/

/-- Case A (`qi = 0`): whatever the scratch held, it ends at `reset1`; the statistics buffer is untouched. -/
theorem run1_A (c : Dev nD) (E : Set ℕ) (i : grid1.Coords) (hc0 : cond1_0 i) (hc1 : ¬cond1_1 i) (hc2 : ¬cond1_2 i)
    (a3 : Memref sig .tc .vmem S1x1024x64 .bf16) (h3 : a3.IsWhole) (a4 : Memref sig .tc .vmem S1x1024x64 .bf16) (h4 : a4.IsWhole)
    (a5 : Memref sig .tc .vmem S1x1x1024 .f32) (h5 : a5.IsWhole) (a6 : Memref sig .tc .vmem S1x1024 .f32) (h6 : a6.IsWhole)
    (a7 : Memref sig .tc .vmem S1x1024 .f32) (h7 : a7.IsWhole) (a8 : Memref sig .tc .vmem S1024x1024 .f32) (h8 : a8.IsWhole)
    (xq xk : Vec F S1x1024x64 .bf16) (x5 : Vec F S1x1x1024 .f32) (K : PUnit → sProp 𝕄) :
    iprop(owns (c : Thread nD τ) a3 fullShare xq ∗ owns (c : Thread nD τ) a4 fullShare xk ∗ owns (c : Thread nD τ) a5 fullShare x5
        ∗ (∃ d, owns (c : Thread nD τ) a6 fullShare d) ∗ (∃ d, owns (c : Thread nD τ) a7 fullShare d) ∗ (∃ d, owns (c : Thread nD τ) a8 fullShare d)
        ∗ (iprop(owns (c : Thread nD τ) a3 fullShare xq ∗ owns (c : Thread nD τ) a4 fullShare xk ∗ owns (c : Thread nD τ) a5 fullShare x5
            ∗ owns (c : Thread nD τ) a6 fullShare (reset1 xq xk).1 ∗ owns (c : Thread nD τ) a7 fullShare (reset1 xq xk).2.1
            ∗ owns (c : Thread nD τ) a8 fullShare (reset1 xq xk).2.2) -∗ K ⟨⟩))
      ⊢ wp frame (wpE (defs₀ (F := F)) Variants.none c none) E (cc1__stats_kernel i a3 h3 a4 h4 a5 h5 a6 h6 a7 h7 a8 h8) K := by
  simp only [cc1__stats_kernel_eq_skeleton]; unfold cc1__stats_kernel_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := h3.eq_unread hf3; obtain rfl := h4.eq_unread hf4; obtain rfl := h5.eq_unread hf5
  sl_exec (disch := first | exact hc0 | exact hc1 | exact hc2)
  sl_step
  iapply Hk
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact read_whole_last_k1 _ _ offs2_k1 _ _ _
  isplitl [H7]
  · iexists _; isplitr; swap; · iexact H7
    ipureintro; exact read_whole_last_k1 _ _ offs2_k1 _ _ _
  iexists _; isplitr; swap; · iexact H8
  ipureintro
  refine (read_whole_last_k1 _ _ offs2_k1 _ _ _).trans ?_
  simp only [View.readAt_eq_ld, h3.read_unread, h4.read_unread, View.ld_unit_zero (S := S1x1024x64) offs3_k1]
  rfl

/-- Case B (`qi ∈ {1, 2}`): the scratch at `p` ends at `step1 xq xk p`; the statistics buffer is untouched. -/
theorem run1_B (c : Dev nD) (E : Set ℕ) (i : grid1.Coords) (hc0 : ¬cond1_0 i) (hc1 : cond1_1 i) (hc2 : ¬cond1_2 i)
    (a3 : Memref sig .tc .vmem S1x1024x64 .bf16) (h3 : a3.IsWhole) (a4 : Memref sig .tc .vmem S1x1024x64 .bf16) (h4 : a4.IsWhole)
    (a5 : Memref sig .tc .vmem S1x1x1024 .f32) (h5 : a5.IsWhole) (a6 : Memref sig .tc .vmem S1x1024 .f32) (h6 : a6.IsWhole)
    (a7 : Memref sig .tc .vmem S1x1024 .f32) (h7 : a7.IsWhole) (a8 : Memref sig .tc .vmem S1024x1024 .f32) (h8 : a8.IsWhole)
    (xq xk : Vec F S1x1024x64 .bf16) (x5 : Vec F S1x1x1024 .f32) (p : St1 F) (K : PUnit → sProp 𝕄) :
    iprop(owns (c : Thread nD τ) a3 fullShare xq ∗ owns (c : Thread nD τ) a4 fullShare xk ∗ owns (c : Thread nD τ) a5 fullShare x5
        ∗ owns (c : Thread nD τ) a6 fullShare p.1 ∗ owns (c : Thread nD τ) a7 fullShare p.2.1 ∗ owns (c : Thread nD τ) a8 fullShare p.2.2
        ∗ (iprop(owns (c : Thread nD τ) a3 fullShare xq ∗ owns (c : Thread nD τ) a4 fullShare xk ∗ owns (c : Thread nD τ) a5 fullShare x5
            ∗ owns (c : Thread nD τ) a6 fullShare (step1 xq xk p).1 ∗ owns (c : Thread nD τ) a7 fullShare (step1 xq xk p).2.1
            ∗ owns (c : Thread nD τ) a8 fullShare (step1 xq xk p).2.2) -∗ K ⟨⟩))
      ⊢ wp frame (wpE (defs₀ (F := F)) Variants.none c none) E (cc1__stats_kernel i a3 h3 a4 h4 a5 h5 a6 h6 a7 h7 a8 h8) K := by
  simp only [cc1__stats_kernel_eq_skeleton]; unfold cc1__stats_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hc0 | exact hc1 | exact hc2)
  sl_step
  iapply Hk
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro
    refine (read_whole_last_k1 _ _ offs2_k1 _ _ _).trans ?_
    simp only [View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
    rfl
  isplitl [H7]
  · iexists _; isplitr; swap; · iexact H7
    ipureintro
    refine (read_whole_last_k1 _ _ offs2_k1 _ _ _).trans ?_
    sl_unfold_words
    simp only [readCov_whole_last_k1 (S := S1x1024) _ offs2_k1, readCov_whole_last_k1 (S := S1024x1024) _ offs2_k1, View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
    rfl
  iexists _; isplitr; swap; · iexact H8
  ipureintro
  refine (read_whole_last_k1 _ _ offs2_k1 _ _ _).trans ?_
  simp only [View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
  rfl

/-- Case C (`qi = 3`): as case B, and the statistics buffer ends at `m + log l` of the state folded once more. -/
theorem run1_C (c : Dev nD) (E : Set ℕ) (i : grid1.Coords) (hc0 : ¬cond1_0 i) (hc1 : cond1_1 i) (hc2 : cond1_2 i)
    (a3 : Memref sig .tc .vmem S1x1024x64 .bf16) (h3 : a3.IsWhole) (a4 : Memref sig .tc .vmem S1x1024x64 .bf16) (h4 : a4.IsWhole)
    (a5 : Memref sig .tc .vmem S1x1x1024 .f32) (h5 : a5.IsWhole) (a6 : Memref sig .tc .vmem S1x1024 .f32) (h6 : a6.IsWhole)
    (a7 : Memref sig .tc .vmem S1x1024 .f32) (h7 : a7.IsWhole) (a8 : Memref sig .tc .vmem S1024x1024 .f32) (h8 : a8.IsWhole)
    (xq xk : Vec F S1x1024x64 .bf16) (p : St1 F) (K : PUnit → sProp 𝕄) :
    iprop(owns (c : Thread nD τ) a3 fullShare xq ∗ owns (c : Thread nD τ) a4 fullShare xk ∗ (∃ d, owns (c : Thread nD τ) a5 fullShare d)
        ∗ owns (c : Thread nD τ) a6 fullShare p.1 ∗ owns (c : Thread nD τ) a7 fullShare p.2.1 ∗ owns (c : Thread nD τ) a8 fullShare p.2.2
        ∗ (iprop(owns (c : Thread nD τ) a3 fullShare xq ∗ owns (c : Thread nD τ) a4 fullShare xk
            ∗ owns (c : Thread nD τ) a5 fullShare (k1_pay8 (step1 xq xk p).2.2 (step1 xq xk p).1 (step1 xq xk p).2.1)
            ∗ owns (c : Thread nD τ) a6 fullShare (step1 xq xk p).1 ∗ owns (c : Thread nD τ) a7 fullShare (step1 xq xk p).2.1
            ∗ owns (c : Thread nD τ) a8 fullShare (step1 xq xk p).2.2) -∗ K ⟨⟩))
      ⊢ wp frame (wpE (defs₀ (F := F)) Variants.none c none) E (cc1__stats_kernel i a3 h3 a4 h4 a5 h5 a6 h6 a7 h7 a8 h8) K := by
  simp only [cc1__stats_kernel_eq_skeleton]; unfold cc1__stats_kernel_skel
  unfold owns
  iintro ⟨⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := h3.eq_unread hf3; obtain rfl := h4.eq_unread hf4;
  obtain rfl := h6.eq_unread hf6; obtain rfl := h7.eq_unread hf7; obtain rfl := h8.eq_unread hf8
  sl_exec (disch := first | exact hc0 | exact hc1 | exact hc2)
  sl_step
  iapply Hk
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro
    sl_unfold_words
    refine (read_whole_last_k1 _ _ offs3_k1 _ _ _).trans ?_
    simp only [readCov_whole_last_k1 (S := S1x1024) _ offs2_k1, readCov_whole_last_k1 (S := S1024x1024) _ offs2_k1, View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
    rfl
  isplitl [H6]
  · iexists _; isplitr; swap; · iexact H6
    ipureintro
    sl_unfold_words
    refine (read_whole_last_k1 _ _ offs2_k1 _ _ _).trans ?_
    simp only [readCov_whole_last_k1 (S := S1x1024) _ offs2_k1, readCov_whole_last_k1 (S := S1024x1024) _ offs2_k1, View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
    rfl
  isplitl [H7]
  · iexists _; isplitr; swap; · iexact H7
    ipureintro
    sl_unfold_words
    refine (read_whole_last_k1 _ _ offs2_k1 _ _ _).trans ?_
    simp only [readCov_whole_last_k1 (S := S1x1024) _ offs2_k1, readCov_whole_last_k1 (S := S1024x1024) _ offs2_k1, View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
    rfl
  iexists _; isplitr; swap; · iexact H8
  ipureintro
  sl_unfold_words
  refine (read_whole_last_k1 _ _ offs2_k1 _ _ _).trans ?_
  simp only [readCov_whole_last_k1 (S := S1x1024) _ offs2_k1, readCov_whole_last_k1 (S := S1024x1024) _ offs2_k1, View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
  rfl

end Cert.Kernel.Fr

end
-- ==== Proof.KB.Dat1.lean ====
/-
  Region 1 (the column-statistics kernel) entered at buffer contents `V`: its proof data. The scratch triple
  (running maximum, running sum, parked score tile) is carried from point to point (`sc1`); the statistics block is
  written only at the last query step of a key tile.
-/
import proofs.«424057_j71219147702834_3_alg».proof.Proof.KB.Blk
import proofs.«424057_j71219147702834_3_alg».proof.Proof.KB.Runs1
import proofs.«424057_j71219147702834_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The kernel's three scratch operands as whole memrefs. -/
abbrev scM1_0 : Memref sig .tc .vmem S1x1024 .f32 := Memref.whole cc1_scratch0
abbrev scM1_1 : Memref sig .tc .vmem S1x1024 .f32 := Memref.whole cc1_scratch1
abbrev scM1_2 : Memref sig .tc .vmem S1024x1024 .f32 := Memref.whole cc1_scratch2

/-- The region invariant before point `n`: at the start the class's (every scoped non-staging buffer at something);
    afterwards the three scratch buffers at what the point before left, the other scoped buffers at something. -/
def PhiS1 (c : Dev nD) : (n : ℕ) → n ≤ cfg1.N → sProp 𝕄
  | 0, _ => Pipeline.ΦA spec1 c
  | n + 1, hn => iprop(owns (c : Thread nD τ) scM1_0 fullShare (sc1 V c n hn).1
      ∗ owns (c : Thread nD τ) scM1_1 fullShare (sc1 V c n hn).2.1
      ∗ owns (c : Thread nD τ) scM1_2 fullShare (sc1 V c n hn).2.2
      ∗ Pipeline.scopedRestBut (Ix := Unit) (Name := ℕ) (U := UR sig nD τ) (Lvl := ℕ) (Val := Elt F) spec1 c [cc1_scratch0, cc1_scratch1, cc1_scratch2]
      ∗ (∃ r, prngReg c r))

/-- Proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

/-- The invariant before the first point is the class's. -/
theorem Phi1_zero (c : Dev nD) : (dat1 V c).Φ 0 = Pipeline.ΦA spec1 c := rfl

/-! ## The invariant, opened -/

/-- The class's invariant with the kernel's three scratch operands as memrefs owned at some contents, the other
    scoped buffers unopened. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
            ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2])
        ∗ (∃ r, prngReg c r)) := by
  unfold Pipeline.ΦA; rw [scopedRest1_split]; simp only [scM1_0, scM1_1, scM1_2, owns_whole]; rfl

/-- Before any point but the first: the scratch at what the point before left. -/
theorem PhiS1_pos (c : Dev nD) (n : ℕ) (h : n ≤ cfg1.N) (hz : n ≠ 0) :
    PhiS1 V c n h = iprop(owns (c : Thread nD τ) scM1_0 fullShare (sc1 V c (n - 1) (by omega)).1
      ∗ owns (c : Thread nD τ) scM1_1 fullShare (sc1 V c (n - 1) (by omega)).2.1
      ∗ owns (c : Thread nD τ) scM1_2 fullShare (sc1 V c (n - 1) (by omega)).2.2
      ∗ Pipeline.scopedRestBut (Ix := Unit) (Name := ℕ) (U := UR sig nD τ) (Lvl := ℕ) (Val := Elt F) spec1 c [cc1_scratch0, cc1_scratch1, cc1_scratch2]
      ∗ (∃ r, prngReg c r)) := by
  cases n with
  | zero => exact absurd rfl hz
  | succ n => rfl

theorem Phi1_castSucc (c : Dev nD) (t : Fin cfg1.N) :
    (dat1 V c).Φ t.castSucc = PhiS1 V c t.val (Nat.le_of_lt t.isLt) := rfl

theorem Phi1_succ (c : Dev nD) (t : Fin cfg1.N) :
    (dat1 V c).Φ t.succ = iprop(owns (c : Thread nD τ) scM1_0 fullShare (sc1 V c t.val t.isLt).1
      ∗ owns (c : Thread nD τ) scM1_1 fullShare (sc1 V c t.val t.isLt).2.1
      ∗ owns (c : Thread nD τ) scM1_2 fullShare (sc1 V c t.val t.isLt).2.2
      ∗ Pipeline.scopedRestBut (Ix := Unit) (Name := ℕ) (U := UR sig nD τ) (Lvl := ℕ) (Val := Elt F) spec1 c [cc1_scratch0, cc1_scratch1, cc1_scratch2]
      ∗ (∃ r, prngReg c r)) := rfl

/-- After the last point the invariant gives the class's back: the scratch contents are forgotten. -/
theorem Phi1_last (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨H0, H1, H2, Hr, Hg⟩
  isplitr [Hg]
  · isplitr [Hr]
    · isplitl [H0]
      · iexists _; iexact H0
      isplitl [H1]
      · iexists _; iexact H1
      iexists _; iexact H2
    iexact Hr
  iexact Hg

/-! ## What the input windows' buffers hold -/

/-- The query window is fetched at every point: its buffer holds the point's block. -/
theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := fun t => by
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The key window is fetched at the first query step of a key tile only; its block index does not move over the
    other three, so its buffer holds the point's block there as well. -/
theorem before1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := fun t => by
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-- The invariant before any point, with the scratch contents forgotten: what a point that resets the statistics needs. -/
theorem PhiS1_forget (c : Dev nD) (n : ℕ) (h : n ≤ cfg1.N) :
    PhiS1 V c n h ⊢ (iprop((∃ d, owns (c : Thread nD τ) scM1_0 fullShare d) ∗ (∃ d, owns (c : Thread nD τ) scM1_1 fullShare d)
      ∗ (∃ d, owns (c : Thread nD τ) scM1_2 fullShare d)
      ∗ Pipeline.scopedRestBut (Ix := Unit) (Name := ℕ) (U := UR sig nD τ) (Lvl := ℕ) (Val := Elt F) spec1 c [cc1_scratch0, cc1_scratch1, cc1_scratch2]
      ∗ (∃ r, prngReg c r)) : sProp 𝕄) := by
  cases n with
  | zero =>
    rw [show PhiS1 V c 0 h = Pipeline.ΦA spec1 c from rfl, PhiA1_eq]
    iintro ⟨⟨⟨H0, H1, H2⟩, Hr⟩, Hg⟩
    isplitl [H0]; · iexact H0
    isplitl [H1]; · iexact H1
    isplitl [H2]; · iexact H2
    isplitl [Hr]; · iexact Hr
    iexact Hg
  | succ n =>
    rw [show PhiS1 V c (n + 1) h = iprop(owns (c : Thread nD τ) scM1_0 fullShare (sc1 V c n h).1
      ∗ owns (c : Thread nD τ) scM1_1 fullShare (sc1 V c n h).2.1
      ∗ owns (c : Thread nD τ) scM1_2 fullShare (sc1 V c n h).2.2
      ∗ Pipeline.scopedRestBut (Ix := Unit) (Name := ℕ) (U := UR sig nD τ) (Lvl := ℕ) (Val := Elt F) spec1 c [cc1_scratch0, cc1_scratch1, cc1_scratch2]
      ∗ (∃ r, prngReg c r)) from rfl]
    iintro ⟨H0, H1, H2, Hr, Hg⟩
    isplitl [H0]; · iexists _; iexact H0
    isplitl [H1]; · iexists _; iexact H1
    isplitl [H2]; · iexists _; iexact H2
    isplitl [Hr]; · iexact Hr
    iexact Hg

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The two input windows are live everywhere: the body leaves their blocks in place. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
/-- The statistics window is live at the last query step of a key tile, where the body writes `m + log l`. -/
theorem leaves1_2_last (c : Dev nD) (t : Fin cfg1.N) (h3 : t.val % 4 = 3) :
    (dat1 V c).leavesExact 2 t = owns (c : Thread nD τ) (st1_2 t) fullShare (out1 V c t) := by
  unfold Dat.leavesExact; rw [liveAt1_2 t h3, after1_2]

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, Phi1_succ, Phi1_castSucc, leaves1_0, leaves1_1]
  have hN : t.val < 128 := lt_of_lt_of_eq t.isLt N_1
  rcases (by omega : t.val % 4 = 0 ∨ (t.val % 4 = 1 ∨ t.val % 4 = 2) ∨ t.val % 4 = 3) with h0 | h12 | h3
  · -- first query step of a key tile: whatever the scratch held, the statistics are reset
    have hc0 : cond1_0 (grid1.coords t) := (hcond1_0 t).mpr h0
    have hc1 : ¬cond1_1 (grid1.coords t) := fun h => (hcond1_1 t).mp h h0
    have hc2 : ¬cond1_2 (grid1.coords t) := fun h => by have := (hcond1_2 t).mp h; omega
    rw [Dat.leavesExact_idle (dat1 V c) 2 t (idleAt1_2 t (by omega)) (noFlush1_2 t (by omega)), sc1_reset V c t h0]
    iintro ⟨HI, Ho, ⟨%d0, H0⟩, ⟨%d1, H1⟩, ⟨%d2, H2⟩⟩
    ihave ⟨⟨%e0, HS0⟩, ⟨%e1, HS1⟩, ⟨%e2, HS2⟩, Hr, Hg⟩ := (PhiS1_forget V c t.val (Nat.le_of_lt t.isLt)) $$ HI
    iapply (run1_A c Set.univ (grid1.coords t) hc0 hc1 hc2 _ _ _ _ _ _ _ _ _ _ _ _ (iblk1 V c 0 t) (iblk1 V c 1 t) ((dat1 V c).before 2 t d2) _)
    isplitl [H0]; · iexact H0
    isplitl [H1]; · iexact H1
    isplitl [H2]; · iexact H2
    isplitl [HS0]; · iexists _; iexact HS0
    isplitl [HS1]; · iexists _; iexact HS1
    isplitl [HS2]; · iexists _; iexact HS2
    iintro ⟨H0, H1, H2, HS0, HS1, HS2⟩
    isplitl [HS0 HS1 HS2 Hr Hg]
    · isplitl [HS0]; · iexact HS0
      isplitl [HS1]; · iexact HS1
      isplitl [HS2]; · iexact HS2
      isplitl [Hr]; · iexact Hr
      iexact Hg
    isplitl [Ho]; · iexact Ho
    isplitl [H0]; · iexact H0
    isplitl [H1]; · iexact H1
    iexists _; iexact H2
  · -- a middle query step: the parked tile folded into the statistics, the new tile parked
    have hnz : ¬ t.val % 4 = 0 := by omega
    have hc0 : ¬cond1_0 (grid1.coords t) := fun h => hnz ((hcond1_0 t).mp h)
    have hc1 : cond1_1 (grid1.coords t) := (hcond1_1 t).mpr hnz
    have hc2 : ¬cond1_2 (grid1.coords t) := fun h => by have := (hcond1_2 t).mp h; omega
    rw [Dat.leavesExact_idle (dat1 V c) 2 t (idleAt1_2 t (by omega)) (noFlush1_2 t (by omega)), sc1_step V c t hnz,
      PhiS1_pos V c t.val _ (by omega)]
    iintro ⟨⟨HS0, HS1, HS2, Hr, Hg⟩, Ho, ⟨%d0, H0⟩, ⟨%d1, H1⟩, ⟨%d2, H2⟩⟩
    iapply (run1_B c Set.univ (grid1.coords t) hc0 hc1 hc2 _ _ _ _ _ _ _ _ _ _ _ _ (iblk1 V c 0 t) (iblk1 V c 1 t) ((dat1 V c).before 2 t d2)
      (sc1 V c (t.val - 1) (Nat.lt_of_le_of_lt (Nat.sub_le _ _) t.isLt)) _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hr Hg]
    · isplitl [HS0]; · iexact HS0
      isplitl [HS1]; · iexact HS1
      isplitl [HS2]; · iexact HS2
      isplitl [Hr]; · iexact Hr
      iexact Hg
    isplitl [Ho]; · iexact Ho
    isplitl [H0]; · iexact H0
    isplitl [H1]; · iexact H1
    iexists _; iexact H2
  · -- the last query step of a key tile: a middle step, and the own tile folded as well into the statistics row
    have hnz : ¬ t.val % 4 = 0 := by omega
    have hc0 : ¬cond1_0 (grid1.coords t) := fun h => hnz ((hcond1_0 t).mp h)
    have hc1 : cond1_1 (grid1.coords t) := (hcond1_1 t).mpr hnz
    have hc2 : cond1_2 (grid1.coords t) := (hcond1_2 t).mpr h3
    rw [leaves1_2_last V c t h3]; unfold out1
    rw [sc1_step V c t hnz, PhiS1_pos V c t.val _ (by omega)]
    iintro ⟨⟨HS0, HS1, HS2, Hr, Hg⟩, Ho, ⟨%d0, H0⟩, ⟨%d1, H1⟩, ⟨%d2, H2⟩⟩
    iapply (run1_C c Set.univ (grid1.coords t) hc0 hc1 hc2 _ _ _ _ _ _ _ _ _ _ _ _ (iblk1 V c 0 t) (iblk1 V c 1 t)
      (sc1 V c (t.val - 1) (Nat.lt_of_le_of_lt (Nat.sub_le _ _) t.isLt)) _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, H2, HS0, HS1, HS2⟩
    isplitl [HS0 HS1 HS2 Hr Hg]
    · isplitl [HS0]; · iexact HS0
      isplitl [HS1]; · iexact HS1
      isplitl [HS2]; · iexact HS2
      isplitl [Hr]; · iexact Hr
      iexact Hg
    isplitl [Ho]; · iexact Ho
    isplitl [H0]; · iexact H0
    isplitl [H1]; · iexact H1
    iexact H2

/-- The body at every point of region 1 meets the pipeline's obligation. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Runs2.lean ====
/-
  Region 2's kernel body as Hoare triples, one per control case. The body branches on the key step `ki` (grid
  coordinate 2): `ki = 0` zeroes the accumulator; `ki > 0` adds the parked tiles' `exp(s - ml)·v`; every step
  parks its score tile, value tile and normaliser row; `ki = 3` adds its own tiles as well and writes the accumulator.
  Case A: `ki = 0`. Case B: `ki ∈ {1, 2}`. Case C: `ki = 3`.
-/
import proofs.«424057_j71219147702834_3_alg».proof.Proof.KB.Blk
import proofs.«424057_j71219147702834_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 2).val) 0#32)) 0#32) = 1#1
abbrev cond2_1 (i : grid2.Coords) : Prop := (Scalar.cmpi .ne (Scalar.extui (Scalar.cmpi .sgt (BitVec.ofNat 32 (i 2).val) 0#32)) 0#32) = 1#1
abbrev cond2_2 (i : grid2.Coords) : Prop := k2_cond3 i = 1#1

theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ ¬ t.val % 4 = 0 :=
  (by decide +kernel : ∀ t : Fin grid2.N, cond2_1 (grid2.coords t) ↔ ¬ t.val % 4 = 0)
theorem hcond2_2 : ∀ t : Fin cfg2.N, cond2_2 (grid2.coords t) ↔ t.val % 4 = 3 :=
  (by decide +kernel : ∀ t : Fin grid2.N, cond2_2 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬ t.val % 4 = 3 → cfg2.idle 4 (grid2.coords t) = true := by decide +kernel
theorem noFlush2_4 : ∀ t : Fin cfg2.N, ¬ t.val % 4 = 3 → (cfg2.win 4).flush t = false := by decide +kernel
theorem liveAt2_4 : ∀ t : Fin cfg2.N, t.val % 4 = 3 → cfg2.idle 4 (grid2.coords t) = false := by decide +kernel

/-! ## Whole-buffer loads and stores

Every load and store of this kernel goes through the rectangle of the buffer's whole shape at zero offsets. -/

section WholeAccess
variable {Val : EltTy → Type} [∀ e, Nonempty (Val e)] {sg : RefSig} {κ : Kind} {sp : Space} {S : Shape} {e : EltTy}

/-- A store through the whole-shape rectangle, made last, leaves its payload, whatever was stored before. -/
private theorem read_writes_cons_whole (v : View sg κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

/-- A load through the whole-shape rectangle of a whole memref holding `X` reads `X`. -/
private theorem readAt_whole {m : Memref sg κ sp S e} (h : m.IsWhole) {off : Fin S.rank → ℕ} (hz : off = fun _ => 0)
    (inb : ∀ a, off a + S.size a ≤ S.size a) (X : S.Idx → Val e) :
    m.view.readAt Val (Rect.unit off S.size inb).toLoadRect (h.unread X) = X := by
  rw [View.readAt_eq_ld, h.read_unread]; exact View.ld_unit_zero hz inb X

/-- A load through the whole-shape rectangle after a store through it reads the store's payload. -/
private theorem readCov_cons_whole (v : View sg κ sp S e) {off : Fin S.rank → ℕ} (hz : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero hz inb y⟩),
    View.canon_cons_unit_zero hz inb w L]
  exact View.ld_unit_zero hz inb w

end WholeAccess

private theorem zero2 : (![0, 0] : Fin 2 → ℕ) = fun _ => 0 := by funext a; fin_cases a <;> rfl
private theorem zero3 : (![0, 0, 0] : Fin 3 → ℕ) = fun _ => 0 := by funext a; fin_cases a <;> rfl

set_option maxHeartbeats 1000000 in
/-- Case A (`ki = 0`): whatever the scratch held, it ends at `reset2`; the output buffer is untouched. -/
theorem run2_A (c : Dev nD) (E : Set ℕ) (i : grid2.Coords) (hc0 : cond2_0 i) (hc1 : ¬cond2_1 i) (hc2 : ¬cond2_2 i)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1x1024 .f32) (h6 : a6.IsWhole)
    (a7 : Memref sig .tc .vmem S1x1024x64 .f32) (h7 : a7.IsWhole) (a8 : Memref sig .tc .vmem S1024x64 .f32) (h8 : a8.IsWhole)
    (a9 : Memref sig .tc .vmem S1024x1024 .f32) (h9 : a9.IsWhole) (a10 : Memref sig .tc .vmem S1024x64 .bf16) (h10 : a10.IsWhole)
    (a11 : Memref sig .tc .vmem S1x1024 .f32) (h11 : a11.IsWhole)
    (xq xk xv : Vec F S1x1024x64 .bf16) (xml : Vec F S1x1x1024 .f32) (x7 : Vec F S1x1024x64 .f32) (K : PUnit → sProp 𝕄) :
    iprop(owns (c : Thread nD τ) a3 fullShare xq ∗ owns (c : Thread nD τ) a4 fullShare xk ∗ owns (c : Thread nD τ) a5 fullShare xv ∗ owns (c : Thread nD τ) a6 fullShare xml ∗ owns (c : Thread nD τ) a7 fullShare x7
        ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
        ∗ (iprop(owns (c : Thread nD τ) a3 fullShare xq ∗ owns (c : Thread nD τ) a4 fullShare xk ∗ owns (c : Thread nD τ) a5 fullShare xv ∗ owns (c : Thread nD τ) a6 fullShare xml ∗ owns (c : Thread nD τ) a7 fullShare x7
            ∗ owns (c : Thread nD τ) a8 fullShare (reset2 xq xk xv xml).1 ∗ owns (c : Thread nD τ) a9 fullShare (reset2 xq xk xv xml).2.1
            ∗ owns (c : Thread nD τ) a10 fullShare (reset2 xq xk xv xml).2.2.1 ∗ owns (c : Thread nD τ) a11 fullShare (reset2 xq xk xv xml).2.2.2) -∗ K ⟨⟩))
      ⊢ wp frame (wpE (defs₀ (F := F)) Variants.none c none) E (cc2__out_kernel i a3 h3 a4 h4 a5 h5 a6 h6 a7 h7 a8 h8 a9 h9 a10 h10 a11 h11) K := by
  simp only [cc2__out_kernel_eq_skeleton]; unfold cc2__out_kernel_skel
  simp only [k2_part1_eq_skeleton]; unfold k2_part1_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := h3.eq_unread hf3; obtain rfl := h4.eq_unread hf4; obtain rfl := h5.eq_unread hf5
  obtain rfl := h6.eq_unread hf6; obtain rfl := h7.eq_unread hf7
  sl_exec (disch := first | exact hc0 | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    exact read_writes_cons_whole a8.view f8 zero2 _ _ _
  isplitl [H9]
  · iexists _; isplitr
    swap; · iexact H9
    ipureintro
    refine (read_writes_cons_whole a9.view f9 zero2 _ _ _).trans ?_
    rw [readAt_whole h3 zero3, readAt_whole h4 zero3]; rfl
  isplitl [H10]
  · iexists _; isplitr
    swap; · iexact H10
    ipureintro
    refine (read_writes_cons_whole a10.view f10 zero2 _ _ _).trans ?_
    rw [readAt_whole h5 zero3]; rfl
  iexists _; isplitr
  swap; · iexact H11
  ipureintro
  refine (read_writes_cons_whole a11.view f11 zero2 _ _ _).trans ?_
  rw [readAt_whole h6 zero3]; rfl

set_option maxHeartbeats 1000000 in
/-- Case B (`ki ∈ {1, 2}`): the scratch at `p` ends at `step2 … p`; the output buffer is untouched. -/
theorem run2_B (c : Dev nD) (E : Set ℕ) (i : grid2.Coords) (hc0 : ¬cond2_0 i) (hc1 : cond2_1 i) (hc2 : ¬cond2_2 i)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1x1024 .f32) (h6 : a6.IsWhole)
    (a7 : Memref sig .tc .vmem S1x1024x64 .f32) (h7 : a7.IsWhole) (a8 : Memref sig .tc .vmem S1024x64 .f32) (h8 : a8.IsWhole)
    (a9 : Memref sig .tc .vmem S1024x1024 .f32) (h9 : a9.IsWhole) (a10 : Memref sig .tc .vmem S1024x64 .bf16) (h10 : a10.IsWhole)
    (a11 : Memref sig .tc .vmem S1x1024 .f32) (h11 : a11.IsWhole)
    (xq xk xv : Vec F S1x1024x64 .bf16) (xml : Vec F S1x1x1024 .f32) (x7 : Vec F S1x1024x64 .f32) (p : St2 F) (K : PUnit → sProp 𝕄) :
    iprop(owns (c : Thread nD τ) a3 fullShare xq ∗ owns (c : Thread nD τ) a4 fullShare xk ∗ owns (c : Thread nD τ) a5 fullShare xv ∗ owns (c : Thread nD τ) a6 fullShare xml ∗ owns (c : Thread nD τ) a7 fullShare x7
        ∗ owns (c : Thread nD τ) a8 fullShare p.1 ∗ owns (c : Thread nD τ) a9 fullShare p.2.1 ∗ owns (c : Thread nD τ) a10 fullShare p.2.2.1 ∗ owns (c : Thread nD τ) a11 fullShare p.2.2.2
        ∗ (iprop(owns (c : Thread nD τ) a3 fullShare xq ∗ owns (c : Thread nD τ) a4 fullShare xk ∗ owns (c : Thread nD τ) a5 fullShare xv ∗ owns (c : Thread nD τ) a6 fullShare xml ∗ owns (c : Thread nD τ) a7 fullShare x7
            ∗ owns (c : Thread nD τ) a8 fullShare (step2 xq xk xv xml p).1 ∗ owns (c : Thread nD τ) a9 fullShare (step2 xq xk xv xml p).2.1
            ∗ owns (c : Thread nD τ) a10 fullShare (step2 xq xk xv xml p).2.2.1 ∗ owns (c : Thread nD τ) a11 fullShare (step2 xq xk xv xml p).2.2.2) -∗ K ⟨⟩))
      ⊢ wp frame (wpE (defs₀ (F := F)) Variants.none c none) E (cc2__out_kernel i a3 h3 a4 h4 a5 h5 a6 h6 a7 h7 a8 h8 a9 h9 a10 h10 a11 h11) K := by
  simp only [cc2__out_kernel_eq_skeleton]; unfold cc2__out_kernel_skel
  simp only [k2_part1_eq_skeleton]; unfold k2_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := h3.eq_unread hf3; obtain rfl := h4.eq_unread hf4; obtain rfl := h5.eq_unread hf5
  obtain rfl := h6.eq_unread hf6; obtain rfl := h7.eq_unread hf7; obtain rfl := h8.eq_unread hf8
  obtain rfl := h9.eq_unread hf9; obtain rfl := h10.eq_unread hf10; obtain rfl := h11.eq_unread hf11
  sl_exec (disch := first | exact hc0 | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    refine (read_writes_cons_whole a8.view _ zero2 _ _ _).trans ?_
    rw [readAt_whole h9 zero2, readAt_whole h11 zero2, readAt_whole h8 zero2, readAt_whole h10 zero2]; rfl
  isplitl [H9]
  · iexists _; isplitr
    swap; · iexact H9
    ipureintro
    refine (read_writes_cons_whole a9.view _ zero2 _ _ _).trans ?_
    rw [readAt_whole h3 zero3, readAt_whole h4 zero3]; rfl
  isplitl [H10]
  · iexists _; isplitr
    swap; · iexact H10
    ipureintro
    refine (read_writes_cons_whole a10.view _ zero2 _ _ _).trans ?_
    rw [readAt_whole h5 zero3]; rfl
  iexists _; isplitr
  swap; · iexact H11
  ipureintro
  refine (read_writes_cons_whole a11.view _ zero2 _ _ _).trans ?_
  rw [readAt_whole h6 zero3]; rfl

set_option maxHeartbeats 1000000 in
/-- Case C (`ki = 3`): the scratch at `p` ends at `last2 … p`, and the output buffer at its accumulator. -/
theorem run2_C (c : Dev nD) (E : Set ℕ) (i : grid2.Coords) (hc0 : ¬cond2_0 i) (hc1 : cond2_1 i) (hc2 : cond2_2 i)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1x1024 .f32) (h6 : a6.IsWhole)
    (a7 : Memref sig .tc .vmem S1x1024x64 .f32) (h7 : a7.IsWhole) (a8 : Memref sig .tc .vmem S1024x64 .f32) (h8 : a8.IsWhole)
    (a9 : Memref sig .tc .vmem S1024x1024 .f32) (h9 : a9.IsWhole) (a10 : Memref sig .tc .vmem S1024x64 .bf16) (h10 : a10.IsWhole)
    (a11 : Memref sig .tc .vmem S1x1024 .f32) (h11 : a11.IsWhole)
    (xq xk xv : Vec F S1x1024x64 .bf16) (xml : Vec F S1x1x1024 .f32) (p : St2 F) (K : PUnit → sProp 𝕄) :
    iprop(owns (c : Thread nD τ) a3 fullShare xq ∗ owns (c : Thread nD τ) a4 fullShare xk ∗ owns (c : Thread nD τ) a5 fullShare xv ∗ owns (c : Thread nD τ) a6 fullShare xml ∗ (∃ d, owns (c : Thread nD τ) a7 fullShare d)
        ∗ owns (c : Thread nD τ) a8 fullShare p.1 ∗ owns (c : Thread nD τ) a9 fullShare p.2.1 ∗ owns (c : Thread nD τ) a10 fullShare p.2.2.1 ∗ owns (c : Thread nD τ) a11 fullShare p.2.2.2
        ∗ (iprop(owns (c : Thread nD τ) a3 fullShare xq ∗ owns (c : Thread nD τ) a4 fullShare xk ∗ owns (c : Thread nD τ) a5 fullShare xv ∗ owns (c : Thread nD τ) a6 fullShare xml ∗ owns (c : Thread nD τ) a7 fullShare (k2_pay2 (last2 xq xk xv xml p).1)
            ∗ owns (c : Thread nD τ) a8 fullShare (last2 xq xk xv xml p).1 ∗ owns (c : Thread nD τ) a9 fullShare (last2 xq xk xv xml p).2.1
            ∗ owns (c : Thread nD τ) a10 fullShare (last2 xq xk xv xml p).2.2.1 ∗ owns (c : Thread nD τ) a11 fullShare (last2 xq xk xv xml p).2.2.2) -∗ K ⟨⟩))
      ⊢ wp frame (wpE (defs₀ (F := F)) Variants.none c none) E (cc2__out_kernel i a3 h3 a4 h4 a5 h5 a6 h6 a7 h7 a8 h8 a9 h9 a10 h10 a11 h11) K := by
  simp only [cc2__out_kernel_eq_skeleton]; unfold cc2__out_kernel_skel
  simp only [k2_part1_eq_skeleton]; unfold k2_part1_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := h3.eq_unread hf3; obtain rfl := h4.eq_unread hf4; obtain rfl := h5.eq_unread hf5
  obtain rfl := h6.eq_unread hf6; obtain rfl := h8.eq_unread hf8
  obtain rfl := h9.eq_unread hf9; obtain rfl := h10.eq_unread hf10; obtain rfl := h11.eq_unread hf11
  sl_exec (disch := first | exact hc0 | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    sl_unfold_words
    refine (read_writes_cons_whole a7.view _ zero3 _ _ _).trans ?_
    rw [readCov_cons_whole a8.view zero2]
    rw [readCov_cons_whole a9.view zero2, readCov_cons_whole a11.view zero2, readCov_cons_whole a8.view zero2,
      readCov_cons_whole a10.view zero2, readAt_whole h3 zero3, readAt_whole h4 zero3, readAt_whole h5 zero3,
      readAt_whole h6 zero3, readAt_whole h8 zero2, readAt_whole h9 zero2, readAt_whole h10 zero2, readAt_whole h11 zero2]
    rfl
  isplitl [H8]
  · iexists _; isplitr
    swap; · iexact H8
    ipureintro
    sl_unfold_words
    refine (read_writes_cons_whole a8.view _ zero2 _ _ _).trans ?_
    rw [readCov_cons_whole a9.view zero2, readCov_cons_whole a11.view zero2, readCov_cons_whole a8.view zero2,
      readCov_cons_whole a10.view zero2, readAt_whole h3 zero3, readAt_whole h4 zero3, readAt_whole h5 zero3,
      readAt_whole h6 zero3, readAt_whole h8 zero2, readAt_whole h9 zero2, readAt_whole h10 zero2, readAt_whole h11 zero2]
    rfl
  isplitl [H9]
  · iexists _; isplitr
    swap; · iexact H9
    ipureintro
    sl_unfold_words
    refine (read_writes_cons_whole a9.view _ zero2 _ _ _).trans ?_
    rw [readAt_whole h3 zero3, readAt_whole h4 zero3]; rfl
  isplitl [H10]
  · iexists _; isplitr
    swap; · iexact H10
    ipureintro
    sl_unfold_words
    refine (read_writes_cons_whole a10.view _ zero2 _ _ _).trans ?_
    rw [readAt_whole h5 zero3]; rfl
  iexists _; isplitr
  swap; · iexact H11
  ipureintro
  sl_unfold_words
  refine (read_writes_cons_whole a11.view _ zero2 _ _ _).trans ?_
  rw [readAt_whole h6 zero3]; rfl

end Cert.Kernel.Fr

end
-- ==== Proof.KB.Dat2.lean ====
/-
  Region 2 (the output kernel) entered at buffer contents `V`: its proof data. The scratch quadruple (accumulator,
  parked score tile, parked value tile, parked normaliser row) is carried from point to point (`sc2`); the output
  block is written only at the last key step of a query tile.
-/
import proofs.«424057_j71219147702834_3_alg».proof.Proof.KB.Blk
import proofs.«424057_j71219147702834_3_alg».proof.Proof.KB.Runs2
import proofs.«424057_j71219147702834_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The kernel's four scratch operands as whole memrefs. -/
abbrev scM2_0 : Memref sig .tc .vmem S1024x64 .f32 := Memref.whole cc2_scratch0
abbrev scM2_1 : Memref sig .tc .vmem S1024x1024 .f32 := Memref.whole cc2_scratch1
abbrev scM2_2 : Memref sig .tc .vmem S1024x64 .bf16 := Memref.whole cc2_scratch2
abbrev scM2_3 : Memref sig .tc .vmem S1x1024 .f32 := Memref.whole cc2_scratch3

/-- The region invariant before point `n`. -/
def PhiS2 (c : Dev nD) : (n : ℕ) → n ≤ cfg2.N → sProp 𝕄
  | 0, _ => Pipeline.ΦA spec2 c
  | n + 1, hn => iprop(owns (c : Thread nD τ) scM2_0 fullShare (sc2 V c n hn).1
      ∗ owns (c : Thread nD τ) scM2_1 fullShare (sc2 V c n hn).2.1
      ∗ owns (c : Thread nD τ) scM2_2 fullShare (sc2 V c n hn).2.2.1
      ∗ owns (c : Thread nD τ) scM2_3 fullShare (sc2 V c n hn).2.2.2
      ∗ Pipeline.scopedRestBut (Ix := Unit) (Name := ℕ) (U := UR sig nD τ) (Lvl := ℕ) (Val := Elt F) spec2 c [cc2_scratch0, cc2_scratch1, cc2_scratch2, cc2_scratch3]
      ∗ (∃ r, prngReg c r))

/-- Proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]

/-- The invariant before the first point is the class's. -/
theorem Phi2_zero (c : Dev nD) : (dat2 V c).Φ 0 = Pipeline.ΦA spec2 c := rfl

/-! ## The invariant, opened at the four scratch buffers -/

/-- The class's invariant with the scoped rest opened at the kernel's four scratch buffers. -/
theorem PhiA2_eq (c : Dev nD) :
    (Pipeline.ΦA spec2 c : sProp 𝕄)
      = iprop((((∃ d, owns (c : Thread nD τ) scM2_0 fullShare d) ∗ (∃ d, owns (c : Thread nD τ) scM2_1 fullShare d)
            ∗ (∃ d, owns (c : Thread nD τ) scM2_2 fullShare d) ∗ (∃ d, owns (c : Thread nD τ) scM2_3 fullShare d))
          ∗ Pipeline.scopedRestBut (Ix := Unit) (Name := ℕ) (U := UR sig nD τ) (Lvl := ℕ) (Val := Elt F) spec2 c [cc2_scratch0, cc2_scratch1, cc2_scratch2, cc2_scratch3])
        ∗ (∃ r, prngReg c r)) := by
  unfold Pipeline.ΦA
  rw [Pipeline.scopedRest_split_of_list spec2 c [cc2_scratch0, cc2_scratch1, cc2_scratch2, cc2_scratch3] (by decide) (by decide)]
  simp only [scM2_0, scM2_1, scM2_2, scM2_3, owns_whole]
  rfl

/-- Before a point that is not the first the scratch holds the state the point before left. -/
theorem PhiS2_pos (c : Dev nD) (n : ℕ) (h : n ≤ cfg2.N) (hz : n ≠ 0) :
    PhiS2 V c n h = iprop(owns (c : Thread nD τ) scM2_0 fullShare (sc2 V c (n - 1) (by omega)).1
      ∗ owns (c : Thread nD τ) scM2_1 fullShare (sc2 V c (n - 1) (by omega)).2.1
      ∗ owns (c : Thread nD τ) scM2_2 fullShare (sc2 V c (n - 1) (by omega)).2.2.1
      ∗ owns (c : Thread nD τ) scM2_3 fullShare (sc2 V c (n - 1) (by omega)).2.2.2
      ∗ Pipeline.scopedRestBut (Ix := Unit) (Name := ℕ) (U := UR sig nD τ) (Lvl := ℕ) (Val := Elt F) spec2 c [cc2_scratch0, cc2_scratch1, cc2_scratch2, cc2_scratch3]
      ∗ (∃ r, prngReg c r)) := by
  obtain ⟨k, rfl⟩ := Nat.exists_eq_succ_of_ne_zero hz
  rfl

/-- At any point the invariant holds the four scratch buffers at SOME contents (named ones forgotten). -/
theorem PhiS2_any (c : Dev nD) (n : ℕ) (h : n ≤ cfg2.N) :
    PhiS2 V c n h ⊢ (iprop((∃ d, owns (c : Thread nD τ) scM2_0 fullShare d) ∗ (∃ d, owns (c : Thread nD τ) scM2_1 fullShare d)
      ∗ (∃ d, owns (c : Thread nD τ) scM2_2 fullShare d) ∗ (∃ d, owns (c : Thread nD τ) scM2_3 fullShare d)
      ∗ Pipeline.scopedRestBut (Ix := Unit) (Name := ℕ) (U := UR sig nD τ) (Lvl := ℕ) (Val := Elt F) spec2 c [cc2_scratch0, cc2_scratch1, cc2_scratch2, cc2_scratch3]
      ∗ (∃ r, prngReg c r)) : sProp 𝕄) := by
  by_cases hz : n = 0
  · subst hz
    rw [show PhiS2 V c 0 h = Pipeline.ΦA spec2 c from rfl, PhiA2_eq]
    iintro ⟨⟨⟨S0, S1, S2, S3⟩, HR⟩, Hg⟩
    isplitl [S0]; · iexact S0
    isplitl [S1]; · iexact S1
    isplitl [S2]; · iexact S2
    isplitl [S3]; · iexact S3
    isplitl [HR]; · iexact HR
    iexact Hg
  · rw [PhiS2_pos V c n h hz]
    iintro ⟨S0, S1, S2, S3, HR, Hg⟩
    isplitl [S0]; · iexists _; iexact S0
    isplitl [S1]; · iexists _; iexact S1
    isplitl [S2]; · iexists _; iexact S2
    isplitl [S3]; · iexists _; iexact S3
    isplitl [HR]; · iexact HR
    iexact Hg

/-- After the last point the invariant gives the class's back. -/
theorem Phi2_last (c : Dev nD) : (dat2 V c).Φ (Fin.last cfg2.N) ⊢ (Pipeline.ΦA spec2 c : sProp 𝕄) := by
  refine BIBase.Entails.trans (PhiS2_any V c (Fin.last cfg2.N).val (Nat.le_of_lt_succ (Fin.last cfg2.N).isLt)) ?_
  rw [PhiA2_eq]
  iintro ⟨S0, S1, S2, S3, HR, Hg⟩
  isplitr [Hg]
  · isplitr [HR]
    · isplitl [S0]; · iexact S0
      isplitl [S1]; · iexact S1
      isplitl [S2]; · iexact S2
      iexact S3
    · iexact HR
  · iexact Hg

/-! ## What the body finds in the input windows -/

/-- Query block: fetched at the first key step of a query tile only; its block index does not move in between. -/
theorem before2_0 (c : Dev nD) (t : Fin cfg2.N) (d) : (dat2 V c).before 0 t d = iblk2 V c 0 t := by
  rw [(dat2 V c).before_in_eq_fetched 0 rfl (fun _ => rfl) (fun _ _ _ => rfl) (fun _ => rfl) t d]
  rfl
/-- Key block, value block and normaliser block: fetched at every point. -/
theorem before2_1 (c : Dev nD) (t : Fin cfg2.N) (d) : (dat2 V c).before 1 t d = iblk2 V c 1 t := by
  rw [(dat2 V c).before_in_eq_fetched 1 rfl (fun _ => rfl) (fun _ _ _ => rfl) (fun _ => rfl) t d]
  rfl
theorem before2_2 (c : Dev nD) (t : Fin cfg2.N) (d) : (dat2 V c).before 2 t d = iblk2 V c 2 t := by
  rw [(dat2 V c).before_in_eq_fetched 2 rfl (fun _ => rfl) (fun _ _ _ => rfl) (fun _ => rfl) t d]
  rfl
theorem before2_3 (c : Dev nD) (t : Fin cfg2.N) (d) : (dat2 V c).before 3 t d = iblk2 V c 3 t := by
  rw [(dat2 V c).before_in_eq_fetched 3 rfl (fun _ => rfl) (fun _ _ _ => rfl) (fun _ => rfl) t d]
  rfl

/-- A window live at point `t` is left at `after`. -/
theorem leaves2_live (c : Dev nD) (w : Fin cfg2.W) (t : Fin cfg2.N) (hl : cfg2.idle w (cfg2.grid.coords t) = false) :
    (dat2 V c).leavesExact w t = owns (c : Thread nD τ) ((cfg2.win w).stage (cfg2.slots t w)) fullShare ((dat2 V c).after w t) := by
  unfold Dat.leavesExact; rw [hl]

/-! ## The body at a generic point -/

/-- What the pipeline hands the body at point `t`: the invariant, what the core owes, each window's current buffer. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What the body must return. -/
def post2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

/-- After point `t` the invariant holds the scratch at `sc2 … t`. -/
theorem Phi2_succ (c : Dev nD) (t : Fin cfg2.N) :
    (dat2 V c).Φ t.succ = iprop(owns (c : Thread nD τ) scM2_0 fullShare (sc2 V c t.val t.isLt).1
      ∗ owns (c : Thread nD τ) scM2_1 fullShare (sc2 V c t.val t.isLt).2.1
      ∗ owns (c : Thread nD τ) scM2_2 fullShare (sc2 V c t.val t.isLt).2.2.1
      ∗ owns (c : Thread nD τ) scM2_3 fullShare (sc2 V c t.val t.isLt).2.2.2
      ∗ Pipeline.scopedRestBut (Ix := Unit) (Name := ℕ) (U := UR sig nD τ) (Lvl := ℕ) (Val := Elt F) spec2 c [cc2_scratch0, cc2_scratch1, cc2_scratch2, cc2_scratch3]
      ∗ (∃ r, prngReg c r)) := rfl

/-- Before point `t` the invariant is `PhiS2` at `t`. -/
theorem Phi2_castSucc (c : Dev nD) (t : Fin cfg2.N) :
    (dat2 V c).Φ t.castSucc = PhiS2 V c t.val (Nat.le_of_lt t.isLt) := rfl

/-- The body at point `t`, by the key step `t % 4`: step 0 resets the scratch from whatever it held; steps 1 and 2
    fold the parked tiles into the accumulator and park their own; step 3 folds twice and writes the accumulator to
    the output block. The four input buffers hold their blocks throughout and are handed back as found; the output
    buffer is untouched except at step 3; the core owes nothing. -/
theorem point2 (c : Dev nD) (t : Fin cfg2.N) :
    pre2 V c t ⊢ wp frame (wpE (defs₀ (F := F)) Variants.none c none) Set.univ (bodyAt2 t) (fun _ => post2 V c t) := by
  unfold pre2 post2
  simp only [before2_0, before2_1, before2_2, before2_3]
  rw [show (dat2 V c).owesAt () t.succ = (dat2 V c).owesAt () t.castSucc from rfl]
  rw [leaves2_live V c 0 t (liveAt2_0 t), leaves2_live V c 1 t (liveAt2_1 t), leaves2_live V c 2 t (liveAt2_2 t),
    leaves2_live V c 3 t (liveAt2_3 t), after2_0, after2_1, after2_2, after2_3, Phi2_succ, Phi2_castSucc]
  by_cases h0 : t.val % 4 = 0
  · -- first key step of a query tile: the scratch, whatever it held, ends at `reset2`; the output window is idle
    have h3 : ¬ t.val % 4 = 3 := by omega
    rw [Dat.leavesExact_idle (dat2 V c) 4 t (idleAt2_4 t h3) (noFlush2_4 t h3), sc2_reset V c t h0]
    iintro ⟨HΦ, Ho, ⟨%d0, H0⟩, ⟨%d1, H1⟩, ⟨%d2, H2⟩, ⟨%d3, H3⟩, ⟨%d4, H4⟩⟩
    icases (PhiS2_any V c t.val (Nat.le_of_lt t.isLt)) $$ HΦ with ⟨S0, S1, S2, S3, HR, Hg⟩
    iapply (run2_A c Set.univ (grid2.coords t) ((hcond2_0 t).mpr h0) (fun h => (hcond2_1 t).mp h h0) (fun h => h3 ((hcond2_2 t).mp h))
      _ _ _ _ _ _ _ _ _ _ _ _ _ _ _ _ _ _ (iblk2 V c 0 t) (iblk2 V c 1 t) (iblk2 V c 2 t) (iblk2 V c 3 t) ((dat2 V c).before 4 t d4) _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨H0, H1, H2, H3, H4, S0, S1, S2, S3⟩
    isplitl [S0 S1 S2 S3 HR Hg]
    · isplitl [S0]; · iexact S0
      isplitl [S1]; · iexact S1
      isplitl [S2]; · iexact S2
      isplitl [S3]; · iexact S3
      isplitl [HR]; · iexact HR
      iexact Hg
    isplitl [Ho]; · iexact Ho
    isplitl [H0]; · iexact H0
    isplitl [H1]; · iexact H1
    isplitl [H2]; · iexact H2
    isplitl [H3]; · iexact H3
    iexists d4; iexact H4
  · have hz : t.val ≠ 0 := fun e => h0 (by rw [e])
    rw [PhiS2_pos V c t.val (Nat.le_of_lt t.isLt) hz]
    by_cases h3 : t.val % 4 = 3
    · -- last key step: the parked tiles folded in, then this step's own; the accumulator written to the output block
      rw [leaves2_live V c 4 t (liveAt2_4 t h3), after2_4, show out2 V c t = k2_pay2 (sc2 V c t.val t.isLt).1 from rfl, sc2_last V c t h3]
      iintro ⟨⟨S0, S1, S2, S3, HR, Hg⟩, Ho, ⟨%d0, H0⟩, ⟨%d1, H1⟩, ⟨%d2, H2⟩, ⟨%d3, H3⟩, ⟨%d4, H4⟩⟩
      iapply (run2_C c Set.univ (grid2.coords t) (fun h => h0 ((hcond2_0 t).mp h)) ((hcond2_1 t).mpr h0) ((hcond2_2 t).mpr h3)
        _ _ _ _ _ _ _ _ _ _ _ _ _ _ _ _ _ _ (iblk2 V c 0 t) (iblk2 V c 1 t) (iblk2 V c 2 t) (iblk2 V c 3 t)
        (sc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      isplitl [S3]; · iexact S3
      iintro ⟨H0, H1, H2, H3, H4, S0, S1, S2, S3⟩
      isplitl [S0 S1 S2 S3 HR Hg]
      · isplitl [S0]; · iexact S0
        isplitl [S1]; · iexact S1
        isplitl [S2]; · iexact S2
        isplitl [S3]; · iexact S3
        isplitl [HR]; · iexact HR
        iexact Hg
      isplitl [Ho]; · iexact Ho
      isplitl [H0]; · iexact H0
      isplitl [H1]; · iexact H1
      isplitl [H2]; · iexact H2
      isplitl [H3]; · iexact H3
      iexact H4
    · -- a middle key step: the parked tiles folded in, this step's parked; the output window is idle
      rw [Dat.leavesExact_idle (dat2 V c) 4 t (idleAt2_4 t h3) (noFlush2_4 t h3), sc2_step V c t h0 h3]
      iintro ⟨⟨S0, S1, S2, S3, HR, Hg⟩, Ho, ⟨%d0, H0⟩, ⟨%d1, H1⟩, ⟨%d2, H2⟩, ⟨%d3, H3⟩, ⟨%d4, H4⟩⟩
      iapply (run2_B c Set.univ (grid2.coords t) (fun h => h0 ((hcond2_0 t).mp h)) ((hcond2_1 t).mpr h0) (fun h => h3 ((hcond2_2 t).mp h))
        _ _ _ _ _ _ _ _ _ _ _ _ _ _ _ _ _ _ (iblk2 V c 0 t) (iblk2 V c 1 t) (iblk2 V c 2 t) (iblk2 V c 3 t) ((dat2 V c).before 4 t d4)
        (sc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      isplitl [S0 S1 S2 S3 HR Hg]
      · isplitl [S0]; · iexact S0
        isplitl [S1]; · iexact S1
        isplitl [S2]; · iexact S2
        isplitl [S3]; · iexact S3
        isplitl [HR]; · iexact HR
        iexact Hg
      isplitl [Ho]; · iexact Ho
      isplitl [H0]; · iexact H0
      isplitl [H1]; · iexact H1
      isplitl [H2]; · iexact H2
      isplitl [H3]; · iexact H3
      iexists d4; iexact H4

/-- The body at every point of region 2 meets the pipeline's obligation. -/
theorem body_obligation2 (c : Dev nD) : BodyObligation (dat2 (F := F) V c) (defs₀ (F := F)) Variants.none () Set.univ := fun t => by
  rw [bigSep_W2, bigSep_W2]
  exact point2 V c t

end Cert.Kernel.Fr

end
-- ==== Proof.KB.Run.lean ====
/-
  The whole run of @main: three kernel regions in sequence and nothing else. The buffer contents at each region
  boundary are folded from the launch memory (each region leaves its arrays at what its write-backs make of them and
  every other buffer as it found it); every region's proof data is taken at its entry contents; the launch theorem
  for a list of regions then gives, at the end of every execution, each unscoped buffer at the last boundary's
  contents. From that: the arguments are never written, and the result array holds the third region's fold.
-/
import proofs.«424057_j71219147702834_3_alg».proof.Proof.KB.Dat0
import proofs.«424057_j71219147702834_3_alg».proof.Proof.KB.Dat1
import proofs.«424057_j71219147702834_3_alg».proof.Proof.KB.Dat2
import proofs.«424057_j71219147702834_3_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core `c`'s buffers at launch (the first region's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After the projection region: its six arrays at what its write-backs leave, the rest as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the statistics region: its three arrays at what its write-backs leave, the rest as it found them. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the output region: its five arrays at what its write-backs leave, the rest as it found them. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## Reading the fold at particular buffers -/

/-- At launch an argument's buffer holds the launch memory's. -/
theorem V0_main_arg0 (c : Dev nD) : V0 m ρ c main_arg0 = m ((c : Thread nD τ).loc main_arg0) := rfl
theorem V0_main_arg1 (c : Dev nD) : V0 m ρ c main_arg1 = m ((c : Thread nD τ).loc main_arg1) := rfl
theorem V0_main_arg2 (c : Dev nD) : V0 m ρ c main_arg2 = m ((c : Thread nD τ).loc main_arg2) := rfl

/-- The statistics region finds the two scaled projections as the projection region's write-backs left them. -/
theorem V1_main_v0_0 (c : Dev nD) : V1 m ρ c main_v0_0 = (dat0 (V0 m ρ) c).arrAt 3 cfg0.N := W1_arr m ρ c 3
theorem V1_main_v0_1 (c : Dev nD) : V1 m ρ c main_v0_1 = (dat0 (V0 m ρ) c).arrAt 4 cfg0.N := W1_arr m ρ c 4

/-- The output region finds the statistics as the statistics region's write-backs left them, -/
theorem V2_main_v1 (c : Dev nD) : V2 m ρ c main_v1 = (dat1 (V1 m ρ) c).arrAt 2 cfg1.N := W2_arr m ρ c 2
/-- the two scaled projections unchanged by the statistics region, which only reads them, -/
theorem V2_main_v0_0 (c : Dev nD) : V2 m ρ c main_v0_0 = (dat0 (V0 m ρ) c).arrAt 3 cfg0.N :=
  (W2_arr m ρ c 0).trans (((dat1 (V1 m ρ) c).arrAt_in 0 rfl _).trans ((A_eq1 (V1 m ρ) c 0).trans (V1_main_v0_0 m ρ c)))
theorem V2_main_v0_1 (c : Dev nD) : V2 m ρ c main_v0_1 = (dat0 (V0 m ρ) c).arrAt 4 cfg0.N :=
  (W2_arr m ρ c 1).trans (((dat1 (V1 m ρ) c).arrAt_in 1 rfl _).trans ((A_eq1 (V1 m ρ) c 1).trans (V1_main_v0_1 m ρ c)))
/-- and the unscaled projection untouched by it. -/
theorem V2_main_v0_2 (c : Dev nD) : V2 m ρ c main_v0_2 = (dat0 (V0 m ρ) c).arrAt 5 cfg0.N :=
  (W2_of_ne m ρ c main_v0_2 (by decide)).trans (W1_arr m ρ c 5)

/-! ### The arguments end as launched: the projection region only reads three of them and no region touches the fourth -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
/-- The result array ends at the output region's fold of its write-backs. -/
theorem W3_main_v2 (c : Dev nD) : W3 m ρ c (Proc.devRef .tc main_v2) = (dat2 (V2 m ρ) c).arrAt 4 cfg2.N := W3_arr m ρ c 4

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the core's generator register at some state and its debts,
    of which there are none. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W0`, left at `W1`. Its arrays are
    split out of the unscoped buffers at entry and put back at their final contents at exit; the generator register
    goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W1`, left at `W2`. Its arrays are
    split out of the unscoped buffers at entry and put back at their final contents at exit; the generator register
    goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (V1 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W2`, left at `W3`. Its arrays are
    split out of the unscoped buffers at entry and put back at their final contents at exit; the generator register
    goes into the region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from Phi2_zero (V2 m ρ) c]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from Phi2_last (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the three regions, and the launch -/

/-- @main's segments: one region per kernel call, nothing between them. -/
abbrev segs : List (Pipeline.Seg (pcfgs (F := F)) adm (pdats m ρ) () defs₀ 𝒱₀ L lv) :=
  [ .region (reg0 m ρ), .region (reg1 m ρ), .region (reg2 m ρ) ]
/-- @main is the run of those segments. -/
theorem main_run (c : Dev nD) : main (F := F) c = Pipeline.Seg.run (segs m ρ) :=
  main_segs adm (pdats m ρ) () 𝒱₀ L lv (reg0 m ρ) (reg1 m ρ) (reg2 m ρ) c

-- the launch theorem's implicit arguments are found by unifying its conclusion with this one, which takes unfolding
-- plain definitions in a metavariable's type
set_option backward.isDefEq.respectTransparency.types false in
/-- THE RUN. From any memory with zero counters every weakly fair execution of @main on the TensorCores terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The result: the result array ends at the output region's fold of its write-backs, the arguments as launched. -/
theorem result : θ_run defs (onTc (τ := τ) (main (F := F))) ⟨m, fun _ => 0, ρ⟩ (fun r => ∀ c : Dev nD,
      r.2.mem ((c.tc : Thread nD τ).loc main_v2) = (dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.Kernel.Fr

end
-- ==== Proof.KI.Blk.lean ====
/-
  The blocks each grid point of the three kernels reads, and what the two attention kernels carry from
  one grid point to the next, as functions of the buffer contents `V` a kernel region is entered at.

  Region 0 (projection) has nothing to carry: each point writes three blocks computed from its row
  block of `x` and the two weight matrices.
  Region 1 (column statistics) keeps, per key tile, a running maximum `m`, a running sum `l` and the
  previous score tile; the first query step of a key tile resets `m` to -inf and `l` to 0, every later
  step folds the PREVIOUS score tile into `(m, l)` and then parks the new tile.
  Region 2 (output) keeps an accumulator and the previous step's score tile, value tile and
  normaliser row; the last key step of a query tile folds twice (the parked tile, then its own).
-/
import proofs.«424057_j71219147702834_3_alg».proof.Proof.Gen.KernelIdeal.Skeleton
import proofs.«424057_j71219147702834_3_alg».proof.Proof.Gen.KernelIdeal.Points

set_option maxRecDepth 16384

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]

section Blocks
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The same for region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The same for region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Region 1: running maximum, running sum, parked score tile -/

/-- The carried triple `(m, l, parked tile)`. -/
abbrev St1 (F : FTy → Type) [FloatOps F] : Type := Vec F S1x1024 .f32 × Vec F S1x1024 .f32 × Vec F S1024x1024 .f32

/-- First query step of a key tile: `m = -inf`, `l = 0`, the tile `q·kᵀ` parked. -/
def reset1 (xq xk : Vec F S1x1024x64 .bf16) : St1 F := (k1_pay1, k1_pay2, k1_pay7 xq xk)
/-- A later step: the parked tile folded into `(m, l)` (new maximum, the old sum rescaled plus the tile's
    column sums of exponentials), the new tile parked. -/
def step1 (xq xk : Vec F S1x1024x64 .bf16) (p : St1 F) : St1 F :=
  (k1_pay6 p.2.2 p.1, k1_pay5 p.2.2 p.1 (k1_pay4 p.2.2 p.1 p.2.1), k1_pay7 xq xk)

/-- What region 1's scratch holds after point `n`. -/
def sc1 (c : Dev nD) : (n : ℕ) → n < cfg1.N → St1 F
  | 0, hn => reset1 (iblk1 V c 0 ⟨0, hn⟩) (iblk1 V c 1 ⟨0, hn⟩)
  | n + 1, hn =>
    if (n + 1) % 4 = 0 then reset1 (iblk1 V c 0 ⟨n + 1, hn⟩) (iblk1 V c 1 ⟨n + 1, hn⟩)
    else step1 (iblk1 V c 0 ⟨n + 1, hn⟩) (iblk1 V c 1 ⟨n + 1, hn⟩) (sc1 c n (Nat.lt_of_succ_lt hn))

/-- What the last query step of a key tile writes to its block of the statistics row: the parked (own) tile
    folded once more, then `m + log l`. -/
def out1 (c : Dev nD) (t : Fin cfg1.N) : Vec F S1x1x1024 .f32 :=
  k1_pay8 (sc1 V c t.val t.isLt).2.2 (sc1 V c t.val t.isLt).1 (sc1 V c t.val t.isLt).2.1

theorem sc1_reset (c : Dev nD) (t : Fin cfg1.N) (h : t.val % 4 = 0) :
    sc1 V c t.val t.isLt = reset1 (iblk1 V c 0 t) (iblk1 V c 1 t) := by
  obtain ⟨n, hn⟩ := t
  cases n with
  | zero => rfl
  | succ n => exact if_pos h
theorem sc1_step (c : Dev nD) (t : Fin cfg1.N) (h : ¬ t.val % 4 = 0) :
    sc1 V c t.val t.isLt = step1 (iblk1 V c 0 t) (iblk1 V c 1 t) (sc1 V c (t.val - 1) (Nat.lt_of_le_of_lt (Nat.sub_le _ _) t.isLt)) := by
  obtain ⟨n, hn⟩ := t
  cases n with
  | zero => exact absurd (Nat.zero_mod _) h
  | succ n => exact if_neg h

/-! ## Region 2: accumulator, parked score tile, parked value tile, parked normaliser row -/

/-- The carried quadruple `(acc, parked scores, parked values, parked normaliser)`. -/
abbrev St2 (F : FTy → Type) [FloatOps F] : Type :=
  Vec F S1024x64 .f32 × Vec F S1024x1024 .f32 × Vec F S1024x64 .bf16 × Vec F S1x1024 .f32

/-- First key step of a query tile: the accumulator zeroed, this step's tiles parked. -/
def reset2 (xq xk xv : Vec F S1x1024x64 .bf16) (xml : Vec F S1x1x1024 .f32) : St2 F :=
  (k2_pay3, k2_pay5 xq xk, k2_pay6 xv, k2_pay7 xml)
/-- A middle step: the parked tiles' contribution `exp(s - ml)·v` added, this step's tiles parked. -/
def step2 (xq xk xv : Vec F S1x1024x64 .bf16) (xml : Vec F S1x1x1024 .f32) (p : St2 F) : St2 F :=
  (k2_pay4 p.2.1 p.2.2.2 p.1 p.2.2.1, k2_pay5 xq xk, k2_pay6 xv, k2_pay7 xml)
/-- The last step: a middle step, then the just-parked tiles' contribution added as well. -/
def last2 (xq xk xv : Vec F S1x1024x64 .bf16) (xml : Vec F S1x1x1024 .f32) (p : St2 F) : St2 F :=
  (k2_pay1 (k2_pay5 xq xk) (k2_pay7 xml) (k2_pay4 p.2.1 p.2.2.2 p.1 p.2.2.1) (k2_pay6 xv), k2_pay5 xq xk, k2_pay6 xv, k2_pay7 xml)

/-- What region 2's scratch holds after point `n`. -/
def sc2 (c : Dev nD) : (n : ℕ) → n < cfg2.N → St2 F
  | 0, hn => reset2 (iblk2 V c 0 ⟨0, hn⟩) (iblk2 V c 1 ⟨0, hn⟩) (iblk2 V c 2 ⟨0, hn⟩) (iblk2 V c 3 ⟨0, hn⟩)
  | n + 1, hn =>
    if (n + 1) % 4 = 0 then reset2 (iblk2 V c 0 ⟨n + 1, hn⟩) (iblk2 V c 1 ⟨n + 1, hn⟩) (iblk2 V c 2 ⟨n + 1, hn⟩) (iblk2 V c 3 ⟨n + 1, hn⟩)
    else if (n + 1) % 4 = 3 then last2 (iblk2 V c 0 ⟨n + 1, hn⟩) (iblk2 V c 1 ⟨n + 1, hn⟩) (iblk2 V c 2 ⟨n + 1, hn⟩) (iblk2 V c 3 ⟨n + 1, hn⟩) (sc2 c n (Nat.lt_of_succ_lt hn))
    else step2 (iblk2 V c 0 ⟨n + 1, hn⟩) (iblk2 V c 1 ⟨n + 1, hn⟩) (iblk2 V c 2 ⟨n + 1, hn⟩) (iblk2 V c 3 ⟨n + 1, hn⟩) (sc2 c n (Nat.lt_of_succ_lt hn))

/-- What the last key step of a query tile writes to its output block: the accumulator. -/
def out2 (c : Dev nD) (t : Fin cfg2.N) : Vec F S1x1024x64 .f32 := k2_pay2 (sc2 V c t.val t.isLt).1

theorem sc2_reset (c : Dev nD) (t : Fin cfg2.N) (h : t.val % 4 = 0) :
    sc2 V c t.val t.isLt = reset2 (iblk2 V c 0 t) (iblk2 V c 1 t) (iblk2 V c 2 t) (iblk2 V c 3 t) := by
  obtain ⟨n, hn⟩ := t
  cases n with
  | zero => rfl
  | succ n => exact if_pos h
theorem sc2_step (c : Dev nD) (t : Fin cfg2.N) (h0 : ¬ t.val % 4 = 0) (h3 : ¬ t.val % 4 = 3) :
    sc2 V c t.val t.isLt = step2 (iblk2 V c 0 t) (iblk2 V c 1 t) (iblk2 V c 2 t) (iblk2 V c 3 t) (sc2 V c (t.val - 1) (Nat.lt_of_le_of_lt (Nat.sub_le _ _) t.isLt)) := by
  obtain ⟨n, hn⟩ := t
  cases n with
  | zero => exact absurd (Nat.zero_mod _) h0
  | succ n => exact (if_neg h0).trans (if_neg h3)
theorem sc2_last (c : Dev nD) (t : Fin cfg2.N) (h3 : t.val % 4 = 3) :
    sc2 V c t.val t.isLt = last2 (iblk2 V c 0 t) (iblk2 V c 1 t) (iblk2 V c 2 t) (iblk2 V c 3 t) (sc2 V c (t.val - 1) (Nat.lt_of_le_of_lt (Nat.sub_le _ _) t.isLt)) := by
  obtain ⟨n, hn⟩ := t
  cases n with
  | zero => exact absurd h3 (by simp)
  | succ n =>
    have h3' : (n + 1) % 4 = 3 := h3
    exact (if_neg (by omega)).trans (if_pos h3')

end Blocks

end Cert.KernelIdeal.Fr

end
-- ==== Proof.KI.Dat0.lean ====
/-
  Region 0 (the projection kernel) entered at buffer contents `V`: its proof data. Each grid point (batch b, row
  tile s) reads its 1024 rows of x and the two weight matrices and writes three blocks: the scaled q, k, and the
  unscaled q (used as v). Nothing is carried between points.
-/
import proofs.«424057_j71219147702834_3_alg».proof.Proof.KI.Blk
import proofs.«424057_j71219147702834_3_alg».proof.Proof.Gen.KernelIdeal.Launch
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Proof data of region 0 on core `c`: arrays as found; after the body the inputs' buffers hold their blocks and the
    three outputs' the projections of the point's blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay4 (iblk0 V c 0 t) (iblk0 V c 1 t)
    | ⟨4, _⟩ => k0_pay5 (iblk0 V c 0 t) (iblk0 V c 2 t)
    | ⟨5, _⟩ => k0_pay3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay4 (iblk0 V c 0 t) (iblk0 V c 1 t) := by dsimp only [dat0]
theorem after0_4 (c : Dev nD) (t : Fin cfg0.N) : (dat0 V c).after 4 t = k0_pay5 (iblk0 V c 0 t) (iblk0 V c 2 t) := by dsimp only [dat0]
theorem after0_5 (c : Dev nD) (t : Fin cfg0.N) : (dat0 V c).after 5 t = k0_pay3 (iblk0 V c 0 t) (iblk0 V c 1 t) := by dsimp only [dat0]

/-! ## The kernel function's triple

Every load and every store of the projection kernel is of a whole buffer: the rectangle at zero offsets with the
buffer's own extents. Through it a load reads the contents and a single store leaves its payload. -/

/-- The zero offsets of a rank-2 buffer, as a constant function. -/
private theorem zero_off2 : (![0, 0] : Fin 2 → ℕ) = fun _ => 0 := by
  funext a; fin_cases a <;> rfl
/-- The zero offsets of a rank-3 buffer, as a constant function. -/
private theorem zero_off3 : (![0, 0, 0] : Fin 3 → ℕ) = fun _ => 0 := by
  funext a; fin_cases a <;> rfl

/-- A buffer overwritten once through its whole rectangle reads the payload, whatever it held. -/
private theorem read_whole_store {κ : Kind} {sp : Space} {S : Shape} {e : EltTy} (v : View sig κ sp S e)
    (f : v.ty.Contents (Elt F)) {off : Fin S.rank → ℕ} (hz : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _
    (fun y => ⟨_, List.mem_singleton_self _, View.mem_set_unit_zero hz inb y⟩), View.canon_unit_zero hz inb w]

/-- A load through the whole rectangle reads what the buffer reads. -/
private theorem readAt_whole {κ : Kind} {sp : Space} {S : Shape} {e : EltTy} (v : View sig κ sp S e)
    (f : v.ty.Contents (Elt F)) {off : Fin S.rank → ℕ} (hz : off = fun _ => 0)
    (inb : ∀ a, off a + S.size a ≤ S.size a) :
    v.readAt (Elt F) (Rect.unit off S.size inb).toLoadRect f = v.read (Elt F) f := by
  rw [View.readAt_eq_ld, View.ld_unit_zero hz inb]

set_option maxHeartbeats 1000000 in
/-- The projection kernel on whole buffers: from the x block at `x0`, the two weight matrices at `x1`, `x2` and the three
    outputs at anything, it runs to the continuation with the inputs as they were and the outputs at the scaled q
    (`k0_pay4 x0 x1`), k (`k0_pay5 x0 x2`) and the unscaled q (`k0_pay3 x0 x1`). -/
theorem sound_kernel0 (c : Dev nD) (E : Set ℕ) (i : grid0.Coords)
    (a2 : Memref sig .tc .vmem S1x1024x768 .f32) (h2 : a2.IsWhole)
    (a3 : Memref sig .tc .vmem S64x768 .f32) (h3 : a3.IsWhole)
    (a4 : Memref sig .tc .vmem S64x768 .f32) (h4 : a4.IsWhole)
    (a5 : Memref sig .tc .vmem S1x1024x64 .bf16) (h5 : a5.IsWhole)
    (a6 : Memref sig .tc .vmem S1x1024x64 .bf16) (h6 : a6.IsWhole)
    (a7 : Memref sig .tc .vmem S1x1024x64 .bf16) (h7 : a7.IsWhole)
    (x0 : Vec F S1x1024x768 .f32) (x1 x2 : Vec F S64x768 .f32) (K : PUnit → sProp 𝕄) :
    iprop(owns (c : Thread nD τ) a2 fullShare x0 ∗ owns (c : Thread nD τ) a3 fullShare x1
        ∗ owns (c : Thread nD τ) a4 fullShare x2
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a2 fullShare x0 ∗ owns (c : Thread nD τ) a3 fullShare x1
            ∗ owns (c : Thread nD τ) a4 fullShare x2
            ∗ owns (c : Thread nD τ) a5 fullShare (k0_pay4 x0 x1)
            ∗ owns (c : Thread nD τ) a6 fullShare (k0_pay5 x0 x2)
            ∗ owns (c : Thread nD τ) a7 fullShare (k0_pay3 x0 x1)) -∗ K ⟨⟩))
      ⊢ wp frame (wpE (defs₀ (F := F)) Variants.none c none) E (cc0__proj_kernel i a2 h2 a3 h3 a4 h4 a5 h5 a6 h6 a7 h7) K := by
  simp only [cc0__proj_kernel_eq_skeleton]; unfold cc0__proj_kernel_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf2; subst hf3; subst hf4
  sl_exec
  sl_step
  iapply Hk
  -- the loads were of the whole buffers
  have e2 := readAt_whole (F := F) a2.view f2 (S := S1x1024x768) zero_off3 inb_S1x1024x768_S1x1024x768_0_0_0
  have e3 := readAt_whole (F := F) a3.view f3 (S := S64x768) zero_off2 inb_S64x768_S64x768_0_0
  have e4 := readAt_whole (F := F) a4.view f4 (S := S64x768) zero_off2 inb_S64x768_S64x768_0_0
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_whole_store (F := F) a5.view f5 (S := S1x1024x64) zero_off3 inb_S1x1024x64_S1x1024x64_0_0_0, e2, e3]
  isplitl [H6]
  · iexists _; isplitr
    swap; · iexact H6
    ipureintro
    rw [read_whole_store (F := F) a6.view f6 (S := S1x1024x64) zero_off3 inb_S1x1024x64_S1x1024x64_0_0_0, e2, e4]
  iexists _; isplitr
  swap; · iexact H7
  ipureintro
  rw [read_whole_store (F := F) a7.view f7 (S := S1x1024x64) zero_off3 inb_S1x1024x64_S1x1024x64_0_0_0, e2, e3]

/-! ## What the body finds in the input windows

An input window's buffer holds its block whether or not the point fetched it: an unfetched point has the block index
of the point before, and the body leaves every input as it found it. The x block is fetched at every point; the two
weight matrices, whose block index never moves, at the first point only. -/

/-- The x block's buffer holds the point's rows of x. -/
theorem before0_0 (c : Dev nD) (t : Fin cfg0.N) (d) : (dat0 V c).before 0 t d = iblk0 V c 0 t :=
  (dat0 V c).before_in_eq_fetched 0 rfl (fun _ => rfl) (fun _ _ _ => rfl) (fun t => by rw [after0_0]; rfl) t d
/-- The first weight buffer holds the query weights. -/
theorem before0_1 (c : Dev nD) (t : Fin cfg0.N) (d) : (dat0 V c).before 1 t d = iblk0 V c 1 t :=
  (dat0 V c).before_in_eq_fetched 1 rfl (fun _ => rfl) (fun _ _ _ => rfl) (fun t => by rw [after0_1]; rfl) t d
/-- The second weight buffer holds the key weights. -/
theorem before0_2 (c : Dev nD) (t : Fin cfg0.N) (d) : (dat0 V c).before 2 t d = iblk0 V c 2 t :=
  (dat0 V c).before_in_eq_fetched 2 rfl (fun _ => rfl) (fun _ _ _ => rfl) (fun t => by rw [after0_2]; rfl) t d

/-! ## The body obligation -/

set_option maxHeartbeats 1000000 in
/-- The body at a point: the three inputs' buffers hold the point's blocks, so the kernel's triple applies at them; the
    invariant and what the core owes are not read and are the same before and after; the outputs' buffers, handed
    over at whatever they held, come back at the three projections. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d)))
    ⊢ wp frame (wpE (defs₀ (F := F)) Variants.none c none) Set.univ (bodyAt0 t) (fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t)
          ∗ owns (c : Thread nD τ) (st0_5 t) fullShare ((dat0 V c).after 5 t))) := by
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body at every point of region 0 meets the pipeline's obligation. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Runs1.lean ====
/-
  Region 1's kernel body as Hoare triples, one per control case. The body branches on the query step `qi` (grid
  coordinate 2): `qi = 0` resets the running maximum and sum; `qi > 0` folds the parked score tile into them;
  every step parks its own tile; `qi = 3` folds that tile as well and writes `m + log l`.
  Case A: `qi = 0`. Case B: `qi ∈ {1, 2}`. Case C: `qi = 3`.
-/
import proofs.«424057_j71219147702834_3_alg».proof.Proof.KI.Blk
import proofs.«424057_j71219147702834_3_alg».proof.Proof.Gen.KernelIdeal.Launch
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions, from the grid coordinates, and their closed forms over the grid -/

abbrev cond1_0 (i : grid1.Coords) : Prop := (Scalar.cmpi .ne (Scalar.extui (Scalar.cmpi .eq (BitVec.ofNat 32 (i 2).val) 0#32)) 0#32) = 1#1
abbrev cond1_1 (i : grid1.Coords) : Prop := (Scalar.cmpi .ne (Scalar.extui (Scalar.cmpi .sgt (BitVec.ofNat 32 (i 2).val) 0#32)) 0#32) = 1#1
abbrev cond1_2 (i : grid1.Coords) : Prop := k1_cond3 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ ¬ t.val % 4 = 0 :=
  (by decide +kernel : ∀ t : Fin grid1.N, cond1_1 (grid1.coords t) ↔ ¬ t.val % 4 = 0)
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬ t.val % 4 = 3 → cfg1.idle 2 (grid1.coords t) = true := by decide +kernel
theorem noFlush1_2 : ∀ t : Fin cfg1.N, ¬ t.val % 4 = 3 → (cfg1.win 2).flush t = false := by decide +kernel
theorem liveAt1_2 : ∀ t : Fin cfg1.N, t.val % 4 = 3 → cfg1.idle 2 (grid1.coords t) = false := by decide +kernel

/-! ## Whole-buffer stores and loads

Every load and store of this kernel goes through the rectangle of the buffer's own sizes at zero offsets. -/

theorem offs2_k1 : (![0, 0] : Fin 2 → Nat) = fun _ => 0 := funext fun a => by fin_cases a <;> rfl
theorem offs3_k1 : (![0, 0, 0] : Fin 3 → Nat) = fun _ => 0 := funext fun a => by fin_cases a <;> rfl

section Whole
variable {Val : EltTy → Type} [∀ e, Nonempty (Val e)] {S : Shape} {e : EltTy}

/-- A buffer whose LAST store went through the whole-shape rectangle reads as that store's payload, whatever it
    held before and whatever the earlier stores were. -/
theorem read_whole_last_k1 {sg : RefSig} {κ : Kind} {sp : Space} (v : View sg κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A whole-shape load after such a store reads the payload too. -/
theorem readCov_whole_last_k1 {sg : RefSig} {κ : Kind} {sp : Space} (v : View sg κ sp S e)
    {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

/-! ## The three triples -/

/-- Case A (`qi = 0`): whatever the scratch held, it ends at `reset1`; the statistics buffer is untouched. -/
theorem run1_A (c : Dev nD) (E : Set ℕ) (i : grid1.Coords) (hc0 : cond1_0 i) (hc1 : ¬cond1_1 i) (hc2 : ¬cond1_2 i)
    (a3 : Memref sig .tc .vmem S1x1024x64 .bf16) (h3 : a3.IsWhole) (a4 : Memref sig .tc .vmem S1x1024x64 .bf16) (h4 : a4.IsWhole)
    (a5 : Memref sig .tc .vmem S1x1x1024 .f32) (h5 : a5.IsWhole) (a6 : Memref sig .tc .vmem S1x1024 .f32) (h6 : a6.IsWhole)
    (a7 : Memref sig .tc .vmem S1x1024 .f32) (h7 : a7.IsWhole) (a8 : Memref sig .tc .vmem S1024x1024 .f32) (h8 : a8.IsWhole)
    (xq xk : Vec F S1x1024x64 .bf16) (x5 : Vec F S1x1x1024 .f32) (K : PUnit → sProp 𝕄) :
    iprop(owns (c : Thread nD τ) a3 fullShare xq ∗ owns (c : Thread nD τ) a4 fullShare xk ∗ owns (c : Thread nD τ) a5 fullShare x5
        ∗ (∃ d, owns (c : Thread nD τ) a6 fullShare d) ∗ (∃ d, owns (c : Thread nD τ) a7 fullShare d) ∗ (∃ d, owns (c : Thread nD τ) a8 fullShare d)
        ∗ (iprop(owns (c : Thread nD τ) a3 fullShare xq ∗ owns (c : Thread nD τ) a4 fullShare xk ∗ owns (c : Thread nD τ) a5 fullShare x5
            ∗ owns (c : Thread nD τ) a6 fullShare (reset1 xq xk).1 ∗ owns (c : Thread nD τ) a7 fullShare (reset1 xq xk).2.1
            ∗ owns (c : Thread nD τ) a8 fullShare (reset1 xq xk).2.2) -∗ K ⟨⟩))
      ⊢ wp frame (wpE (defs₀ (F := F)) Variants.none c none) E (cc1__stats_kernel i a3 h3 a4 h4 a5 h5 a6 h6 a7 h7 a8 h8) K := by
  simp only [cc1__stats_kernel_eq_skeleton]; unfold cc1__stats_kernel_skel
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := h3.eq_unread hf3; obtain rfl := h4.eq_unread hf4; obtain rfl := h5.eq_unread hf5
  sl_exec (disch := first | exact hc0 | exact hc1 | exact hc2)
  sl_step
  iapply Hk
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact read_whole_last_k1 _ _ offs2_k1 _ _ _
  isplitl [H7]
  · iexists _; isplitr; swap; · iexact H7
    ipureintro; exact read_whole_last_k1 _ _ offs2_k1 _ _ _
  iexists _; isplitr; swap; · iexact H8
  ipureintro
  refine (read_whole_last_k1 _ _ offs2_k1 _ _ _).trans ?_
  simp only [View.readAt_eq_ld, h3.read_unread, h4.read_unread, View.ld_unit_zero (S := S1x1024x64) offs3_k1]
  rfl

/-- Case B (`qi ∈ {1, 2}`): the scratch at `p` ends at `step1 xq xk p`; the statistics buffer is untouched. -/
theorem run1_B (c : Dev nD) (E : Set ℕ) (i : grid1.Coords) (hc0 : ¬cond1_0 i) (hc1 : cond1_1 i) (hc2 : ¬cond1_2 i)
    (a3 : Memref sig .tc .vmem S1x1024x64 .bf16) (h3 : a3.IsWhole) (a4 : Memref sig .tc .vmem S1x1024x64 .bf16) (h4 : a4.IsWhole)
    (a5 : Memref sig .tc .vmem S1x1x1024 .f32) (h5 : a5.IsWhole) (a6 : Memref sig .tc .vmem S1x1024 .f32) (h6 : a6.IsWhole)
    (a7 : Memref sig .tc .vmem S1x1024 .f32) (h7 : a7.IsWhole) (a8 : Memref sig .tc .vmem S1024x1024 .f32) (h8 : a8.IsWhole)
    (xq xk : Vec F S1x1024x64 .bf16) (x5 : Vec F S1x1x1024 .f32) (p : St1 F) (K : PUnit → sProp 𝕄) :
    iprop(owns (c : Thread nD τ) a3 fullShare xq ∗ owns (c : Thread nD τ) a4 fullShare xk ∗ owns (c : Thread nD τ) a5 fullShare x5
        ∗ owns (c : Thread nD τ) a6 fullShare p.1 ∗ owns (c : Thread nD τ) a7 fullShare p.2.1 ∗ owns (c : Thread nD τ) a8 fullShare p.2.2
        ∗ (iprop(owns (c : Thread nD τ) a3 fullShare xq ∗ owns (c : Thread nD τ) a4 fullShare xk ∗ owns (c : Thread nD τ) a5 fullShare x5
            ∗ owns (c : Thread nD τ) a6 fullShare (step1 xq xk p).1 ∗ owns (c : Thread nD τ) a7 fullShare (step1 xq xk p).2.1
            ∗ owns (c : Thread nD τ) a8 fullShare (step1 xq xk p).2.2) -∗ K ⟨⟩))
      ⊢ wp frame (wpE (defs₀ (F := F)) Variants.none c none) E (cc1__stats_kernel i a3 h3 a4 h4 a5 h5 a6 h6 a7 h7 a8 h8) K := by
  simp only [cc1__stats_kernel_eq_skeleton]; unfold cc1__stats_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := h3.eq_unread hf3; obtain rfl := h4.eq_unread hf4; obtain rfl := h5.eq_unread hf5
  obtain rfl := h6.eq_unread hf6; obtain rfl := h7.eq_unread hf7; obtain rfl := h8.eq_unread hf8
  sl_exec (disch := first | exact hc0 | exact hc1 | exact hc2)
  sl_step
  iapply Hk
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro
    refine (read_whole_last_k1 _ _ offs2_k1 _ _ _).trans ?_
    simp only [View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
    rfl
  isplitl [H7]
  · iexists _; isplitr; swap; · iexact H7
    ipureintro
    refine (read_whole_last_k1 _ _ offs2_k1 _ _ _).trans ?_
    sl_unfold_words
    simp only [readCov_whole_last_k1 (S := S1x1024) _ offs2_k1, readCov_whole_last_k1 (S := S1024x1024) _ offs2_k1, View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
    rfl
  iexists _; isplitr; swap; · iexact H8
  ipureintro
  refine (read_whole_last_k1 _ _ offs2_k1 _ _ _).trans ?_
  simp only [View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
  rfl

/-- Case C (`qi = 3`): as case B, and the statistics buffer ends at `m + log l` of the state folded once more. -/
theorem run1_C (c : Dev nD) (E : Set ℕ) (i : grid1.Coords) (hc0 : ¬cond1_0 i) (hc1 : cond1_1 i) (hc2 : cond1_2 i)
    (a3 : Memref sig .tc .vmem S1x1024x64 .bf16) (h3 : a3.IsWhole) (a4 : Memref sig .tc .vmem S1x1024x64 .bf16) (h4 : a4.IsWhole)
    (a5 : Memref sig .tc .vmem S1x1x1024 .f32) (h5 : a5.IsWhole) (a6 : Memref sig .tc .vmem S1x1024 .f32) (h6 : a6.IsWhole)
    (a7 : Memref sig .tc .vmem S1x1024 .f32) (h7 : a7.IsWhole) (a8 : Memref sig .tc .vmem S1024x1024 .f32) (h8 : a8.IsWhole)
    (xq xk : Vec F S1x1024x64 .bf16) (p : St1 F) (K : PUnit → sProp 𝕄) :
    iprop(owns (c : Thread nD τ) a3 fullShare xq ∗ owns (c : Thread nD τ) a4 fullShare xk ∗ (∃ d, owns (c : Thread nD τ) a5 fullShare d)
        ∗ owns (c : Thread nD τ) a6 fullShare p.1 ∗ owns (c : Thread nD τ) a7 fullShare p.2.1 ∗ owns (c : Thread nD τ) a8 fullShare p.2.2
        ∗ (iprop(owns (c : Thread nD τ) a3 fullShare xq ∗ owns (c : Thread nD τ) a4 fullShare xk
            ∗ owns (c : Thread nD τ) a5 fullShare (k1_pay8 (step1 xq xk p).2.2 (step1 xq xk p).1 (step1 xq xk p).2.1)
            ∗ owns (c : Thread nD τ) a6 fullShare (step1 xq xk p).1 ∗ owns (c : Thread nD τ) a7 fullShare (step1 xq xk p).2.1
            ∗ owns (c : Thread nD τ) a8 fullShare (step1 xq xk p).2.2) -∗ K ⟨⟩))
      ⊢ wp frame (wpE (defs₀ (F := F)) Variants.none c none) E (cc1__stats_kernel i a3 h3 a4 h4 a5 h5 a6 h6 a7 h7 a8 h8) K := by
  simp only [cc1__stats_kernel_eq_skeleton]; unfold cc1__stats_kernel_skel
  unfold owns
  iintro ⟨⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := h3.eq_unread hf3; obtain rfl := h4.eq_unread hf4;
  obtain rfl := h6.eq_unread hf6; obtain rfl := h7.eq_unread hf7; obtain rfl := h8.eq_unread hf8
  sl_exec (disch := first | exact hc0 | exact hc1 | exact hc2)
  sl_step
  iapply Hk
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro
    sl_unfold_words
    refine (read_whole_last_k1 _ _ offs3_k1 _ _ _).trans ?_
    simp only [readCov_whole_last_k1 (S := S1x1024) _ offs2_k1, readCov_whole_last_k1 (S := S1024x1024) _ offs2_k1, View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
    rfl
  isplitl [H6]
  · iexists _; isplitr; swap; · iexact H6
    ipureintro
    sl_unfold_words
    refine (read_whole_last_k1 _ _ offs2_k1 _ _ _).trans ?_
    simp only [readCov_whole_last_k1 (S := S1x1024) _ offs2_k1, readCov_whole_last_k1 (S := S1024x1024) _ offs2_k1, View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
    rfl
  isplitl [H7]
  · iexists _; isplitr; swap; · iexact H7
    ipureintro
    sl_unfold_words
    refine (read_whole_last_k1 _ _ offs2_k1 _ _ _).trans ?_
    simp only [readCov_whole_last_k1 (S := S1x1024) _ offs2_k1, readCov_whole_last_k1 (S := S1024x1024) _ offs2_k1, View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
    rfl
  iexists _; isplitr; swap; · iexact H8
  ipureintro
  sl_unfold_words
  refine (read_whole_last_k1 _ _ offs2_k1 _ _ _).trans ?_
  simp only [readCov_whole_last_k1 (S := S1x1024) _ offs2_k1, readCov_whole_last_k1 (S := S1024x1024) _ offs2_k1, View.readAt_eq_ld, h3.read_unread, h4.read_unread, h6.read_unread, h7.read_unread, h8.read_unread, View.ld_unit_zero (S := S1x1024x64) offs3_k1, View.ld_unit_zero (S := S1x1024) offs2_k1, View.ld_unit_zero (S := S1024x1024) offs2_k1]
  rfl

end Cert.KernelIdeal.Fr

end
-- ==== Proof.KI.Dat1.lean ====
/-
  Region 1 (the column-statistics kernel) entered at buffer contents `V`: its proof data. The scratch triple
  (running maximum, running sum, parked score tile) is carried from point to point (`sc1`); the statistics block is
  written only at the last query step of a key tile.
-/
import proofs.«424057_j71219147702834_3_alg».proof.Proof.KI.Blk
import proofs.«424057_j71219147702834_3_alg».proof.Proof.KI.Runs1
import proofs.«424057_j71219147702834_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The kernel's three scratch operands as whole memrefs. -/
abbrev scM1_0 : Memref sig .tc .vmem S1x1024 .f32 := Memref.whole cc1_scratch0
abbrev scM1_1 : Memref sig .tc .vmem S1x1024 .f32 := Memref.whole cc1_scratch1
abbrev scM1_2 : Memref sig .tc .vmem S1024x1024 .f32 := Memref.whole cc1_scratch2

/-- The region invariant before point `n`: at the start the class's (every scoped non-staging buffer at something);
    afterwards the three scratch buffers at what the point before left, the other scoped buffers at something. -/
def PhiS1 (c : Dev nD) : (n : ℕ) → n ≤ cfg1.N → sProp 𝕄
  | 0, _ => Pipeline.ΦA spec1 c
  | n + 1, hn => iprop(owns (c : Thread nD τ) scM1_0 fullShare (sc1 V c n hn).1
      ∗ owns (c : Thread nD τ) scM1_1 fullShare (sc1 V c n hn).2.1
      ∗ owns (c : Thread nD τ) scM1_2 fullShare (sc1 V c n hn).2.2
      ∗ Pipeline.scopedRestBut (Ix := Unit) (Name := ℕ) (U := UR sig nD τ) (Lvl := ℕ) (Val := Elt F) spec1 c [cc1_scratch0, cc1_scratch1, cc1_scratch2]
      ∗ (∃ r, prngReg c r))

/-- Proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]

/-- The invariant before the first point is the class's. -/
theorem Phi1_zero (c : Dev nD) : (dat1 V c).Φ 0 = Pipeline.ΦA spec1 c := rfl

/-! ## The invariant, opened -/

/-- The class's invariant with the kernel's three scratch operands as memrefs owned at some contents, the other
    scoped buffers unopened. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
            ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2])
        ∗ (∃ r, prngReg c r)) := by
  unfold Pipeline.ΦA; rw [scopedRest1_split]; simp only [scM1_0, scM1_1, scM1_2, owns_whole]; rfl

/-- Before any point but the first: the scratch at what the point before left. -/
theorem PhiS1_pos (c : Dev nD) (n : ℕ) (h : n ≤ cfg1.N) (hz : n ≠ 0) :
    PhiS1 V c n h = iprop(owns (c : Thread nD τ) scM1_0 fullShare (sc1 V c (n - 1) (by omega)).1
      ∗ owns (c : Thread nD τ) scM1_1 fullShare (sc1 V c (n - 1) (by omega)).2.1
      ∗ owns (c : Thread nD τ) scM1_2 fullShare (sc1 V c (n - 1) (by omega)).2.2
      ∗ Pipeline.scopedRestBut (Ix := Unit) (Name := ℕ) (U := UR sig nD τ) (Lvl := ℕ) (Val := Elt F) spec1 c [cc1_scratch0, cc1_scratch1, cc1_scratch2]
      ∗ (∃ r, prngReg c r)) := by
  cases n with
  | zero => exact absurd rfl hz
  | succ n => rfl

theorem Phi1_castSucc (c : Dev nD) (t : Fin cfg1.N) :
    (dat1 V c).Φ t.castSucc = PhiS1 V c t.val (Nat.le_of_lt t.isLt) := rfl

theorem Phi1_succ (c : Dev nD) (t : Fin cfg1.N) :
    (dat1 V c).Φ t.succ = iprop(owns (c : Thread nD τ) scM1_0 fullShare (sc1 V c t.val t.isLt).1
      ∗ owns (c : Thread nD τ) scM1_1 fullShare (sc1 V c t.val t.isLt).2.1
      ∗ owns (c : Thread nD τ) scM1_2 fullShare (sc1 V c t.val t.isLt).2.2
      ∗ Pipeline.scopedRestBut (Ix := Unit) (Name := ℕ) (U := UR sig nD τ) (Lvl := ℕ) (Val := Elt F) spec1 c [cc1_scratch0, cc1_scratch1, cc1_scratch2]
      ∗ (∃ r, prngReg c r)) := rfl

/-- After the last point the invariant gives the class's back: the scratch contents are forgotten. -/
theorem Phi1_last (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨H0, H1, H2, Hr, Hg⟩
  isplitr [Hg]
  · isplitr [Hr]
    · isplitl [H0]
      · iexists _; iexact H0
      isplitl [H1]
      · iexists _; iexact H1
      iexists _; iexact H2
    iexact Hr
  iexact Hg

/-! ## What the input windows' buffers hold -/

/-- The query window is fetched at every point: its buffer holds the point's block. -/
theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := fun t => by
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl

/-- The key window is fetched at the first query step of a key tile only; its block index does not move over the
    other three, so its buffer holds the point's block there as well. -/
theorem before1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := fun t => by
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl

/-- The invariant before any point, with the scratch contents forgotten: what a point that resets the statistics needs. -/
theorem PhiS1_forget (c : Dev nD) (n : ℕ) (h : n ≤ cfg1.N) :
    PhiS1 V c n h ⊢ (iprop((∃ d, owns (c : Thread nD τ) scM1_0 fullShare d) ∗ (∃ d, owns (c : Thread nD τ) scM1_1 fullShare d)
      ∗ (∃ d, owns (c : Thread nD τ) scM1_2 fullShare d)
      ∗ Pipeline.scopedRestBut (Ix := Unit) (Name := ℕ) (U := UR sig nD τ) (Lvl := ℕ) (Val := Elt F) spec1 c [cc1_scratch0, cc1_scratch1, cc1_scratch2]
      ∗ (∃ r, prngReg c r)) : sProp 𝕄) := by
  cases n with
  | zero =>
    rw [show PhiS1 V c 0 h = Pipeline.ΦA spec1 c from rfl, PhiA1_eq]
    iintro ⟨⟨⟨H0, H1, H2⟩, Hr⟩, Hg⟩
    isplitl [H0]; · iexact H0
    isplitl [H1]; · iexact H1
    isplitl [H2]; · iexact H2
    isplitl [Hr]; · iexact Hr
    iexact Hg
  | succ n =>
    rw [show PhiS1 V c (n + 1) h = iprop(owns (c : Thread nD τ) scM1_0 fullShare (sc1 V c n h).1
      ∗ owns (c : Thread nD τ) scM1_1 fullShare (sc1 V c n h).2.1
      ∗ owns (c : Thread nD τ) scM1_2 fullShare (sc1 V c n h).2.2
      ∗ Pipeline.scopedRestBut (Ix := Unit) (Name := ℕ) (U := UR sig nD τ) (Lvl := ℕ) (Val := Elt F) spec1 c [cc1_scratch0, cc1_scratch1, cc1_scratch2]
      ∗ (∃ r, prngReg c r)) from rfl]
    iintro ⟨H0, H1, H2, Hr, Hg⟩
    isplitl [H0]; · iexists _; iexact H0
    isplitl [H1]; · iexists _; iexact H1
    isplitl [H2]; · iexists _; iexact H2
    isplitl [Hr]; · iexact Hr
    iexact Hg

/-! ## The body at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The two input windows are live everywhere: the body leaves their blocks in place. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
/-- The statistics window is live at the last query step of a key tile, where the body writes `m + log l`. -/
theorem leaves1_2_last (c : Dev nD) (t : Fin cfg1.N) (h3 : t.val % 4 = 3) :
    (dat1 V c).leavesExact 2 t = owns (c : Thread nD τ) (st1_2 t) fullShare (out1 V c t) := by
  unfold Dat.leavesExact; rw [liveAt1_2 t h3, after1_2]

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, Phi1_succ, Phi1_castSucc, leaves1_0, leaves1_1]
  have hN : t.val < 128 := lt_of_lt_of_eq t.isLt N_1
  rcases (by omega : t.val % 4 = 0 ∨ (t.val % 4 = 1 ∨ t.val % 4 = 2) ∨ t.val % 4 = 3) with h0 | h12 | h3
  · -- first query step of a key tile: whatever the scratch held, the statistics are reset
    have hc0 : cond1_0 (grid1.coords t) := (hcond1_0 t).mpr h0
    have hc1 : ¬cond1_1 (grid1.coords t) := fun h => (hcond1_1 t).mp h h0
    have hc2 : ¬cond1_2 (grid1.coords t) := fun h => by have := (hcond1_2 t).mp h; omega
    rw [Dat.leavesExact_idle (dat1 V c) 2 t (idleAt1_2 t (by omega)) (noFlush1_2 t (by omega)), sc1_reset V c t h0]
    iintro ⟨HI, Ho, ⟨%d0, H0⟩, ⟨%d1, H1⟩, ⟨%d2, H2⟩⟩
    ihave ⟨⟨%e0, HS0⟩, ⟨%e1, HS1⟩, ⟨%e2, HS2⟩, Hr, Hg⟩ := (PhiS1_forget V c t.val (Nat.le_of_lt t.isLt)) $$ HI
    iapply (run1_A c Set.univ (grid1.coords t) hc0 hc1 hc2 _ _ _ _ _ _ _ _ _ _ _ _ (iblk1 V c 0 t) (iblk1 V c 1 t) ((dat1 V c).before 2 t d2) _)
    isplitl [H0]; · iexact H0
    isplitl [H1]; · iexact H1
    isplitl [H2]; · iexact H2
    isplitl [HS0]; · iexists _; iexact HS0
    isplitl [HS1]; · iexists _; iexact HS1
    isplitl [HS2]; · iexists _; iexact HS2
    iintro ⟨H0, H1, H2, HS0, HS1, HS2⟩
    isplitl [HS0 HS1 HS2 Hr Hg]
    · isplitl [HS0]; · iexact HS0
      isplitl [HS1]; · iexact HS1
      isplitl [HS2]; · iexact HS2
      isplitl [Hr]; · iexact Hr
      iexact Hg
    isplitl [Ho]; · iexact Ho
    isplitl [H0]; · iexact H0
    isplitl [H1]; · iexact H1
    iexists _; iexact H2
  · -- a middle query step: the parked tile folded into the statistics, the new tile parked
    have hnz : ¬ t.val % 4 = 0 := by omega
    have hc0 : ¬cond1_0 (grid1.coords t) := fun h => hnz ((hcond1_0 t).mp h)
    have hc1 : cond1_1 (grid1.coords t) := (hcond1_1 t).mpr hnz
    have hc2 : ¬cond1_2 (grid1.coords t) := fun h => by have := (hcond1_2 t).mp h; omega
    rw [Dat.leavesExact_idle (dat1 V c) 2 t (idleAt1_2 t (by omega)) (noFlush1_2 t (by omega)), sc1_step V c t hnz,
      PhiS1_pos V c t.val _ (by omega)]
    iintro ⟨⟨HS0, HS1, HS2, Hr, Hg⟩, Ho, ⟨%d0, H0⟩, ⟨%d1, H1⟩, ⟨%d2, H2⟩⟩
    iapply (run1_B c Set.univ (grid1.coords t) hc0 hc1 hc2 _ _ _ _ _ _ _ _ _ _ _ _ (iblk1 V c 0 t) (iblk1 V c 1 t) ((dat1 V c).before 2 t d2)
      (sc1 V c (t.val - 1) (Nat.lt_of_le_of_lt (Nat.sub_le _ _) t.isLt)) _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hr Hg]
    · isplitl [HS0]; · iexact HS0
      isplitl [HS1]; · iexact HS1
      isplitl [HS2]; · iexact HS2
      isplitl [Hr]; · iexact Hr
      iexact Hg
    isplitl [Ho]; · iexact Ho
    isplitl [H0]; · iexact H0
    isplitl [H1]; · iexact H1
    iexists _; iexact H2
  · -- the last query step of a key tile: a middle step, and the own tile folded as well into the statistics row
    have hnz : ¬ t.val % 4 = 0 := by omega
    have hc0 : ¬cond1_0 (grid1.coords t) := fun h => hnz ((hcond1_0 t).mp h)
    have hc1 : cond1_1 (grid1.coords t) := (hcond1_1 t).mpr hnz
    have hc2 : cond1_2 (grid1.coords t) := (hcond1_2 t).mpr h3
    rw [leaves1_2_last V c t h3]; unfold out1
    rw [sc1_step V c t hnz, PhiS1_pos V c t.val _ (by omega)]
    iintro ⟨⟨HS0, HS1, HS2, Hr, Hg⟩, Ho, ⟨%d0, H0⟩, ⟨%d1, H1⟩, ⟨%d2, H2⟩⟩
    iapply (run1_C c Set.univ (grid1.coords t) hc0 hc1 hc2 _ _ _ _ _ _ _ _ _ _ _ _ (iblk1 V c 0 t) (iblk1 V c 1 t)
      (sc1 V c (t.val - 1) (Nat.lt_of_le_of_lt (Nat.sub_le _ _) t.isLt)) _)
    isplitl [H0]; · iexact H0
    isplitl [H1]; · iexact H1
    isplitl [H2]; · iexists _; iexact H2
    isplitl [HS0]; · iexact HS0
    isplitl [HS1]; · iexact HS1
    isplitl [HS2]; · iexact HS2
    iintro ⟨H0, H1, H2, HS0, HS1, HS2⟩
    isplitl [HS0 HS1 HS2 Hr Hg]
    · isplitl [HS0]; · iexact HS0
      isplitl [HS1]; · iexact HS1
      isplitl [HS2]; · iexact HS2
      isplitl [Hr]; · iexact Hr
      iexact Hg
    isplitl [Ho]; · iexact Ho
    isplitl [H0]; · iexact H0
    isplitl [H1]; · iexact H1
    iexact H2

/-- The body at every point of region 1 meets the pipeline's obligation. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Runs2.lean ====
/-
  Region 2's kernel body as Hoare triples, one per control case. The body branches on the key step `ki` (grid
  coordinate 2): `ki = 0` zeroes the accumulator; `ki > 0` adds the parked tiles' `exp(s - ml)·v`; every step
  parks its score tile, value tile and normaliser row; `ki = 3` adds its own tiles as well and writes the accumulator.
  Case A: `ki = 0`. Case B: `ki ∈ {1, 2}`. Case C: `ki = 3`.
-/
import proofs.«424057_j71219147702834_3_alg».proof.Proof.KI.Blk
import proofs.«424057_j71219147702834_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 2).val) 0#32)) 0#32) = 1#1
abbrev cond2_1 (i : grid2.Coords) : Prop := (Scalar.cmpi .ne (Scalar.extui (Scalar.cmpi .sgt (BitVec.ofNat 32 (i 2).val) 0#32)) 0#32) = 1#1
abbrev cond2_2 (i : grid2.Coords) : Prop := k2_cond3 i = 1#1

theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ ¬ t.val % 4 = 0 :=
  (by decide +kernel : ∀ t : Fin grid2.N, cond2_1 (grid2.coords t) ↔ ¬ t.val % 4 = 0)
theorem hcond2_2 : ∀ t : Fin cfg2.N, cond2_2 (grid2.coords t) ↔ t.val % 4 = 3 :=
  (by decide +kernel : ∀ t : Fin grid2.N, cond2_2 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem idleAt2_4 : ∀ t : Fin cfg2.N, ¬ t.val % 4 = 3 → cfg2.idle 4 (grid2.coords t) = true := by decide +kernel
theorem noFlush2_4 : ∀ t : Fin cfg2.N, ¬ t.val % 4 = 3 → (cfg2.win 4).flush t = false := by decide +kernel
theorem liveAt2_4 : ∀ t : Fin cfg2.N, t.val % 4 = 3 → cfg2.idle 4 (grid2.coords t) = false := by decide +kernel

/-! ## Whole-buffer loads and stores

Every load and store of this kernel goes through the rectangle of the buffer's whole shape at zero offsets. -/

section WholeAccess
variable {Val : EltTy → Type} [∀ e, Nonempty (Val e)] {sg : RefSig} {κ : Kind} {sp : Space} {S : Shape} {e : EltTy}

/-- A store through the whole-shape rectangle, made last, leaves its payload, whatever was stored before. -/
private theorem read_writes_cons_whole (v : View sg κ sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero hz inb y⟩)).trans
    (View.canon_cons_unit_zero hz inb w L)

/-- A load through the whole-shape rectangle of a whole memref holding `X` reads `X`. -/
private theorem readAt_whole {m : Memref sg κ sp S e} (h : m.IsWhole) {off : Fin S.rank → ℕ} (hz : off = fun _ => 0)
    (inb : ∀ a, off a + S.size a ≤ S.size a) (X : S.Idx → Val e) :
    m.view.readAt Val (Rect.unit off S.size inb).toLoadRect (h.unread X) = X := by
  rw [View.readAt_eq_ld, h.read_unread]; exact View.ld_unit_zero hz inb X

/-- A load through the whole-shape rectangle after a store through it reads the store's payload. -/
private theorem readCov_cons_whole (v : View sg κ sp S e) {off : Fin S.rank → ℕ} (hz : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero hz inb y⟩),
    View.canon_cons_unit_zero hz inb w L]
  exact View.ld_unit_zero hz inb w

end WholeAccess

private theorem zero2 : (![0, 0] : Fin 2 → ℕ) = fun _ => 0 := by funext a; fin_cases a <;> rfl
private theorem zero3 : (![0, 0, 0] : Fin 3 → ℕ) = fun _ => 0 := by funext a; fin_cases a <;> rfl

set_option maxHeartbeats 1000000 in
/-- Case A (`ki = 0`): whatever the scratch held, it ends at `reset2`; the output buffer is untouched. -/
theorem run2_A (c : Dev nD) (E : Set ℕ) (i : grid2.Coords) (hc0 : cond2_0 i) (hc1 : ¬cond2_1 i) (hc2 : ¬cond2_2 i)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1x1024 .f32) (h6 : a6.IsWhole)
    (a7 : Memref sig .tc .vmem S1x1024x64 .f32) (h7 : a7.IsWhole) (a8 : Memref sig .tc .vmem S1024x64 .f32) (h8 : a8.IsWhole)
    (a9 : Memref sig .tc .vmem S1024x1024 .f32) (h9 : a9.IsWhole) (a10 : Memref sig .tc .vmem S1024x64 .bf16) (h10 : a10.IsWhole)
    (a11 : Memref sig .tc .vmem S1x1024 .f32) (h11 : a11.IsWhole)
    (xq xk xv : Vec F S1x1024x64 .bf16) (xml : Vec F S1x1x1024 .f32) (x7 : Vec F S1x1024x64 .f32) (K : PUnit → sProp 𝕄) :
    iprop(owns (c : Thread nD τ) a3 fullShare xq ∗ owns (c : Thread nD τ) a4 fullShare xk ∗ owns (c : Thread nD τ) a5 fullShare xv ∗ owns (c : Thread nD τ) a6 fullShare xml ∗ owns (c : Thread nD τ) a7 fullShare x7
        ∗ (∃ d, owns (c : Thread nD τ) a8 fullShare d) ∗ (∃ d, owns (c : Thread nD τ) a9 fullShare d) ∗ (∃ d, owns (c : Thread nD τ) a10 fullShare d) ∗ (∃ d, owns (c : Thread nD τ) a11 fullShare d)
        ∗ (iprop(owns (c : Thread nD τ) a3 fullShare xq ∗ owns (c : Thread nD τ) a4 fullShare xk ∗ owns (c : Thread nD τ) a5 fullShare xv ∗ owns (c : Thread nD τ) a6 fullShare xml ∗ owns (c : Thread nD τ) a7 fullShare x7
            ∗ owns (c : Thread nD τ) a8 fullShare (reset2 xq xk xv xml).1 ∗ owns (c : Thread nD τ) a9 fullShare (reset2 xq xk xv xml).2.1
            ∗ owns (c : Thread nD τ) a10 fullShare (reset2 xq xk xv xml).2.2.1 ∗ owns (c : Thread nD τ) a11 fullShare (reset2 xq xk xv xml).2.2.2) -∗ K ⟨⟩))
      ⊢ wp frame (wpE (defs₀ (F := F)) Variants.none c none) E (cc2__out_kernel i a3 h3 a4 h4 a5 h5 a6 h6 a7 h7 a8 h8 a9 h9 a10 h10 a11 h11) K := by
  simp only [cc2__out_kernel_eq_skeleton]; unfold cc2__out_kernel_skel
  simp only [k2_part1_eq_skeleton]; unfold k2_part1_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  obtain rfl := h3.eq_unread hf3; obtain rfl := h4.eq_unread hf4; obtain rfl := h5.eq_unread hf5
  obtain rfl := h6.eq_unread hf6; obtain rfl := h7.eq_unread hf7
  sl_exec (disch := first | exact hc0 | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    exact read_writes_cons_whole a8.view f8 zero2 _ _ _
  isplitl [H9]
  · iexists _; isplitr
    swap; · iexact H9
    ipureintro
    refine (read_writes_cons_whole a9.view f9 zero2 _ _ _).trans ?_
    rw [readAt_whole h3 zero3, readAt_whole h4 zero3]; rfl
  isplitl [H10]
  · iexists _; isplitr
    swap; · iexact H10
    ipureintro
    refine (read_writes_cons_whole a10.view f10 zero2 _ _ _).trans ?_
    rw [readAt_whole h5 zero3]; rfl
  iexists _; isplitr
  swap; · iexact H11
  ipureintro
  refine (read_writes_cons_whole a11.view f11 zero2 _ _ _).trans ?_
  rw [readAt_whole h6 zero3]; rfl

set_option maxHeartbeats 1000000 in
/-- Case B (`ki ∈ {1, 2}`): the scratch at `p` ends at `step2 … p`; the output buffer is untouched. -/
theorem run2_B (c : Dev nD) (E : Set ℕ) (i : grid2.Coords) (hc0 : ¬cond2_0 i) (hc1 : cond2_1 i) (hc2 : ¬cond2_2 i)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1x1024 .f32) (h6 : a6.IsWhole)
    (a7 : Memref sig .tc .vmem S1x1024x64 .f32) (h7 : a7.IsWhole) (a8 : Memref sig .tc .vmem S1024x64 .f32) (h8 : a8.IsWhole)
    (a9 : Memref sig .tc .vmem S1024x1024 .f32) (h9 : a9.IsWhole) (a10 : Memref sig .tc .vmem S1024x64 .bf16) (h10 : a10.IsWhole)
    (a11 : Memref sig .tc .vmem S1x1024 .f32) (h11 : a11.IsWhole)
    (xq xk xv : Vec F S1x1024x64 .bf16) (xml : Vec F S1x1x1024 .f32) (x7 : Vec F S1x1024x64 .f32) (p : St2 F) (K : PUnit → sProp 𝕄) :
    iprop(owns (c : Thread nD τ) a3 fullShare xq ∗ owns (c : Thread nD τ) a4 fullShare xk ∗ owns (c : Thread nD τ) a5 fullShare xv ∗ owns (c : Thread nD τ) a6 fullShare xml ∗ owns (c : Thread nD τ) a7 fullShare x7
        ∗ owns (c : Thread nD τ) a8 fullShare p.1 ∗ owns (c : Thread nD τ) a9 fullShare p.2.1 ∗ owns (c : Thread nD τ) a10 fullShare p.2.2.1 ∗ owns (c : Thread nD τ) a11 fullShare p.2.2.2
        ∗ (iprop(owns (c : Thread nD τ) a3 fullShare xq ∗ owns (c : Thread nD τ) a4 fullShare xk ∗ owns (c : Thread nD τ) a5 fullShare xv ∗ owns (c : Thread nD τ) a6 fullShare xml ∗ owns (c : Thread nD τ) a7 fullShare x7
            ∗ owns (c : Thread nD τ) a8 fullShare (step2 xq xk xv xml p).1 ∗ owns (c : Thread nD τ) a9 fullShare (step2 xq xk xv xml p).2.1
            ∗ owns (c : Thread nD τ) a10 fullShare (step2 xq xk xv xml p).2.2.1 ∗ owns (c : Thread nD τ) a11 fullShare (step2 xq xk xv xml p).2.2.2) -∗ K ⟨⟩))
      ⊢ wp frame (wpE (defs₀ (F := F)) Variants.none c none) E (cc2__out_kernel i a3 h3 a4 h4 a5 h5 a6 h6 a7 h7 a8 h8 a9 h9 a10 h10 a11 h11) K := by
  simp only [cc2__out_kernel_eq_skeleton]; unfold cc2__out_kernel_skel
  simp only [k2_part1_eq_skeleton]; unfold k2_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := h3.eq_unread hf3; obtain rfl := h4.eq_unread hf4; obtain rfl := h5.eq_unread hf5
  obtain rfl := h6.eq_unread hf6; obtain rfl := h7.eq_unread hf7; obtain rfl := h8.eq_unread hf8
  obtain rfl := h9.eq_unread hf9; obtain rfl := h10.eq_unread hf10; obtain rfl := h11.eq_unread hf11
  sl_exec (disch := first | exact hc0 | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr
    swap; · iexact H8
    ipureintro
    refine (read_writes_cons_whole a8.view _ zero2 _ _ _).trans ?_
    rw [readAt_whole h9 zero2, readAt_whole h11 zero2, readAt_whole h8 zero2, readAt_whole h10 zero2]; rfl
  isplitl [H9]
  · iexists _; isplitr
    swap; · iexact H9
    ipureintro
    refine (read_writes_cons_whole a9.view _ zero2 _ _ _).trans ?_
    rw [readAt_whole h3 zero3, readAt_whole h4 zero3]; rfl
  isplitl [H10]
  · iexists _; isplitr
    swap; · iexact H10
    ipureintro
    refine (read_writes_cons_whole a10.view _ zero2 _ _ _).trans ?_
    rw [readAt_whole h5 zero3]; rfl
  iexists _; isplitr
  swap; · iexact H11
  ipureintro
  refine (read_writes_cons_whole a11.view _ zero2 _ _ _).trans ?_
  rw [readAt_whole h6 zero3]; rfl

set_option maxHeartbeats 1000000 in
/-- Case C (`ki = 3`): the scratch at `p` ends at `last2 … p`, and the output buffer at its accumulator. -/
theorem run2_C (c : Dev nD) (E : Set ℕ) (i : grid2.Coords) (hc0 : ¬cond2_0 i) (hc1 : cond2_1 i) (hc2 : cond2_2 i)
    (a3 : Memref sig .tc .vmem S1x1024x64 .bf16) (h3 : a3.IsWhole) (a4 : Memref sig .tc .vmem S1x1024x64 .bf16) (h4 : a4.IsWhole)
    (a5 : Memref sig .tc .vmem S1x1024x64 .bf16) (h5 : a5.IsWhole) (a6 : Memref sig .tc .vmem S1x1x1024 .f32) (h6 : a6.IsWhole)
    (a7 : Memref sig .tc .vmem S1x1024x64 .f32) (h7 : a7.IsWhole) (a8 : Memref sig .tc .vmem S1024x64 .f32) (h8 : a8.IsWhole)
    (a9 : Memref sig .tc .vmem S1024x1024 .f32) (h9 : a9.IsWhole) (a10 : Memref sig .tc .vmem S1024x64 .bf16) (h10 : a10.IsWhole)
    (a11 : Memref sig .tc .vmem S1x1024 .f32) (h11 : a11.IsWhole)
    (xq xk xv : Vec F S1x1024x64 .bf16) (xml : Vec F S1x1x1024 .f32) (p : St2 F) (K : PUnit → sProp 𝕄) :
    iprop(owns (c : Thread nD τ) a3 fullShare xq ∗ owns (c : Thread nD τ) a4 fullShare xk ∗ owns (c : Thread nD τ) a5 fullShare xv ∗ owns (c : Thread nD τ) a6 fullShare xml ∗ (∃ d, owns (c : Thread nD τ) a7 fullShare d)
        ∗ owns (c : Thread nD τ) a8 fullShare p.1 ∗ owns (c : Thread nD τ) a9 fullShare p.2.1 ∗ owns (c : Thread nD τ) a10 fullShare p.2.2.1 ∗ owns (c : Thread nD τ) a11 fullShare p.2.2.2
        ∗ (iprop(owns (c : Thread nD τ) a3 fullShare xq ∗ owns (c : Thread nD τ) a4 fullShare xk ∗ owns (c : Thread nD τ) a5 fullShare xv ∗ owns (c : Thread nD τ) a6 fullShare xml ∗ owns (c : Thread nD τ) a7 fullShare (k2_pay2 (last2 xq xk xv xml p).1)
            ∗ owns (c : Thread nD τ) a8 fullShare (last2 xq xk xv xml p).1 ∗ owns (c : Thread nD τ) a9 fullShare (last2 xq xk xv xml p).2.1
            ∗ owns (c : Thread nD τ) a10 fullShare (last2 xq xk xv xml p).2.2.1 ∗ owns (c : Thread nD τ) a11 fullShare (last2 xq xk xv xml p).2.2.2) -∗ K ⟨⟩))
      ⊢ wp frame (wpE (defs₀ (F := F)) Variants.none c none) E (cc2__out_kernel i a3 h3 a4 h4 a5 h5 a6 h6 a7 h7 a8 h8 a9 h9 a10 h10 a11 h11) K := by
  simp only [cc2__out_kernel_eq_skeleton]; unfold cc2__out_kernel_skel
  simp only [k2_part1_eq_skeleton]; unfold k2_part1_skel
  unfold owns
  iintro ⟨⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, Hk⟩
  obtain rfl := h3.eq_unread hf3; obtain rfl := h4.eq_unread hf4; obtain rfl := h5.eq_unread hf5
  obtain rfl := h6.eq_unread hf6; obtain rfl := h8.eq_unread hf8
  obtain rfl := h9.eq_unread hf9; obtain rfl := h10.eq_unread hf10; obtain rfl := h11.eq_unread hf11
  sl_exec (disch := first | exact hc0 | exact hc1 | exact hc2)
  sl_step
  iapply Hk
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr
    swap; · iexact H7
    ipureintro
    sl_unfold_words
    refine (read_writes_cons_whole a7.view _ zero3 _ _ _).trans ?_
    rw [readCov_cons_whole a8.view zero2]
    rw [readCov_cons_whole a9.view zero2, readCov_cons_whole a11.view zero2, readCov_cons_whole a8.view zero2,
      readCov_cons_whole a10.view zero2, readAt_whole h3 zero3, readAt_whole h4 zero3, readAt_whole h5 zero3,
      readAt_whole h6 zero3, readAt_whole h8 zero2, readAt_whole h9 zero2, readAt_whole h10 zero2, readAt_whole h11 zero2]
    rfl
  isplitl [H8]
  · iexists _; isplitr
    swap; · iexact H8
    ipureintro
    sl_unfold_words
    refine (read_writes_cons_whole a8.view _ zero2 _ _ _).trans ?_
    rw [readCov_cons_whole a9.view zero2, readCov_cons_whole a11.view zero2, readCov_cons_whole a8.view zero2,
      readCov_cons_whole a10.view zero2, readAt_whole h3 zero3, readAt_whole h4 zero3, readAt_whole h5 zero3,
      readAt_whole h6 zero3, readAt_whole h8 zero2, readAt_whole h9 zero2, readAt_whole h10 zero2, readAt_whole h11 zero2]
    rfl
  isplitl [H9]
  · iexists _; isplitr
    swap; · iexact H9
    ipureintro
    sl_unfold_words
    refine (read_writes_cons_whole a9.view _ zero2 _ _ _).trans ?_
    rw [readAt_whole h3 zero3, readAt_whole h4 zero3]; rfl
  isplitl [H10]
  · iexists _; isplitr
    swap; · iexact H10
    ipureintro
    sl_unfold_words
    refine (read_writes_cons_whole a10.view _ zero2 _ _ _).trans ?_
    rw [readAt_whole h5 zero3]; rfl
  iexists _; isplitr
  swap; · iexact H11
  ipureintro
  sl_unfold_words
  refine (read_writes_cons_whole a11.view _ zero2 _ _ _).trans ?_
  rw [readAt_whole h6 zero3]; rfl

end Cert.KernelIdeal.Fr

end
-- ==== Proof.KI.Dat2.lean ====
/-
  Region 2 (the output kernel) entered at buffer contents `V`: its proof data. The scratch quadruple (accumulator,
  parked score tile, parked value tile, parked normaliser row) is carried from point to point (`sc2`); the output
  block is written only at the last key step of a query tile.
-/
import proofs.«424057_j71219147702834_3_alg».proof.Proof.KI.Blk
import proofs.«424057_j71219147702834_3_alg».proof.Proof.KI.Runs2
import proofs.«424057_j71219147702834_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The kernel's four scratch operands as whole memrefs. -/
abbrev scM2_0 : Memref sig .tc .vmem S1024x64 .f32 := Memref.whole cc2_scratch0
abbrev scM2_1 : Memref sig .tc .vmem S1024x1024 .f32 := Memref.whole cc2_scratch1
abbrev scM2_2 : Memref sig .tc .vmem S1024x64 .bf16 := Memref.whole cc2_scratch2
abbrev scM2_3 : Memref sig .tc .vmem S1x1024 .f32 := Memref.whole cc2_scratch3

/-- The region invariant before point `n`. -/
def PhiS2 (c : Dev nD) : (n : ℕ) → n ≤ cfg2.N → sProp 𝕄
  | 0, _ => Pipeline.ΦA spec2 c
  | n + 1, hn => iprop(owns (c : Thread nD τ) scM2_0 fullShare (sc2 V c n hn).1
      ∗ owns (c : Thread nD τ) scM2_1 fullShare (sc2 V c n hn).2.1
      ∗ owns (c : Thread nD τ) scM2_2 fullShare (sc2 V c n hn).2.2.1
      ∗ owns (c : Thread nD τ) scM2_3 fullShare (sc2 V c n hn).2.2.2
      ∗ Pipeline.scopedRestBut (Ix := Unit) (Name := ℕ) (U := UR sig nD τ) (Lvl := ℕ) (Val := Elt F) spec2 c [cc2_scratch0, cc2_scratch1, cc2_scratch2, cc2_scratch3]
      ∗ (∃ r, prngReg c r))

/-- Proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]

/-- The invariant before the first point is the class's. -/
theorem Phi2_zero (c : Dev nD) : (dat2 V c).Φ 0 = Pipeline.ΦA spec2 c := rfl

/-! ## The invariant, opened at the four scratch buffers -/

/-- The class's invariant with the scoped rest opened at the kernel's four scratch buffers. -/
theorem PhiA2_eq (c : Dev nD) :
    (Pipeline.ΦA spec2 c : sProp 𝕄)
      = iprop((((∃ d, owns (c : Thread nD τ) scM2_0 fullShare d) ∗ (∃ d, owns (c : Thread nD τ) scM2_1 fullShare d)
            ∗ (∃ d, owns (c : Thread nD τ) scM2_2 fullShare d) ∗ (∃ d, owns (c : Thread nD τ) scM2_3 fullShare d))
          ∗ Pipeline.scopedRestBut (Ix := Unit) (Name := ℕ) (U := UR sig nD τ) (Lvl := ℕ) (Val := Elt F) spec2 c [cc2_scratch0, cc2_scratch1, cc2_scratch2, cc2_scratch3])
        ∗ (∃ r, prngReg c r)) := by
  unfold Pipeline.ΦA
  rw [Pipeline.scopedRest_split_of_list spec2 c [cc2_scratch0, cc2_scratch1, cc2_scratch2, cc2_scratch3] (by decide) (by decide)]
  simp only [scM2_0, scM2_1, scM2_2, scM2_3, owns_whole]
  rfl

/-- Before a point that is not the first the scratch holds the state the point before left. -/
theorem PhiS2_pos (c : Dev nD) (n : ℕ) (h : n ≤ cfg2.N) (hz : n ≠ 0) :
    PhiS2 V c n h = iprop(owns (c : Thread nD τ) scM2_0 fullShare (sc2 V c (n - 1) (by omega)).1
      ∗ owns (c : Thread nD τ) scM2_1 fullShare (sc2 V c (n - 1) (by omega)).2.1
      ∗ owns (c : Thread nD τ) scM2_2 fullShare (sc2 V c (n - 1) (by omega)).2.2.1
      ∗ owns (c : Thread nD τ) scM2_3 fullShare (sc2 V c (n - 1) (by omega)).2.2.2
      ∗ Pipeline.scopedRestBut (Ix := Unit) (Name := ℕ) (U := UR sig nD τ) (Lvl := ℕ) (Val := Elt F) spec2 c [cc2_scratch0, cc2_scratch1, cc2_scratch2, cc2_scratch3]
      ∗ (∃ r, prngReg c r)) := by
  obtain ⟨k, rfl⟩ := Nat.exists_eq_succ_of_ne_zero hz
  rfl

/-- At any point the invariant holds the four scratch buffers at SOME contents (named ones forgotten). -/
theorem PhiS2_any (c : Dev nD) (n : ℕ) (h : n ≤ cfg2.N) :
    PhiS2 V c n h ⊢ (iprop((∃ d, owns (c : Thread nD τ) scM2_0 fullShare d) ∗ (∃ d, owns (c : Thread nD τ) scM2_1 fullShare d)
      ∗ (∃ d, owns (c : Thread nD τ) scM2_2 fullShare d) ∗ (∃ d, owns (c : Thread nD τ) scM2_3 fullShare d)
      ∗ Pipeline.scopedRestBut (Ix := Unit) (Name := ℕ) (U := UR sig nD τ) (Lvl := ℕ) (Val := Elt F) spec2 c [cc2_scratch0, cc2_scratch1, cc2_scratch2, cc2_scratch3]
      ∗ (∃ r, prngReg c r)) : sProp 𝕄) := by
  by_cases hz : n = 0
  · subst hz
    rw [show PhiS2 V c 0 h = Pipeline.ΦA spec2 c from rfl, PhiA2_eq]
    iintro ⟨⟨⟨S0, S1, S2, S3⟩, HR⟩, Hg⟩
    isplitl [S0]; · iexact S0
    isplitl [S1]; · iexact S1
    isplitl [S2]; · iexact S2
    isplitl [S3]; · iexact S3
    isplitl [HR]; · iexact HR
    iexact Hg
  · rw [PhiS2_pos V c n h hz]
    iintro ⟨S0, S1, S2, S3, HR, Hg⟩
    isplitl [S0]; · iexists _; iexact S0
    isplitl [S1]; · iexists _; iexact S1
    isplitl [S2]; · iexists _; iexact S2
    isplitl [S3]; · iexists _; iexact S3
    isplitl [HR]; · iexact HR
    iexact Hg

/-- After the last point the invariant gives the class's back. -/
theorem Phi2_last (c : Dev nD) : (dat2 V c).Φ (Fin.last cfg2.N) ⊢ (Pipeline.ΦA spec2 c : sProp 𝕄) := by
  refine BIBase.Entails.trans (PhiS2_any V c (Fin.last cfg2.N).val (Nat.le_of_lt_succ (Fin.last cfg2.N).isLt)) ?_
  rw [PhiA2_eq]
  iintro ⟨S0, S1, S2, S3, HR, Hg⟩
  isplitr [Hg]
  · isplitr [HR]
    · isplitl [S0]; · iexact S0
      isplitl [S1]; · iexact S1
      isplitl [S2]; · iexact S2
      iexact S3
    · iexact HR
  · iexact Hg

/-! ## What the body finds in the input windows -/

/-- Query block: fetched at the first key step of a query tile only; its block index does not move in between. -/
theorem before2_0 (c : Dev nD) (t : Fin cfg2.N) (d) : (dat2 V c).before 0 t d = iblk2 V c 0 t := by
  rw [(dat2 V c).before_in_eq_fetched 0 rfl (fun _ => rfl) (fun _ _ _ => rfl) (fun _ => rfl) t d]
  rfl
/-- Key block, value block and normaliser block: fetched at every point. -/
theorem before2_1 (c : Dev nD) (t : Fin cfg2.N) (d) : (dat2 V c).before 1 t d = iblk2 V c 1 t := by
  rw [(dat2 V c).before_in_eq_fetched 1 rfl (fun _ => rfl) (fun _ _ _ => rfl) (fun _ => rfl) t d]
  rfl
theorem before2_2 (c : Dev nD) (t : Fin cfg2.N) (d) : (dat2 V c).before 2 t d = iblk2 V c 2 t := by
  rw [(dat2 V c).before_in_eq_fetched 2 rfl (fun _ => rfl) (fun _ _ _ => rfl) (fun _ => rfl) t d]
  rfl
theorem before2_3 (c : Dev nD) (t : Fin cfg2.N) (d) : (dat2 V c).before 3 t d = iblk2 V c 3 t := by
  rw [(dat2 V c).before_in_eq_fetched 3 rfl (fun _ => rfl) (fun _ _ _ => rfl) (fun _ => rfl) t d]
  rfl

/-- A window live at point `t` is left at `after`. -/
theorem leaves2_live (c : Dev nD) (w : Fin cfg2.W) (t : Fin cfg2.N) (hl : cfg2.idle w (cfg2.grid.coords t) = false) :
    (dat2 V c).leavesExact w t = owns (c : Thread nD τ) ((cfg2.win w).stage (cfg2.slots t w)) fullShare ((dat2 V c).after w t) := by
  unfold Dat.leavesExact; rw [hl]

/-! ## The body at a generic point -/

/-- What the pipeline hands the body at point `t`: the invariant, what the core owes, each window's current buffer. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What the body must return. -/
def post2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

/-- After point `t` the invariant holds the scratch at `sc2 … t`. -/
theorem Phi2_succ (c : Dev nD) (t : Fin cfg2.N) :
    (dat2 V c).Φ t.succ = iprop(owns (c : Thread nD τ) scM2_0 fullShare (sc2 V c t.val t.isLt).1
      ∗ owns (c : Thread nD τ) scM2_1 fullShare (sc2 V c t.val t.isLt).2.1
      ∗ owns (c : Thread nD τ) scM2_2 fullShare (sc2 V c t.val t.isLt).2.2.1
      ∗ owns (c : Thread nD τ) scM2_3 fullShare (sc2 V c t.val t.isLt).2.2.2
      ∗ Pipeline.scopedRestBut (Ix := Unit) (Name := ℕ) (U := UR sig nD τ) (Lvl := ℕ) (Val := Elt F) spec2 c [cc2_scratch0, cc2_scratch1, cc2_scratch2, cc2_scratch3]
      ∗ (∃ r, prngReg c r)) := rfl

/-- Before point `t` the invariant is `PhiS2` at `t`. -/
theorem Phi2_castSucc (c : Dev nD) (t : Fin cfg2.N) :
    (dat2 V c).Φ t.castSucc = PhiS2 V c t.val (Nat.le_of_lt t.isLt) := rfl

/-- The body at point `t`, by the key step `t % 4`: step 0 resets the scratch from whatever it held; steps 1 and 2
    fold the parked tiles into the accumulator and park their own; step 3 folds twice and writes the accumulator to
    the output block. The four input buffers hold their blocks throughout and are handed back as found; the output
    buffer is untouched except at step 3; the core owes nothing. -/
theorem point2 (c : Dev nD) (t : Fin cfg2.N) :
    pre2 V c t ⊢ wp frame (wpE (defs₀ (F := F)) Variants.none c none) Set.univ (bodyAt2 t) (fun _ => post2 V c t) := by
  unfold pre2 post2
  simp only [before2_0, before2_1, before2_2, before2_3]
  rw [show (dat2 V c).owesAt () t.succ = (dat2 V c).owesAt () t.castSucc from rfl]
  rw [leaves2_live V c 0 t (liveAt2_0 t), leaves2_live V c 1 t (liveAt2_1 t), leaves2_live V c 2 t (liveAt2_2 t),
    leaves2_live V c 3 t (liveAt2_3 t), after2_0, after2_1, after2_2, after2_3, Phi2_succ, Phi2_castSucc]
  by_cases h0 : t.val % 4 = 0
  · -- first key step of a query tile: the scratch, whatever it held, ends at `reset2`; the output window is idle
    have h3 : ¬ t.val % 4 = 3 := by omega
    rw [Dat.leavesExact_idle (dat2 V c) 4 t (idleAt2_4 t h3) (noFlush2_4 t h3), sc2_reset V c t h0]
    iintro ⟨HΦ, Ho, ⟨%d0, H0⟩, ⟨%d1, H1⟩, ⟨%d2, H2⟩, ⟨%d3, H3⟩, ⟨%d4, H4⟩⟩
    icases (PhiS2_any V c t.val (Nat.le_of_lt t.isLt)) $$ HΦ with ⟨S0, S1, S2, S3, HR, Hg⟩
    iapply (run2_A c Set.univ (grid2.coords t) ((hcond2_0 t).mpr h0) (fun h => (hcond2_1 t).mp h h0) (fun h => h3 ((hcond2_2 t).mp h))
      _ _ _ _ _ _ _ _ _ _ _ _ _ _ _ _ _ _ (iblk2 V c 0 t) (iblk2 V c 1 t) (iblk2 V c 2 t) (iblk2 V c 3 t) ((dat2 V c).before 4 t d4) _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨H0, H1, H2, H3, H4, S0, S1, S2, S3⟩
    isplitl [S0 S1 S2 S3 HR Hg]
    · isplitl [S0]; · iexact S0
      isplitl [S1]; · iexact S1
      isplitl [S2]; · iexact S2
      isplitl [S3]; · iexact S3
      isplitl [HR]; · iexact HR
      iexact Hg
    isplitl [Ho]; · iexact Ho
    isplitl [H0]; · iexact H0
    isplitl [H1]; · iexact H1
    isplitl [H2]; · iexact H2
    isplitl [H3]; · iexact H3
    iexists d4; iexact H4
  · have hz : t.val ≠ 0 := fun e => h0 (by rw [e])
    rw [PhiS2_pos V c t.val (Nat.le_of_lt t.isLt) hz]
    by_cases h3 : t.val % 4 = 3
    · -- last key step: the parked tiles folded in, then this step's own; the accumulator written to the output block
      rw [leaves2_live V c 4 t (liveAt2_4 t h3), after2_4, show out2 V c t = k2_pay2 (sc2 V c t.val t.isLt).1 from rfl, sc2_last V c t h3]
      iintro ⟨⟨S0, S1, S2, S3, HR, Hg⟩, Ho, ⟨%d0, H0⟩, ⟨%d1, H1⟩, ⟨%d2, H2⟩, ⟨%d3, H3⟩, ⟨%d4, H4⟩⟩
      iapply (run2_C c Set.univ (grid2.coords t) (fun h => h0 ((hcond2_0 t).mp h)) ((hcond2_1 t).mpr h0) ((hcond2_2 t).mpr h3)
        _ _ _ _ _ _ _ _ _ _ _ _ _ _ _ _ _ _ (iblk2 V c 0 t) (iblk2 V c 1 t) (iblk2 V c 2 t) (iblk2 V c 3 t)
        (sc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [S0]; · iexact S0
      isplitl [S1]; · iexact S1
      isplitl [S2]; · iexact S2
      isplitl [S3]; · iexact S3
      iintro ⟨H0, H1, H2, H3, H4, S0, S1, S2, S3⟩
      isplitl [S0 S1 S2 S3 HR Hg]
      · isplitl [S0]; · iexact S0
        isplitl [S1]; · iexact S1
        isplitl [S2]; · iexact S2
        isplitl [S3]; · iexact S3
        isplitl [HR]; · iexact HR
        iexact Hg
      isplitl [Ho]; · iexact Ho
      isplitl [H0]; · iexact H0
      isplitl [H1]; · iexact H1
      isplitl [H2]; · iexact H2
      isplitl [H3]; · iexact H3
      iexact H4
    · -- a middle key step: the parked tiles folded in, this step's parked; the output window is idle
      rw [Dat.leavesExact_idle (dat2 V c) 4 t (idleAt2_4 t h3) (noFlush2_4 t h3), sc2_step V c t h0 h3]
      iintro ⟨⟨S0, S1, S2, S3, HR, Hg⟩, Ho, ⟨%d0, H0⟩, ⟨%d1, H1⟩, ⟨%d2, H2⟩, ⟨%d3, H3⟩, ⟨%d4, H4⟩⟩
      iapply (run2_B c Set.univ (grid2.coords t) (fun h => h0 ((hcond2_0 t).mp h)) ((hcond2_1 t).mpr h0) (fun h => h3 ((hcond2_2 t).mp h))
        _ _ _ _ _ _ _ _ _ _ _ _ _ _ _ _ _ _ (iblk2 V c 0 t) (iblk2 V c 1 t) (iblk2 V c 2 t) (iblk2 V c 3 t) ((dat2 V c).before 4 t d4)
        (sc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      isplitl [S0 S1 S2 S3 HR Hg]
      · isplitl [S0]; · iexact S0
        isplitl [S1]; · iexact S1
        isplitl [S2]; · iexact S2
        isplitl [S3]; · iexact S3
        isplitl [HR]; · iexact HR
        iexact Hg
      isplitl [Ho]; · iexact Ho
      isplitl [H0]; · iexact H0
      isplitl [H1]; · iexact H1
      isplitl [H2]; · iexact H2
      isplitl [H3]; · iexact H3
      iexists d4; iexact H4

/-- The body at every point of region 2 meets the pipeline's obligation. -/
theorem body_obligation2 (c : Dev nD) : BodyObligation (dat2 (F := F) V c) (defs₀ (F := F)) Variants.none () Set.univ := fun t => by
  rw [bigSep_W2, bigSep_W2]
  exact point2 V c t

end Cert.KernelIdeal.Fr

end
-- ==== Proof.KI.Run.lean ====
/-
  The whole run of @main: three kernel regions in sequence and nothing else. The buffer contents at each region
  boundary are folded from the launch memory (each region leaves its arrays at what its write-backs make of them and
  every other buffer as it found it); every region's proof data is taken at its entry contents; the launch theorem
  for a list of regions then gives, at the end of every execution, each unscoped buffer at the last boundary's
  contents. From that: the arguments are never written, and the result array holds the third region's fold.
-/
import proofs.«424057_j71219147702834_3_alg».proof.Proof.KI.Dat0
import proofs.«424057_j71219147702834_3_alg».proof.Proof.KI.Dat1
import proofs.«424057_j71219147702834_3_alg».proof.Proof.KI.Dat2
import proofs.«424057_j71219147702834_3_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core `c`'s buffers at launch (the first region's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After the projection region: its six arrays at what its write-backs leave, the rest as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the statistics region: its three arrays at what its write-backs leave, the rest as it found them. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the output region: its five arrays at what its write-backs leave, the rest as it found them. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-! ## Reading the fold at particular buffers -/

/-- At launch an argument's buffer holds the launch memory's. -/
theorem V0_main_arg0 (c : Dev nD) : V0 m ρ c main_arg0 = m ((c : Thread nD τ).loc main_arg0) := rfl
theorem V0_main_arg1 (c : Dev nD) : V0 m ρ c main_arg1 = m ((c : Thread nD τ).loc main_arg1) := rfl
theorem V0_main_arg2 (c : Dev nD) : V0 m ρ c main_arg2 = m ((c : Thread nD τ).loc main_arg2) := rfl

/-- The statistics region finds the two scaled projections as the projection region's write-backs left them. -/
theorem V1_main_v0_0 (c : Dev nD) : V1 m ρ c main_v0_0 = (dat0 (V0 m ρ) c).arrAt 3 cfg0.N := W1_arr m ρ c 3
theorem V1_main_v0_1 (c : Dev nD) : V1 m ρ c main_v0_1 = (dat0 (V0 m ρ) c).arrAt 4 cfg0.N := W1_arr m ρ c 4

/-- The output region finds the statistics as the statistics region's write-backs left them, -/
theorem V2_main_v1 (c : Dev nD) : V2 m ρ c main_v1 = (dat1 (V1 m ρ) c).arrAt 2 cfg1.N := W2_arr m ρ c 2
/-- the two scaled projections unchanged by the statistics region, which only reads them, -/
theorem V2_main_v0_0 (c : Dev nD) : V2 m ρ c main_v0_0 = (dat0 (V0 m ρ) c).arrAt 3 cfg0.N :=
  (W2_arr m ρ c 0).trans (((dat1 (V1 m ρ) c).arrAt_in 0 rfl _).trans ((A_eq1 (V1 m ρ) c 0).trans (V1_main_v0_0 m ρ c)))
theorem V2_main_v0_1 (c : Dev nD) : V2 m ρ c main_v0_1 = (dat0 (V0 m ρ) c).arrAt 4 cfg0.N :=
  (W2_arr m ρ c 1).trans (((dat1 (V1 m ρ) c).arrAt_in 1 rfl _).trans ((A_eq1 (V1 m ρ) c 1).trans (V1_main_v0_1 m ρ c)))
/-- and the unscaled projection untouched by it. -/
theorem V2_main_v0_2 (c : Dev nD) : V2 m ρ c main_v0_2 = (dat0 (V0 m ρ) c).arrAt 5 cfg0.N :=
  (W2_of_ne m ρ c main_v0_2 (by decide)).trans (W1_arr m ρ c 5)

/-! ### The arguments end as launched: the projection region only reads three of them and no region touches the fourth -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
/-- The result array ends at the output region's fold of its write-backs. -/
theorem W3_main_v2 (c : Dev nD) : W3 m ρ c (Proc.devRef .tc main_v2) = (dat2 (V2 m ρ) c).arrAt 4 cfg2.N := W3_arr m ρ c 4

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the core's generator register at some state and its debts,
    of which there are none. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W0`, left at `W1`. Its arrays are
    split out of the unscoped buffers at entry and put back at their final contents at exit; the generator register
    goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W1`, left at `W2`. Its arrays are
    split out of the unscoped buffers at entry and put back at their final contents at exit; the generator register
    goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_zero (V1 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ (Pipeline.ΦA spec1 c : sProp 𝕄) from Phi1_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W2`, left at `W3`. Its arrays are
    split out of the unscoped buffers at entry and put back at their final contents at exit; the generator register
    goes into the region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from Phi2_zero (V2 m ρ) c]; unfold Pipeline.ΦA
    iintro ⟨Hp, -, Hr⟩
    isplitl [Hr]; · iexact Hr
    iexact Hp
  hout c := by
    rw [Pipeline.ownSems0_none]
    refine (show (pdats m ρ 2 c).Φ (Fin.last _) ⊢ (Pipeline.ΦA spec2 c : sProp 𝕄) from Phi2_last (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the three regions, and the launch -/

/-- @main's segments: one region per kernel call, nothing between them. -/
abbrev segs : List (Pipeline.Seg (pcfgs (F := F)) adm (pdats m ρ) () defs₀ 𝒱₀ L lv) :=
  [ .region (reg0 m ρ), .region (reg1 m ρ), .region (reg2 m ρ) ]
/-- @main is the run of those segments. -/
theorem main_run (c : Dev nD) : main (F := F) c = Pipeline.Seg.run (segs m ρ) :=
  main_segs adm (pdats m ρ) () 𝒱₀ L lv (reg0 m ρ) (reg1 m ρ) (reg2 m ρ) c

-- the launch theorem's implicit arguments are found by unifying its conclusion with this one, which takes unfolding
-- plain definitions in a metavariable's type
set_option backward.isDefEq.respectTransparency.types false in
/-- THE RUN. From any memory with zero counters every weakly fair execution of @main on the TensorCores terminates,
    nothing faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The result: the result array ends at the output region's fold of its write-backs, the arguments as launched. -/
theorem result : θ_run defs (onTc (τ := τ) (main (F := F))) ⟨m, fun _ => 0, ρ⟩ (fun r => ∀ c : Dev nD,
      r.2.mem ((c.tc : Thread nD τ).loc main_v2) = (dat2 (V2 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

end Cert.KernelIdeal.Fr

end
-- ==== Proof.Spec.lean ====
/-
  The mathematics of the certificate, over the extended reals, with no program in sight.

  Both programs compute, for input rows `x[b,s,:]` and weight matrices `Wq`, `Wk`:
    q = x·Wqᵀ,  k = x·Wkᵀ,  v = q,  s[b,q,k] = (q[b,q,:]·k[b,k,:]) / 64,
    out[b,q,:] = Σ_k softmax over the QUERY axis of s[b,·,k] at q, times v[b,k,:].
  The kernel folds the factor 1/64 into q before the product, and normalises by subtracting
  `ml[b,k] = max_q s + log Σ_q exp(s - max)`, which it gets by a running (max, sum) fold over four
  query tiles of 1024; the reference divides by 64 = sqrt 4096 after the product and normalises by the
  usual max-subtracted quotient. `main` says the two agree when every input entry is a real number.
-/
import Idealize.ShloMosaic.PureOps.Ideal
import Idealize.ShloMosaic.Lib.ValueIdx

noncomputable section

namespace Cert.Spec

open Idealize.ShloMosaic Idealize.ShloMosaic.ValueIdx

abbrev SX : Shape := ⟨3, ![8, 4096, 768]⟩
abbrev SW : Shape := ⟨2, ![64, 768]⟩

/-- The kernel's literal 1/64, the reference's 4096, -inf and 0, as the printed words. -/
def c64 : EReal := Ideal.ofBits .f32 0x3C800000#32
def c4096 : EReal := Ideal.ofBits .f32 0x45800000#32
def negInf : EReal := Ideal.ofBits .f32 0xFF800000#32
def zero : EReal := Ideal.ofBits .f32 0x00000000#32

/-- Position `r` of query/key tile `j` (tiles of 1024) on the sequence axis. -/
def tix (j : Fin 4) (r : Fin 1024) : Fin 4096 := ⟨1024 * j.val + r.val, by omega⟩

/-- A projection `x·Wᵀ` at batch `b`, position `s`, head coordinate `h`. -/
def proj (X : SX.Idx → EReal) (W : SW.Idx → EReal) (b : Fin 8) (s : Fin 4096) (h : Fin 64) : EReal :=
  ∑ e : Fin 768, X (ix3 b s e) * W (ix2 h e)

/-- The kernel's three projected arrays: q scaled by the literal 1/64, k, and v = the unscaled q. -/
def Qs (X : SX.Idx → EReal) (Wq : SW.Idx → EReal) (b : Fin 8) (s : Fin 4096) (h : Fin 64) : EReal := proj X Wq b s h * c64

/-- A score `Σ_h Q[b,q,h]·K[b,k,h]` (the kernel's: `Q` already scaled). -/
def sK (Q K : Fin 8 → Fin 4096 → Fin 64 → EReal) (b : Fin 8) (q k : Fin 4096) : EReal := ∑ h : Fin 64, Q b q h * K b k h

/-- One step of the kernel's running (max, sum) over a tile's column `tile r`, `r` the query in the tile. -/
def mlStep (tile : Fin 1024 → EReal) (p : EReal × EReal) : EReal × EReal :=
  (max p.1 ((Finset.univ : Finset (Fin 1024)).fold max negInf tile),
   p.2 * Ideal.exp (p.1 - max p.1 ((Finset.univ : Finset (Fin 1024)).fold max negInf tile))
     + ∑ r : Fin 1024, Ideal.exp (tile r - max p.1 ((Finset.univ : Finset (Fin 1024)).fold max negInf tile)))

/-- The kernel's column statistic from the four query tiles of one key column: `m + log l` after the four steps. -/
def mlOf (tiles : Fin 4 → Fin 1024 → EReal) : EReal :=
  (mlStep (tiles 3) (mlStep (tiles 2) (mlStep (tiles 1) (mlStep (tiles 0) (negInf, zero))))).1
    + Ideal.log (mlStep (tiles 3) (mlStep (tiles 2) (mlStep (tiles 1) (mlStep (tiles 0) (negInf, zero))))).2

/-- The statistics row the kernel's second call leaves: per batch and key. -/
def MLk (S : Fin 8 → Fin 4096 → Fin 4096 → EReal) (b : Fin 8) (k : Fin 4096) : EReal := mlOf fun j r => S b (tix j r) k

/-- One key tile's contribution to an output entry. -/
def outTile (S : Fin 8 → Fin 4096 → Fin 4096 → EReal) (ML : Fin 8 → Fin 4096 → EReal) (V : Fin 8 → Fin 4096 → Fin 64 → EReal)
    (b : Fin 8) (q : Fin 4096) (h : Fin 64) (j : Fin 4) : EReal :=
  ∑ r : Fin 1024, Ideal.exp (S b q (tix j r) - ML b (tix j r)) * V b (tix j r) h

/-- The kernel's output entry: the accumulator from 0 through the four key tiles in order. -/
def outK (S : Fin 8 → Fin 4096 → Fin 4096 → EReal) (ML : Fin 8 → Fin 4096 → EReal) (V : Fin 8 → Fin 4096 → Fin 64 → EReal)
    (b : Fin 8) (q : Fin 4096) (h : Fin 64) : EReal :=
  (((zero + outTile S ML V b q h 0) + outTile S ML V b q h 1) + outTile S ML V b q h 2) + outTile S ML V b q h 3

/-- The kernel's result as a function of the inputs. -/
def kernelOut (X : SX.Idx → EReal) (Wq Wk : SW.Idx → EReal) (b : Fin 8) (q : Fin 4096) (h : Fin 64) : EReal :=
  outK (sK (Qs X Wq) (proj X Wk)) (MLk (sK (Qs X Wq) (proj X Wk))) (proj X Wq) b q h

/-! ## The reference -/

/-- The reference's score: the plain product divided by `sqrt 4096`. -/
def sR (Q K : Fin 8 → Fin 4096 → Fin 64 → EReal) (b : Fin 8) (q k : Fin 4096) : EReal :=
  Ideal.div (∑ h : Fin 64, Q b q h * K b k h) (Ideal.sqrt c4096)
/-- Its column maximum over the query axis (jax's softmax takes it against -inf once more). -/
def mR (S : Fin 8 → Fin 4096 → Fin 4096 → EReal) (b : Fin 8) (k : Fin 4096) : EReal :=
  max negInf ((Finset.univ : Finset (Fin 4096)).fold max negInf fun q => S b q k)
def eR (S : Fin 8 → Fin 4096 → Fin 4096 → EReal) (b : Fin 8) (q k : Fin 4096) : EReal := Ideal.exp (S b q k - mR S b k)
def lR (S : Fin 8 → Fin 4096 → Fin 4096 → EReal) (b : Fin 8) (k : Fin 4096) : EReal := zero + ∑ q : Fin 4096, eR S b q k
def pR (S : Fin 8 → Fin 4096 → Fin 4096 → EReal) (b : Fin 8) (q k : Fin 4096) : EReal := Ideal.div (eR S b q k) (lR S b k)
/-- The reference's output entry. -/
def outR (S : Fin 8 → Fin 4096 → Fin 4096 → EReal) (V : Fin 8 → Fin 4096 → Fin 64 → EReal) (b : Fin 8) (q : Fin 4096) (h : Fin 64) : EReal :=
  ∑ k : Fin 4096, pR S b q k * V b k h
/-- The reference's result as a function of the inputs. -/
def refOut (X : SX.Idx → EReal) (Wq Wk : SW.Idx → EReal) (b : Fin 8) (q : Fin 4096) (h : Fin 64) : EReal :=
  outR (sR (proj X Wq) (proj X Wk)) (proj X Wq) b q h

/-- Every entry of an array is a real number. -/
def AllReal {ι : Type} (f : ι → EReal) : Prop := ∀ i, ∃ r : ℝ, f i = (r : EReal)

end Cert.Spec

end
-- ==== Proof.KI.Val0.lean ====
/-
  What region 0 leaves in its three output arrays, at the ideal instance, as functions of the arrays it was entered
  at: block (b, s) of each is the projection of rows 1024·s … 1024·s+1023 of batch b, so entry (b, p, h) is
  `Σ_e x[b,p,e]·W[h,e]` (times the literal 1/64 for the scaled q).
-/
import proofs.«424057_j71219147702834_3_alg».proof.Proof.KI.Dat0
import proofs.«424057_j71219147702834_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-! ## The projection matmul read at an index

The kernel's dot contracts axis 1 of the [1024,768] row block against axis 1 of the [64,768] weight matrix: output
entry (r, h) pairs row r of the left operand with row h of the right one. -/

theorem lhs_proj_0 (i : S1024x64.Idx) (q : dot_S1024x768_S64x768_S1024x64_1_1_0_0_n_n.contr.Idx) :
    (dot_S1024x768_S64x768_S1024x64_1_1_0_0_n_n.lhsIdx i q 0).val = (i 0).val := by
  unfold DotDims.lhsIdx
  rw [dif_neg (show ¬(0 : Fin S1024x768.rank) ∈ dot_S1024x768_S64x768_S1024x64_1_1_0_0_n_n.lhsBatch by decide), dif_pos (show (0 : Fin S1024x768.rank) ∈ dot_S1024x768_S64x768_S1024x64_1_1_0_0_n_n.lhsNonContracting by decide)]
  rfl
theorem lhs_proj_1 (i : S1024x64.Idx) (q : dot_S1024x768_S64x768_S1024x64_1_1_0_0_n_n.contr.Idx) :
    (dot_S1024x768_S64x768_S1024x64_1_1_0_0_n_n.lhsIdx i q 1).val = (q ⟨0, by decide⟩).val :=
  dot_S1024x768_S64x768_S1024x64_1_1_0_0_n_n.lhsIdx_val_of_single rfl i q
theorem rhs_proj_0 (i : S1024x64.Idx) (q : dot_S1024x768_S64x768_S1024x64_1_1_0_0_n_n.contr.Idx) :
    (dot_S1024x768_S64x768_S1024x64_1_1_0_0_n_n.rhsIdx i q 0).val = (i 1).val := by
  unfold DotDims.rhsIdx
  rw [dif_neg (show ¬(0 : Fin S64x768.rank) ∈ dot_S1024x768_S64x768_S1024x64_1_1_0_0_n_n.rhsBatch by decide), dif_pos (show (0 : Fin S64x768.rank) ∈ dot_S1024x768_S64x768_S1024x64_1_1_0_0_n_n.rhsNonContracting by decide)]
  rfl
theorem rhs_proj_1 (i : S1024x64.Idx) (q : dot_S1024x768_S64x768_S1024x64_1_1_0_0_n_n.contr.Idx) :
    (dot_S1024x768_S64x768_S1024x64_1_1_0_0_n_n.rhsIdx i q 1).val = (q ⟨0, by decide⟩).val :=
  dot_S1024x768_S64x768_S1024x64_1_1_0_0_n_n.rhsIdx_val_of_single rfl i q

/-- The dot into the zero splat at (r, h): the sum over the 768 shared coordinates. -/
theorem proj_matmul_apply (a : FVec Ideal S1024x768 .bf16) (w : FVec Ideal S64x768 .bf16) (r : Fin 1024) (h : Fin 64) :
    matmul dot_S1024x768_S64x768_S1024x64_1_1_0_0_n_n none a w (constant (F := Ideal) S1024x64 .f32 0x00000000#32) (ix2 r h)
      = ∑ e : Fin 768, a (ix2 r e) * w (ix2 h e) := by
  simp only [matmul]
  rw [Ideal.matmul_constant_zero_apply, ← Equiv.sum_comp (ValueIdx.contrEquiv1 dot_S1024x768_S64x768_S1024x64_1_1_0_0_n_n 768 rfl rfl).symm]
  refine Finset.sum_congr rfl fun k _ => ?_
  have hk := ValueIdx.contrEquiv1_symm_val dot_S1024x768_S64x768_S1024x64_1_1_0_0_n_n 768 rfl rfl k
  have el : dot_S1024x768_S64x768_S1024x64_1_1_0_0_n_n.lhsIdx (ix2 r h) ((ValueIdx.contrEquiv1 dot_S1024x768_S64x768_S1024x64_1_1_0_0_n_n 768 rfl rfl).symm k) = ix2 r k := funext fun a => Fin.ext (by
    match a with
    | ⟨0, _⟩ => exact lhs_proj_0 _ _
    | ⟨1, _⟩ => exact (lhs_proj_1 _ _).trans hk)
  have er : dot_S1024x768_S64x768_S1024x64_1_1_0_0_n_n.rhsIdx (ix2 r h) ((ValueIdx.contrEquiv1 dot_S1024x768_S64x768_S1024x64_1_1_0_0_n_n 768 rfl rfl).symm k) = ix2 h k := funext fun a => Fin.ext (by
    match a with
    | ⟨0, _⟩ => exact rhs_proj_0 _ _
    | ⟨1, _⟩ => exact (rhs_proj_1 _ _).trans hk)
  rw [el, er]

/-! ## The payloads at an index -/

/-- The row block with its unit batch axis dropped (the format change is the identity on extended reals). -/
theorem pay1_apply (x0 : Vec Ideal S1x1024x768 .f32) (r : Fin 1024) (e : Fin 768) :
    k0_pay1 x0 (ix2 r e) = x0 (ix3 0 r e) := by
  unfold k0_pay1
  show shapeCast S1024x768 x0 shapeCasts_S1x1024x768_S1024x768 (ix2 r e) = _
  refine shapeCast_apply x0 _ (ix2 r e) (ix3 0 r e) ?_
  rw [Shape.rowMajor_val_three, Shape.rowMajor_val_two]
  show ((0 : Fin 1).val * 1024 + r.val) * 768 + e.val = r.val * 768 + e.val
  simp

/-- The projection of the row block: entry (r, h) is row r of the block against row h of the weights. -/
theorem pay2_apply (x0 : Vec Ideal S1x1024x768 .f32) (x1 : Vec Ideal S64x768 .f32) (r : Fin 1024) (h : Fin 64) :
    k0_pay2 x0 x1 (ix2 r h) = ∑ e : Fin 768, x0 (ix3 0 r e) * x1 (ix2 h e) := by
  unfold k0_pay2
  show matmul dot_S1024x768_S64x768_S1024x64_1_1_0_0_n_n none (k0_pay1 x0) (truncf .bf16 x1 bitsLt_bf16_f32) (constant (F := Ideal) S1024x64 .f32 0x00000000#32) (ix2 r h) = _
  rw [proj_matmul_apply]
  refine Finset.sum_congr rfl fun e _ => ?_
  rw [pay1_apply, truncf_apply]

/-- A [1024,64] result stored as a [1,1024,64] block reads (0, r, h) at (r, h). -/
theorem addUnit_apply {α : Type} (v : S1024x64.Idx → α) (r : Fin 1024) (h : Fin 64) :
    shapeCast S1x1024x64 v shapeCasts_S1024x64_S1x1024x64 (ix3 0 r h) = v (ix2 r h) := by
  refine shapeCast_apply v _ (ix3 0 r h) (ix2 r h) ?_
  rw [Shape.rowMajor_val_three, Shape.rowMajor_val_two]
  show r.val * 64 + h.val = ((0 : Fin 1).val * 1024 + r.val) * 64 + h.val
  simp

/-- The unscaled projection block (stored as v). -/
theorem pay3_apply (x0 : Vec Ideal S1x1024x768 .f32) (x1 : Vec Ideal S64x768 .f32) (r : Fin 1024) (h : Fin 64) :
    k0_pay3 x0 x1 (ix3 0 r h) = ∑ e : Fin 768, x0 (ix3 0 r e) * x1 (ix2 h e) := by
  unfold k0_pay3
  show shapeCast S1x1024x64 (truncf .bf16 (k0_pay2 x0 x1) bitsLt_bf16_f32) shapeCasts_S1024x64_S1x1024x64 (ix3 0 r h) = _
  rw [addUnit_apply, truncf_apply, pay2_apply]

/-- The scaled projection block (stored as q): the projection times the literal 1/64. -/
theorem pay4_apply (x0 : Vec Ideal S1x1024x768 .f32) (x1 : Vec Ideal S64x768 .f32) (r : Fin 1024) (h : Fin 64) :
    k0_pay4 x0 x1 (ix3 0 r h) = (∑ e : Fin 768, x0 (ix3 0 r e) * x1 (ix2 h e)) * Ideal.ofBits .f32 0x3C800000#32 := by
  unfold k0_pay4
  show shapeCast S1x1024x64 (truncf .bf16 (mulf (k0_pay2 x0 x1) (broadcast S1024x64 (Scalar.ofBits (F := Ideal) .f32 0x3C800000#32))) bitsLt_bf16_f32) shapeCasts_S1024x64_S1x1024x64 (ix3 0 r h) = _
  rw [addUnit_apply, truncf_apply, mulf_apply, pay2_apply, broadcast_apply]
  rfl

/-- The second projection block (stored as k). -/
theorem pay5_apply (x0 : Vec Ideal S1x1024x768 .f32) (x2 : Vec Ideal S64x768 .f32) (r : Fin 1024) (h : Fin 64) :
    k0_pay5 x0 x2 (ix3 0 r h) = ∑ e : Fin 768, x0 (ix3 0 r e) * x2 (ix2 h e) := by
  unfold k0_pay5
  show shapeCast S1x1024x64 (truncf .bf16 (matmul dot_S1024x768_S64x768_S1024x64_1_1_0_0_n_n none (k0_pay1 x0) (truncf .bf16 x2 bitsLt_bf16_f32) (constant (F := Ideal) S1024x64 .f32 0x00000000#32)) bitsLt_bf16_f32) shapeCasts_S1024x64_S1x1024x64 (ix3 0 r h) = _
  rw [addUnit_apply, truncf_apply, proj_matmul_apply]
  refine Finset.sum_congr rfl fun e _ => ?_
  rw [pay1_apply, truncf_apply]

/-! ## The index maps over the grid -/

/-- Point t = 4·b + j: the row block of x and the three output blocks sit at block index (b, j, 0); the two weight
    matrices are one block each. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0 :=
  (by decide +kernel : ∀ t : Fin grid0.N, _)

/-! ## The input blocks as rows of the entry arrays -/

/-- The block of x at point t: batch t/4, rows 1024·(t%4) … 1024·(t%4)+1023, all 768 columns. -/
theorem iblk0_0_apply (c : Dev nD) (t : Fin cfg0.N) (y : S1x1024x768.Idx) (k : S8x4096x768.Idx)
    (hk0 : (k 0).val = t.val / 4) (hk1 : (k 1).val = 1024 * (t.val % 4) + (y 1).val) (hk2 : (k 2).val = (y 2).val) :
    (iblk0 V c 0 t : Vec Ideal S1x1024x768 .f32) y = (V c main_arg0 : S8x4096x768.Idx → EReal) k := by
  obtain ⟨e0, e1, e2, -⟩ := idx_facts t
  have hy : (y 0).val < 1 := (y 0).isLt
  unfold iblk0
  rw [View.read_apply]
  show V c main_arg0 _ = V c main_arg0 _
  congr 1
  funext a
  apply Fin.ext
  match a with
  | ⟨0, _⟩ => show win0_0.index t (0 : Fin 3) * 1 + 1 * (y 0).val = (k 0).val; omega
  | ⟨1, _⟩ => show win0_0.index t (1 : Fin 3) * 1024 + 1 * (y 1).val = (k 1).val; omega
  | ⟨2, _⟩ => show win0_0.index t (2 : Fin 3) * 768 + 1 * (y 2).val = (k 2).val; omega

/-- The first weight matrix's block at every point is the whole matrix. -/
theorem iblk0_1_apply (c : Dev nD) (t : Fin cfg0.N) (y : S64x768.Idx) :
    (iblk0 V c 1 t : Vec Ideal S64x768 .f32) y = (V c main_arg1 : S64x768.Idx → EReal) y := by
  obtain ⟨-, -, -, e0, e1, -⟩ := idx_facts t
  unfold iblk0
  rw [View.read_apply]
  show V c main_arg1 _ = V c main_arg1 _
  congr 1
  funext a
  apply Fin.ext
  match a with
  | ⟨0, _⟩ => show win0_1.index t (0 : Fin 2) * 64 + 1 * (y 0).val = (y 0).val; omega
  | ⟨1, _⟩ => show win0_1.index t (1 : Fin 2) * 768 + 1 * (y 1).val = (y 1).val; omega

/-- The second weight matrix's block at every point is the whole matrix. -/
theorem iblk0_2_apply (c : Dev nD) (t : Fin cfg0.N) (y : S64x768.Idx) :
    (iblk0 V c 2 t : Vec Ideal S64x768 .f32) y = (V c main_arg2 : S64x768.Idx → EReal) y := by
  obtain ⟨-, -, -, -, -, e0, e1, -⟩ := idx_facts t
  unfold iblk0
  rw [View.read_apply]
  show V c main_arg2 _ = V c main_arg2 _
  congr 1
  funext a
  apply Fin.ext
  match a with
  | ⟨0, _⟩ => show win0_2.index t (0 : Fin 2) * 64 + 1 * (y 0).val = (y 0).val; omega
  | ⟨1, _⟩ => show win0_2.index t (1 : Fin 2) * 768 + 1 * (y 1).val = (y 1).val; omega

/-! ## A block of each payload from blocks that are rows of the entry arrays -/

/-- A block index has 0 on its unit batch axis. -/
theorem idx_unit (j : S1x1024x64.Idx) : j = ix3 (0 : Fin 1) (j 1 : Fin 1024) (j 2 : Fin 64) := by
  funext a
  match a with
  | ⟨0, _⟩ => exact Fin.ext (by have h : (j 0).val < 1 := (j 0).isLt; show (j 0).val = 0; omega)
  | ⟨1, _⟩ => rfl
  | ⟨2, _⟩ => rfl

/-- If the row block is rows of `X` at batch and position (k 0, k 1) and the weight block is `W`, the scaled
    projection block at j is `Qs X W` at k. -/
theorem pay4_block (X : Cert.Spec.SX.Idx → EReal) (W : Cert.Spec.SW.Idx → EReal)
    (x0 : Vec Ideal S1x1024x768 .f32) (x1 : Vec Ideal S64x768 .f32) (j : S1x1024x64.Idx) (k : S8x4096x64.Idx)
    (hk2 : (k 2).val = (j 2).val)
    (hx : ∀ e : Fin 768, x0 (ix3 (0 : Fin 1) (j 1 : Fin 1024) e) = X (ix3 (k 0 : Fin 8) (k 1 : Fin 4096) e))
    (hw : ∀ e : Fin 768, x1 (ix2 (j 2 : Fin 64) e) = W (ix2 (k 2 : Fin 64) e)) :
    k0_pay4 x0 x1 j = Cert.Spec.Qs X W (k 0) (k 1) (k 2) := by
  refine (congrArg (k0_pay4 x0 x1) (idx_unit j)).trans ((pay4_apply x0 x1 (j 1) (j 2)).trans ?_)
  show (∑ e : Fin 768, x0 (ix3 (0 : Fin 1) (j 1 : Fin 1024) e) * x1 (ix2 (j 2 : Fin 64) e)) * Ideal.ofBits .f32 0x3C800000#32
    = (∑ e : Fin 768, X (ix3 (k 0 : Fin 8) (k 1 : Fin 4096) e) * W (ix2 (k 2 : Fin 64) e)) * Ideal.ofBits .f32 0x3C800000#32
  exact congrArg (· * Ideal.ofBits .f32 0x3C800000#32) (Finset.sum_congr rfl fun e _ => congrArg₂ (· * ·) (hx e) (hw e))

/-- The same for the second projection (k). -/
theorem pay5_block (X : Cert.Spec.SX.Idx → EReal) (W : Cert.Spec.SW.Idx → EReal)
    (x0 : Vec Ideal S1x1024x768 .f32) (x2 : Vec Ideal S64x768 .f32) (j : S1x1024x64.Idx) (k : S8x4096x64.Idx)
    (hk2 : (k 2).val = (j 2).val)
    (hx : ∀ e : Fin 768, x0 (ix3 (0 : Fin 1) (j 1 : Fin 1024) e) = X (ix3 (k 0 : Fin 8) (k 1 : Fin 4096) e))
    (hw : ∀ e : Fin 768, x2 (ix2 (j 2 : Fin 64) e) = W (ix2 (k 2 : Fin 64) e)) :
    k0_pay5 x0 x2 j = Cert.Spec.proj X W (k 0) (k 1) (k 2) := by
  refine (congrArg (k0_pay5 x0 x2) (idx_unit j)).trans ((pay5_apply x0 x2 (j 1) (j 2)).trans ?_)
  show (∑ e : Fin 768, x0 (ix3 (0 : Fin 1) (j 1 : Fin 1024) e) * x2 (ix2 (j 2 : Fin 64) e))
    = ∑ e : Fin 768, X (ix3 (k 0 : Fin 8) (k 1 : Fin 4096) e) * W (ix2 (k 2 : Fin 64) e)
  exact Finset.sum_congr rfl fun e _ => congrArg₂ (· * ·) (hx e) (hw e)

/-- The same for the unscaled first projection (v). -/
theorem pay3_block (X : Cert.Spec.SX.Idx → EReal) (W : Cert.Spec.SW.Idx → EReal)
    (x0 : Vec Ideal S1x1024x768 .f32) (x1 : Vec Ideal S64x768 .f32) (j : S1x1024x64.Idx) (k : S8x4096x64.Idx)
    (hk2 : (k 2).val = (j 2).val)
    (hx : ∀ e : Fin 768, x0 (ix3 (0 : Fin 1) (j 1 : Fin 1024) e) = X (ix3 (k 0 : Fin 8) (k 1 : Fin 4096) e))
    (hw : ∀ e : Fin 768, x1 (ix2 (j 2 : Fin 64) e) = W (ix2 (k 2 : Fin 64) e)) :
    k0_pay3 x0 x1 j = Cert.Spec.proj X W (k 0) (k 1) (k 2) := by
  refine (congrArg (k0_pay3 x0 x1) (idx_unit j)).trans ((pay3_apply x0 x1 (j 1) (j 2)).trans ?_)
  show (∑ e : Fin 768, x0 (ix3 (0 : Fin 1) (j 1 : Fin 1024) e) * x1 (ix2 (j 2 : Fin 64) e))
    = ∑ e : Fin 768, X (ix3 (k 0 : Fin 8) (k 1 : Fin 4096) e) * W (ix2 (k 2 : Fin 64) e)
  exact Finset.sum_congr rfl fun e _ => congrArg₂ (· * ·) (hx e) (hw e)

/-! ## The three output arrays as functions of the entry arrays -/

/-- The scaled q array. -/
def Gq (c : Dev nD) : S8x4096x64.Idx → EReal := fun i => Cert.Spec.Qs (V c main_arg0) (V c main_arg1) (i 0) (i 1) (i 2)
/-- The k array. -/
def Gk (c : Dev nD) : S8x4096x64.Idx → EReal := fun i => Cert.Spec.proj (V c main_arg0) (V c main_arg2) (i 0) (i 1) (i 2)
/-- The v array: the unscaled q. -/
def Gv (c : Dev nD) : S8x4096x64.Idx → EReal := fun i => Cert.Spec.proj (V c main_arg0) (V c main_arg1) (i 0) (i 1) (i 2)

/-! ## Window 3: the scaled q -/

/-- Where block t of output window 3 sits in its array: batch t/4, rows 1024·(t%4) …, all 64 columns. -/
theorem emb3_val (t : Fin cfg0.N) (j : S1x1024x64.Idx) :
    ((((cfg0.win 3).blk t).view.emb j) 0).val = t.val / 4
    ∧ ((((cfg0.win 3).blk t).view.emb j) 1).val = 1024 * (t.val % 4) + (j 1).val
    ∧ ((((cfg0.win 3).blk t).view.emb j) 2).val = (j 2).val := by
  obtain ⟨-, -, -, -, -, -, -, e30, e31, e32, e40, e41, e42, e50, e51, e52⟩ := idx_facts t
  have hj : (j 0).val < 1 := (j 0).isLt
  refine ⟨?_, ?_, ?_⟩
  · show win0_3.index t (0 : Fin 3) * 1 + 1 * (j 0).val = _; omega
  · show win0_3.index t (1 : Fin 3) * 1024 + 1 * (j 1).val = _; omega
  · show win0_3.index t (2 : Fin 3) * 64 + 1 * (j 2).val = _; omega

/-- WHAT POINT t WRITES BACK to window 3 is block t of `Gq`. -/
theorem flushed3_eq (c : Dev nD) (t : Fin cfg0.N) :
    (dat0 (F := Ideal) V c).flushed 3 t = ((cfg0.win 3).blk t).view.read (Elt Ideal) (Gq V c) := by
  show (cfg0.win 3).cut (grid0.coords t) ((dat0 V c).after 3 t) = _
  rw [after0_3]
  funext j
  obtain ⟨k0, k1, k2⟩ := emb3_val t j
  show k0_pay4 (iblk0 V c 0 t) (iblk0 V c 1 t) j = Gq V c (((cfg0.win 3).blk t).view.emb j)
  refine pay4_block (V c main_arg0) (V c main_arg1) _ _ j _ k2 (fun e => ?_) (fun e => ?_)
  · exact iblk0_0_apply V c t _ _ k0 k1 rfl
  · rw [iblk0_1_apply]
    exact congrArg (V c main_arg1) (funext fun a => Fin.ext (by
      match a with
      | ⟨0, _⟩ => exact k2.symm
      | ⟨1, _⟩ => rfl))

/-- An index of the array is in point t's block of window 3 iff each coordinate is in the block's range. -/
theorem mem_blk3 (t : Fin cfg0.N) (i : S8x4096x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v0_0).slice (win0_3.rect t)).set ↔ _
  rw [View.set_slice_whole, Rect.mem_set_unit]
  exact Iff.rfl

/-- Every index of window 3's array is in the block of the point 4·(batch) + (row / 1024). -/
theorem cover3 (i : S8x4096x64.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 64 := (i 2).isLt
  have hN : 4 * (i 0).val + (i 1).val / 1024 < cfg0.N := by rw [show cfg0.N = 32 from N_0]; omega
  obtain ⟨t, ht⟩ : ∃ t : Fin cfg0.N, t.val = 4 * (i 0).val + (i 1).val / 1024 := ⟨⟨_, hN⟩, rfl⟩
  refine ⟨t, flush0_3 t, ?_⟩
  rw [mem_blk3]
  obtain ⟨-, -, -, -, -, -, -, e30, e31, e32, e40, e41, e42, e50, e51, e52⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-! ## Window 4: k -/

/-- Where block t of output window 4 sits in its array: batch t/4, rows 1024·(t%4) …, all 64 columns. -/
theorem emb4_val (t : Fin cfg0.N) (j : S1x1024x64.Idx) :
    ((((cfg0.win 4).blk t).view.emb j) 0).val = t.val / 4
    ∧ ((((cfg0.win 4).blk t).view.emb j) 1).val = 1024 * (t.val % 4) + (j 1).val
    ∧ ((((cfg0.win 4).blk t).view.emb j) 2).val = (j 2).val := by
  obtain ⟨-, -, -, -, -, -, -, e30, e31, e32, e40, e41, e42, e50, e51, e52⟩ := idx_facts t
  have hj : (j 0).val < 1 := (j 0).isLt
  refine ⟨?_, ?_, ?_⟩
  · show win0_4.index t (0 : Fin 3) * 1 + 1 * (j 0).val = _; omega
  · show win0_4.index t (1 : Fin 3) * 1024 + 1 * (j 1).val = _; omega
  · show win0_4.index t (2 : Fin 3) * 64 + 1 * (j 2).val = _; omega

/-- WHAT POINT t WRITES BACK to window 4 is block t of `Gk`. -/
theorem flushed4_eq (c : Dev nD) (t : Fin cfg0.N) :
    (dat0 (F := Ideal) V c).flushed 4 t = ((cfg0.win 4).blk t).view.read (Elt Ideal) (Gk V c) := by
  show (cfg0.win 4).cut (grid0.coords t) ((dat0 V c).after 4 t) = _
  rw [after0_4]
  funext j
  obtain ⟨k0, k1, k2⟩ := emb4_val t j
  show k0_pay5 (iblk0 V c 0 t) (iblk0 V c 2 t) j = Gk V c (((cfg0.win 4).blk t).view.emb j)
  refine pay5_block (V c main_arg0) (V c main_arg2) _ _ j _ k2 (fun e => ?_) (fun e => ?_)
  · exact iblk0_0_apply V c t _ _ k0 k1 rfl
  · rw [iblk0_2_apply]
    exact congrArg (V c main_arg2) (funext fun a => Fin.ext (by
      match a with
      | ⟨0, _⟩ => exact k2.symm
      | ⟨1, _⟩ => rfl))

/-- An index of the array is in point t's block of window 4 iff each coordinate is in the block's range. -/
theorem mem_blk4 (t : Fin cfg0.N) (i : S8x4096x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v0_1).slice (win0_4.rect t)).set ↔ _
  rw [View.set_slice_whole, Rect.mem_set_unit]
  exact Iff.rfl

/-- Every index of window 4's array is in the block of the point 4·(batch) + (row / 1024). -/
theorem cover4 (i : S8x4096x64.Idx) :
    ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 64 := (i 2).isLt
  have hN : 4 * (i 0).val + (i 1).val / 1024 < cfg0.N := by rw [show cfg0.N = 32 from N_0]; omega
  obtain ⟨t, ht⟩ : ∃ t : Fin cfg0.N, t.val = 4 * (i 0).val + (i 1).val / 1024 := ⟨⟨_, hN⟩, rfl⟩
  refine ⟨t, flush0_4 t, ?_⟩
  rw [mem_blk4]
  obtain ⟨-, -, -, -, -, -, -, e30, e31, e32, e40, e41, e42, e50, e51, e52⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-! ## Window 5: v -/

/-- Where block t of output window 5 sits in its array: batch t/4, rows 1024·(t%4) …, all 64 columns. -/
theorem emb5_val (t : Fin cfg0.N) (j : S1x1024x64.Idx) :
    ((((cfg0.win 5).blk t).view.emb j) 0).val = t.val / 4
    ∧ ((((cfg0.win 5).blk t).view.emb j) 1).val = 1024 * (t.val % 4) + (j 1).val
    ∧ ((((cfg0.win 5).blk t).view.emb j) 2).val = (j 2).val := by
  obtain ⟨-, -, -, -, -, -, -, e30, e31, e32, e40, e41, e42, e50, e51, e52⟩ := idx_facts t
  have hj : (j 0).val < 1 := (j 0).isLt
  refine ⟨?_, ?_, ?_⟩
  · show win0_5.index t (0 : Fin 3) * 1 + 1 * (j 0).val = _; omega
  · show win0_5.index t (1 : Fin 3) * 1024 + 1 * (j 1).val = _; omega
  · show win0_5.index t (2 : Fin 3) * 64 + 1 * (j 2).val = _; omega

/-- WHAT POINT t WRITES BACK to window 5 is block t of `Gv`. -/
theorem flushed5_eq (c : Dev nD) (t : Fin cfg0.N) :
    (dat0 (F := Ideal) V c).flushed 5 t = ((cfg0.win 5).blk t).view.read (Elt Ideal) (Gv V c) := by
  show (cfg0.win 5).cut (grid0.coords t) ((dat0 V c).after 5 t) = _
  rw [after0_5]
  funext j
  obtain ⟨k0, k1, k2⟩ := emb5_val t j
  show k0_pay3 (iblk0 V c 0 t) (iblk0 V c 1 t) j = Gv V c (((cfg0.win 5).blk t).view.emb j)
  refine pay3_block (V c main_arg0) (V c main_arg1) _ _ j _ k2 (fun e => ?_) (fun e => ?_)
  · exact iblk0_0_apply V c t _ _ k0 k1 rfl
  · rw [iblk0_1_apply]
    exact congrArg (V c main_arg1) (funext fun a => Fin.ext (by
      match a with
      | ⟨0, _⟩ => exact k2.symm
      | ⟨1, _⟩ => rfl))

/-- An index of the array is in point t's block of window 5 iff each coordinate is in the block's range. -/
theorem mem_blk5 (t : Fin cfg0.N) (i : S8x4096x64.Idx) :
    i ∈ ((cfg0.win 5).blk t).view.set ↔ ∀ a : Fin 3, win0_5.index t a * S1x1024x64.size a ≤ (i a).val ∧ (i a).val < win0_5.index t a * S1x1024x64.size a + S1x1024x64.size a := by
  show i ∈ ((View.whole main_v0_2).slice (win0_5.rect t)).set ↔ _
  rw [View.set_slice_whole, Rect.mem_set_unit]
  exact Iff.rfl

/-- Every index of window 5's array is in the block of the point 4·(batch) + (row / 1024). -/
theorem cover5 (i : S8x4096x64.Idx) :
    ∃ t : Fin cfg0.N, (cfg0.win 5).flush t = true ∧ i ∈ ((cfg0.win 5).blk t).view.set := by
  have h0 : (i 0).val < 8 := (i 0).isLt
  have h1 : (i 1).val < 4096 := (i 1).isLt
  have h2 : (i 2).val < 64 := (i 2).isLt
  have hN : 4 * (i 0).val + (i 1).val / 1024 < cfg0.N := by rw [show cfg0.N = 32 from N_0]; omega
  obtain ⟨t, ht⟩ : ∃ t : Fin cfg0.N, t.val = 4 * (i 0).val + (i 1).val / 1024 := ⟨⟨_, hN⟩, rfl⟩
  refine ⟨t, flush0_5 t, ?_⟩
  rw [mem_blk5]
  obtain ⟨-, -, -, -, -, -, -, e30, e31, e32, e40, e41, e42, e50, e51, e52⟩ := idx_facts t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 64 ≤ (i 2).val ∧ (i 2).val < win0_5.index t (2 : Fin 3) * 64 + 64; omega

/-! ## The arrays after the region -/

/-- The scaled q array after region 0. -/
theorem arr0_q (c : Dev nD) (b : Fin 8) (s : Fin 4096) (h : Fin 64) :
    (dat0 (F := Ideal) V c).arrAt 3 cfg0.N (ix3 b s h) = Cert.Spec.Qs (V c main_arg0) (V c main_arg1) b s h :=
  congrFun ((dat0 (F := Ideal) V c).arrAt_eq_of_cover 3 (Gq V c) (fun t _ => flushed3_eq V c t) cover3) (ix3 b s h)
/-- The k array after region 0. -/
theorem arr0_k (c : Dev nD) (b : Fin 8) (s : Fin 4096) (h : Fin 64) :
    (dat0 (F := Ideal) V c).arrAt 4 cfg0.N (ix3 b s h) = Cert.Spec.proj (V c main_arg0) (V c main_arg2) b s h :=
  congrFun ((dat0 (F := Ideal) V c).arrAt_eq_of_cover 4 (Gk V c) (fun t _ => flushed4_eq V c t) cover4) (ix3 b s h)
/-- The v array (the unscaled q) after region 0. -/
theorem arr0_v (c : Dev nD) (b : Fin 8) (s : Fin 4096) (h : Fin 64) :
    (dat0 (F := Ideal) V c).arrAt 5 cfg0.N (ix3 b s h) = Cert.Spec.proj (V c main_arg0) (V c main_arg1) b s h :=
  congrFun ((dat0 (F := Ideal) V c).arrAt_eq_of_cover 5 (Gv V c) (fun t _ => flushed5_eq V c t) cover5) (ix3 b s h)

end Cert.KernelIdeal.Val

end
-- ==== Proof.KI.Val1.lean ====
/-
  What region 1 leaves in the statistics row, at the ideal instance: entry (b, 0, k) is the running (max, sum) fold of
  key column k's scores over the four query tiles, closed by `m + log l`.
-/
import proofs.«424057_j71219147702834_3_alg».proof.Proof.KI.Dat1
import proofs.«424057_j71219147702834_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-! The lemmas of this module that are only steps towards `arr1_ml` live in their own namespace. -/
namespace Stats

/-! ## The payloads of the statistics kernel at an index -/

/-- The reset value of the running maximum is -inf everywhere. -/
theorem pay1_apply (j : S1x1024.Idx) : k1_pay1 (F := Ideal) j = Cert.Spec.negInf := rfl

/-- The reset value of the running sum is 0 everywhere. -/
theorem pay2_apply (j : S1x1024.Idx) : k1_pay2 (F := Ideal) j = Cert.Spec.zero := rfl

/-- The score tile's product contracts axis 1 of both operands: the operand indices at result index `i` = (r, c) and
    contraction index `q` are (r, q) and (c, q). -/
theorem lhs_score_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_score_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_score_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_score_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The score tile: entry (r, c) is the product of query row r and key row c of the two blocks, summed over the 64 head coordinates. -/
theorem pay7_apply (xq xk : Vec Ideal S1x1024x64 .bf16) (r c : Fin 1024) :
    k1_pay7 xq xk (ix2 r c) = ∑ h : Fin 64, xq (ix3 (0 : Fin 1) r h) * xk (ix3 (0 : Fin 1) c h) := by
  unfold k1_pay7
  rw [shapeCast_self]
  simp only [matmul]
  rw [Ideal.matmul_constant_zero_apply, ← Equiv.sum_comp (ValueIdx.contrEquiv1 dot_S1024x64_S1024x64_S1024x1024_1_1_0_0_n_n 64 rfl rfl).symm]
  refine Finset.sum_congr rfl fun h _ => ?_
  have hk := ValueIdx.contrEquiv1_symm_val dot_S1024x64_S1024x64_S1024x1024_1_1_0_0_n_n 64 rfl rfl h
  have el : dot_S1024x64_S1024x64_S1024x1024_1_1_0_0_n_n.lhsIdx (ix2 r c) ((ValueIdx.contrEquiv1 dot_S1024x64_S1024x64_S1024x1024_1_1_0_0_n_n 64 rfl rfl).symm h) = ix2 r h := funext fun a => Fin.ext (by
    match a with
    | ⟨0, _⟩ => exact lhs_score_0 _ _
    | ⟨1, _⟩ => exact (lhs_score_1 _ _).trans hk)
  have er : dot_S1024x64_S1024x64_S1024x1024_1_1_0_0_n_n.rhsIdx (ix2 r c) ((ValueIdx.contrEquiv1 dot_S1024x64_S1024x64_S1024x1024_1_1_0_0_n_n 64 rfl rfl).symm h) = ix2 c h := funext fun a => Fin.ext (by
    match a with
    | ⟨0, _⟩ => exact rhs_score_0 _ _
    | ⟨1, _⟩ => exact (rhs_score_1 _ _).trans hk)
  rw [el, er, shapeCast_1ab_ab_apply, shapeCast_1ab_ab_apply]

/-- Pointwise exponential and logarithm of a vector, at an index. -/
theorem exp_apply {s : Shape} (x : FVec Ideal s .f32) (i : s.Idx) : exp x i = Ideal.exp (x i) := rfl
theorem log_apply {s : Shape} (x : FVec Ideal s .f32) (i : s.Idx) : log x i = Ideal.log (x i) := rfl

/-- Over column c of a tile, the reduction along axis 0 ranges over the rows r at (r, c). -/
theorem lift_col (c r : Fin 1024) : reduces_S1024x1024_S1024.lift (ix1 c) r = ix2 r c := by
  funext a; apply Fin.ext
  match a with
  | ⟨0, _⟩ => rfl
  | ⟨1, _⟩ => rfl

/-- A tile's column maxima, as a row. -/
def colmax (sp : Vec Ideal S1024x1024 .f32) : FVec Ideal S1x1024 .f32 :=
  shapeCast S1x1024 (multiReduction .maximumf [0] S1024 sp 0xFF800000#32 reduces_S1024x1024_S1024 (.inl rfl) rfl) shapeCasts_S1024_S1x1024

/-- A tile's column sums of exponentials against a row of maxima, as a row. -/
def colsum (sp : Vec Ideal S1024x1024 .f32) (mx : Vec Ideal S1x1024 .f32) : FVec Ideal S1x1024 .f32 :=
  shapeCast S1x1024 (multiReduction .add [0] S1024 (exp (subf sp (broadcastTo S1024x1024 mx broadcasts_S1x1024_S1024x1024))) 0x00000000#32
    reduces_S1024x1024_S1024 (.inl rfl) rfl) shapeCasts_S1024_S1x1024

theorem colmax_apply (sp : Vec Ideal S1024x1024 .f32) (c : Fin 1024) :
    colmax sp (ix2 (0 : Fin 1) c) = (Finset.univ : Finset (Fin 1024)).fold max Cert.Spec.negInf fun r => sp (ix2 r c) := by
  unfold colmax
  rw [shapeCast_a_1a_apply]
  refine (Ideal.multiReduction_maximumf_single (φ := .f32) sp _ reduces_S1024x1024_S1024 _ _ (ix1 c)).trans ?_
  have e : (sp ∘ reduces_S1024x1024_S1024.lift (ix1 c)) = fun r : Fin 1024 => sp (ix2 r c) :=
    funext fun r => congrArg sp (lift_col c r)
  show Finset.fold max Cert.Spec.negInf (sp ∘ reduces_S1024x1024_S1024.lift (ix1 c)) Finset.univ = _
  rw [e]
  rfl

theorem colsum_apply (sp : Vec Ideal S1024x1024 .f32) (mx : Vec Ideal S1x1024 .f32) (c : Fin 1024) :
    colsum sp mx (ix2 (0 : Fin 1) c) = ∑ r : Fin 1024, Ideal.exp (sp (ix2 r c) - mx (ix2 (0 : Fin 1) c)) := by
  unfold colsum
  rw [shapeCast_a_1a_apply]
  refine (Ideal.multiReduction_add_single (φ := .f32) _ _ reduces_S1024x1024_S1024 _ _ (ix1 c)).trans ?_
  refine Finset.sum_congr rfl fun (r : Fin 1024) _ => ?_
  rw [lift_col, exp_apply, subf_apply, broadcastTo_1b_ab_apply]

/-- The payloads over those two rows. -/
theorem pay3_eq (sp : Vec Ideal S1024x1024 .f32) (m : Vec Ideal S1x1024 .f32) : k1_pay3 sp m = maximumf m (colmax sp) := rfl
theorem pay6_eq (sp : Vec Ideal S1024x1024 .f32) (m : Vec Ideal S1x1024 .f32) : k1_pay6 sp m = k1_pay3 sp m := shapeCast_self _ _
theorem pay4_eq (sp : Vec Ideal S1024x1024 .f32) (m l : Vec Ideal S1x1024 .f32) :
    k1_pay4 sp m l = mulf l (exp (subf m (k1_pay3 sp m))) := shapeCast_self _ _
theorem pay5_eq (sp : Vec Ideal S1024x1024 .f32) (m l : Vec Ideal S1x1024 .f32) :
    k1_pay5 sp m l = addf l (colsum sp (k1_pay3 sp m)) := shapeCast_self _ _
theorem pay8_eq (sp : Vec Ideal S1024x1024 .f32) (m l : Vec Ideal S1x1024 .f32) :
    k1_pay8 sp m l = shapeCast S1x1x1024 (addf (k1_pay3 sp m) (log (addf (mulf l (exp (subf m (k1_pay3 sp m)))) (colsum sp (k1_pay3 sp m)))))
      shapeCasts_S1x1024_S1x1x1024 := rfl

/-- The tile's column maximum against the running maximum. -/
theorem pay3_apply (sp : Vec Ideal S1024x1024 .f32) (m : Vec Ideal S1x1024 .f32) (c : Fin 1024) :
    k1_pay3 sp m (ix2 (0 : Fin 1) c)
      = max (m (ix2 (0 : Fin 1) c)) ((Finset.univ : Finset (Fin 1024)).fold max Cert.Spec.negInf fun r => sp (ix2 r c)) := by
  rw [pay3_eq, maximumf_apply, colmax_apply]

/-- One fold step at column c: the carried pair (m, l) becomes `mlStep` of the tile's column. -/
theorem step_apply (sp : Vec Ideal S1024x1024 .f32) (m l : Vec Ideal S1x1024 .f32) (c : Fin 1024) :
    (k1_pay6 sp m (ix2 (0 : Fin 1) c), k1_pay5 sp m (k1_pay4 sp m l) (ix2 (0 : Fin 1) c))
      = Cert.Spec.mlStep (fun r => sp (ix2 r c)) (m (ix2 (0 : Fin 1) c), l (ix2 (0 : Fin 1) c)) := by
  rw [pay5_eq, pay4_eq, pay6_eq, addf_apply, mulf_apply, exp_apply, subf_apply, colsum_apply, pay3_apply]
  rfl

/-- The closing step: the parked tile folded once more, then `m + log l`. -/
theorem pay8_apply (sp : Vec Ideal S1024x1024 .f32) (m l : Vec Ideal S1x1024 .f32) (c : Fin 1024) :
    k1_pay8 sp m l (ix3 (0 : Fin 1) (0 : Fin 1) c)
      = (Cert.Spec.mlStep (fun r => sp (ix2 r c)) (m (ix2 (0 : Fin 1) c), l (ix2 (0 : Fin 1) c))).1
        + Ideal.log (Cert.Spec.mlStep (fun r => sp (ix2 r c)) (m (ix2 (0 : Fin 1) c), l (ix2 (0 : Fin 1) c))).2 := by
  rw [pay8_eq, shapeCast_ab_1ab_apply, addf_apply, log_apply, addf_apply, mulf_apply, exp_apply, subf_apply, colsum_apply, pay3_apply]
  rfl

/-! ## The four points of a key tile -/

/-- A point that is not the first query step of its key tile steps from the point before. -/
theorem sc1_succ (c : Dev nD) (n : ℕ) (hn : n + 1 < cfg1.N) (h : ¬ (n + 1) % 4 = 0) :
    sc1 V c (n + 1) hn
      = step1 (iblk1 V c 0 ⟨n + 1, hn⟩) (iblk1 V c 1 ⟨n + 1, hn⟩) (sc1 V c n (Nat.lt_of_succ_lt hn)) :=
  if_neg h

/-- The carried state at the last query step of a key tile whose first point is `n`: a reset and three steps. -/
theorem sc1_tile (c : Dev nD) (n : ℕ) (h3 : n + 2 + 1 < cfg1.N) (h0 : n % 4 = 0) :
    sc1 V c (n + 2 + 1) h3
      = step1 (iblk1 V c 0 ⟨n + 2 + 1, h3⟩) (iblk1 V c 1 ⟨n + 2 + 1, h3⟩)
          (step1 (iblk1 V c 0 ⟨n + 1 + 1, Nat.lt_of_succ_lt h3⟩) (iblk1 V c 1 ⟨n + 1 + 1, Nat.lt_of_succ_lt h3⟩)
            (step1 (iblk1 V c 0 ⟨n + 1, Nat.lt_of_succ_lt (Nat.lt_of_succ_lt h3)⟩) (iblk1 V c 1 ⟨n + 1, Nat.lt_of_succ_lt (Nat.lt_of_succ_lt h3)⟩)
              (reset1 (iblk1 V c 0 ⟨n, Nat.lt_of_succ_lt (Nat.lt_of_succ_lt (Nat.lt_of_succ_lt h3))⟩)
                (iblk1 V c 1 ⟨n, Nat.lt_of_succ_lt (Nat.lt_of_succ_lt (Nat.lt_of_succ_lt h3))⟩)))) := by
  rw [sc1_succ V c (n + 2) h3 (by omega), sc1_succ V c (n + 1) (Nat.lt_of_succ_lt h3) (by omega),
    sc1_succ V c n (Nat.lt_of_succ_lt (Nat.lt_of_succ_lt h3)) (by omega),
    sc1_reset V c ⟨n, Nat.lt_of_succ_lt (Nat.lt_of_succ_lt (Nat.lt_of_succ_lt h3))⟩ h0]

/-- What the closing step writes at key `kk` of the tile, after a reset and three steps over four (query, key) block
    pairs: `mlOf` of the four score tiles' columns `kk`. -/
theorem fold4_apply (q0 q1 q2 q3 k0 k1 k2 k3 : Vec Ideal S1x1024x64 .bf16) (kk : Fin 1024) (tiles : Fin 4 → Fin 1024 → EReal)
    (h0 : ∀ r, k1_pay7 q0 k0 (ix2 r kk) = tiles 0 r) (h1 : ∀ r, k1_pay7 q1 k1 (ix2 r kk) = tiles 1 r)
    (h2 : ∀ r, k1_pay7 q2 k2 (ix2 r kk) = tiles 2 r) (h3 : ∀ r, k1_pay7 q3 k3 (ix2 r kk) = tiles 3 r) :
    k1_pay8 (step1 q3 k3 (step1 q2 k2 (step1 q1 k1 (reset1 q0 k0)))).2.2 (step1 q3 k3 (step1 q2 k2 (step1 q1 k1 (reset1 q0 k0)))).1
        (step1 q3 k3 (step1 q2 k2 (step1 q1 k1 (reset1 q0 k0)))).2.1 (ix3 (0 : Fin 1) (0 : Fin 1) kk)
      = Cert.Spec.mlOf tiles := by
  dsimp only [step1, reset1]
  rw [pay8_apply, step_apply, step_apply, step_apply, pay1_apply, pay2_apply,
    funext h0, funext h1, funext h2, funext h3]
  rfl

/-! ## From the blocks to the array -/

/-- The printed index maps, decided over the grid: point t = 16·b + 4·kt + qi reads query block (b, qi) and key block
    (b, kt), and its statistics block is (b, 0, kt). -/
theorem idx_facts : ∀ t : Fin cfg1.N,
    win1_0.index t (0 : Fin 3) = t.val / 16 ∧ win1_0.index t (1 : Fin 3) = t.val % 4 ∧ win1_0.index t (2 : Fin 3) = 0
    ∧ win1_1.index t (0 : Fin 3) = t.val / 16 ∧ win1_1.index t (1 : Fin 3) = t.val / 4 % 4 ∧ win1_1.index t (2 : Fin 3) = 0
    ∧ win1_2.index t (0 : Fin 3) = t.val / 16 ∧ win1_2.index t (1 : Fin 3) = 0 ∧ win1_2.index t (2 : Fin 3) = t.val / 4 % 4 :=
  (by decide +kernel : ∀ t : Fin grid1.N, _)

/-- The query block of a point, read at an index: row r of query tile j of batch b. -/
theorem iblk1_q_apply (c : Dev nD) (t : Fin cfg1.N) (b : Fin 8) (j : Fin 4) (hb : t.val / 16 = b.val) (hj : t.val % 4 = j.val)
    (r : Fin 1024) (h : Fin 64) :
    iblk1 V c 0 t (ix3 (0 : Fin 1) r h) = V c main_v0_0 (ix3 b (Cert.Spec.tix j r) h) := by
  obtain ⟨e0, e1, e2, -⟩ := idx_facts t
  show V c main_v0_0 (((cfg1.win 0).blk t).view.emb (ix3 (0 : Fin 1) r h)) = _
  refine congrArg (V c main_v0_0) (funext fun a => Fin.ext ?_)
  match a with
  | ⟨0, _⟩ => show win1_0.index t (0 : Fin 3) * 1 + 1 * 0 = b.val; omega
  | ⟨1, _⟩ => show win1_0.index t (1 : Fin 3) * 1024 + 1 * r.val = 1024 * j.val + r.val; omega
  | ⟨2, _⟩ => show win1_0.index t (2 : Fin 3) * 64 + 1 * h.val = h.val; omega

/-- The key block of a point, read at an index: row r of key tile kt of batch b. -/
theorem iblk1_k_apply (c : Dev nD) (t : Fin cfg1.N) (b : Fin 8) (kt : Fin 4) (hb : t.val / 16 = b.val) (hk : t.val / 4 % 4 = kt.val)
    (r : Fin 1024) (h : Fin 64) :
    iblk1 V c 1 t (ix3 (0 : Fin 1) r h) = V c main_v0_1 (ix3 b (Cert.Spec.tix kt r) h) := by
  obtain ⟨-, -, -, e0, e1, e2, -⟩ := idx_facts t
  show V c main_v0_1 (((cfg1.win 1).blk t).view.emb (ix3 (0 : Fin 1) r h)) = _
  refine congrArg (V c main_v0_1) (funext fun a => Fin.ext ?_)
  match a with
  | ⟨0, _⟩ => show win1_1.index t (0 : Fin 3) * 1 + 1 * 0 = b.val; omega
  | ⟨1, _⟩ => show win1_1.index t (1 : Fin 3) * 1024 + 1 * r.val = 1024 * kt.val + r.val; omega
  | ⟨2, _⟩ => show win1_1.index t (2 : Fin 3) * 64 + 1 * h.val = h.val; omega

/-- The score tile a point parks, at (r, kk): the score of query `tix j r` against key `tix kt kk` in batch b. -/
theorem tile_apply (c : Dev nD) (t : Fin cfg1.N) (b : Fin 8) (j kt : Fin 4) (hb : t.val / 16 = b.val) (hj : t.val % 4 = j.val)
    (hk : t.val / 4 % 4 = kt.val) (r kk : Fin 1024) :
    k1_pay7 (iblk1 V c 0 t) (iblk1 V c 1 t) (ix2 r kk)
      = Cert.Spec.sK (fun b s h => V c main_v0_0 (ix3 b s h)) (fun b s h => V c main_v0_1 (ix3 b s h)) b (Cert.Spec.tix j r) (Cert.Spec.tix kt kk) := by
  rw [pay7_apply]
  unfold Cert.Spec.sK
  refine Finset.sum_congr rfl fun h _ => ?_
  rw [iblk1_q_apply V c t b j hb hj, iblk1_k_apply V c t b kt hb hk]

/-- The whole-array function the statistics row ends holding. -/
abbrev G1 (c : Dev nD) : S8x1x4096.Idx → EReal := fun i =>
  Cert.Spec.MLk (Cert.Spec.sK (fun b s h => V c main_v0_0 (ix3 b s h)) (fun b s h => V c main_v0_1 (ix3 b s h))) (i 0) (i 2)

/-- Two functions of a [1, 1, 1024] index agree when they agree at every (0, 0, kk). -/
theorem funext_row {α : Type} {f g : S1x1x1024.Idx → α} (h : ∀ kk : Fin 1024, f (ix3 (0 : Fin 1) (0 : Fin 1) kk) = g (ix3 (0 : Fin 1) (0 : Fin 1) kk)) :
    f = g := by
  funext y
  have e : y = ix3 (0 : Fin 1) (0 : Fin 1) (y 2) := by
    funext a
    match a with
    | ⟨0, _⟩ => exact Fin.ext (show (y 0).val = 0 from by have h : (y 0).val < 1 := (y 0).isLt; omega)
    | ⟨1, _⟩ => exact Fin.ext (show (y 1).val = 0 from by have h : (y 1).val < 1 := (y 1).isLt; omega)
    | ⟨2, _⟩ => rfl
  rw [e]; exact h _

/-- What a flushing point (the last query step of its key tile) writes back is its block of `G1`. -/
theorem flushed_eq (c : Dev nD) (t : Fin cfg1.N) (hf : (cfg1.win 2).flush t = true) :
    (dat1 (F := Ideal) V c).flushed 2 t = ((cfg1.win 2).blk t).view.read (Elt Ideal) (G1 V c) := by
  have h3 : t.val % 4 = 3 := (flush1_2 t).mp hf
  obtain ⟨-, -, -, -, -, -, e0, e1, e2⟩ := idx_facts t
  show (cfg1.win 2).cut (grid1.coords t) ((dat1 (F := Ideal) V c).after 2 t) = _
  rw [after1_2]
  refine funext_row fun kk => ?_
  have ht : t.val < 128 := t.isLt
  show out1 V c t (ix3 (0 : Fin 1) (0 : Fin 1) kk) = G1 V c (((cfg1.win 2).blk t).view.emb (ix3 (0 : Fin 1) (0 : Fin 1) kk))
  have hi : ((cfg1.win 2).blk t).view.emb (ix3 (0 : Fin 1) (0 : Fin 1) kk)
      = ix3 (⟨t.val / 16, by omega⟩ : Fin 8) (0 : Fin 1) (Cert.Spec.tix (⟨t.val / 4 % 4, by omega⟩ : Fin 4) kk) := by
    funext a; apply Fin.ext
    match a with
    | ⟨0, _⟩ => show win1_2.index t (0 : Fin 3) * 1 + 1 * 0 = t.val / 16; omega
    | ⟨1, _⟩ => show win1_2.index t (1 : Fin 3) * 1 + 1 * 0 = 0; omega
    | ⟨2, _⟩ => show win1_2.index t (2 : Fin 3) * 1024 + 1 * kk.val = 1024 * (t.val / 4 % 4) + kk.val; omega
  rw [hi]
  show _ = Cert.Spec.mlOf fun j r => Cert.Spec.sK (fun b s h => V c main_v0_0 (ix3 b s h)) (fun b s h => V c main_v0_1 (ix3 b s h))
    (⟨t.val / 16, by omega⟩ : Fin 8) (Cert.Spec.tix j r) (Cert.Spec.tix (⟨t.val / 4 % 4, by omega⟩ : Fin 4) kk)
  obtain ⟨tv, htv⟩ := t
  obtain ⟨n, rfl⟩ : ∃ n, tv = n + 2 + 1 := ⟨tv - 3, by have : tv % 4 = 3 := h3; omega⟩
  have hn0 : n % 4 = 0 := by have : (n + 2 + 1) % 4 = 3 := h3; omega
  show k1_pay8 (sc1 V c (n + 2 + 1) htv).2.2 (sc1 V c (n + 2 + 1) htv).1 (sc1 V c (n + 2 + 1) htv).2.1 (ix3 (0 : Fin 1) (0 : Fin 1) kk) = _
  rw [sc1_tile V c n htv hn0]
  have hn : n + 2 + 1 < 128 := htv
  refine fold4_apply _ _ _ _ _ _ _ _ kk _ (fun r => ?_) (fun r => ?_) (fun r => ?_) (fun r => ?_)
  · exact tile_apply V c _ _ 0 _ (by show n / 16 = (n + 2 + 1) / 16; omega) (by show n % 4 = 0; omega)
      (by show n / 4 % 4 = (n + 2 + 1) / 4 % 4; omega) r kk
  · exact tile_apply V c _ _ 1 _ (by show (n + 1) / 16 = (n + 2 + 1) / 16; omega) (by show (n + 1) % 4 = 1; omega)
      (by show (n + 1) / 4 % 4 = (n + 2 + 1) / 4 % 4; omega) r kk
  · exact tile_apply V c _ _ 2 _ (by show (n + 1 + 1) / 16 = (n + 2 + 1) / 16; omega) (by show (n + 1 + 1) % 4 = 2; omega)
      (by show (n + 1 + 1) / 4 % 4 = (n + 2 + 1) / 4 % 4; omega) r kk
  · exact tile_apply V c _ _ 3 _ (by show (n + 2 + 1) / 16 = (n + 2 + 1) / 16; rfl) (by show (n + 2 + 1) % 4 = 3; omega)
      (by show (n + 2 + 1) / 4 % 4 = (n + 2 + 1) / 4 % 4; rfl) r kk

/-- An index of the statistics row is in point `t`'s block iff each coordinate is in the block's range on its axis. -/
theorem mem_blk (t : Fin cfg1.N) (i : S8x1x4096.Idx) :
    i ∈ ((cfg1.win 2).blk t).view.set ↔ ∀ a : Fin 3, win1_2.index t a * S1x1x1024.size a ≤ (i a).val ∧ (i a).val < win1_2.index t a * S1x1x1024.size a + S1x1x1024.size a := by
  show i ∈ ((View.whole main_v1).slice (win1_2.rect t)).set ↔ _
  rw [View.set_slice_whole, Rect.mem_set_unit]
  exact Iff.rfl

/-- Key k of batch b is in the block of the last query step of its key tile: point 16·b + 4·(k / 1024) + 3. -/
theorem cover (i : S8x1x4096.Idx) : ∃ t : Fin cfg1.N, (cfg1.win 2).flush t = true ∧ i ∈ ((cfg1.win 2).blk t).view.set := by
  have h0 : (i 0).val < 8 := (i 0).isLt
  have h1 : (i 1).val < 1 := (i 1).isLt
  have h2 : (i 2).val < 4096 := (i 2).isLt
  obtain ⟨t, ht⟩ : ∃ t : Fin cfg1.N, t.val = 16 * (i 0).val + 4 * ((i 2).val / 1024) + 3 :=
    ⟨⟨16 * (i 0).val + 4 * ((i 2).val / 1024) + 3, by show _ < 128; omega⟩, rfl⟩
  obtain ⟨-, -, -, -, -, -, e0, e1, e2⟩ := idx_facts t
  refine ⟨t, (flush1_2 t).mpr (by omega), ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1 ≤ (i 1).val ∧ (i 1).val < win1_2.index t (1 : Fin 3) * 1 + 1; omega
  | ⟨2, _⟩ => show win1_2.index t (2 : Fin 3) * 1024 ≤ (i 2).val ∧ (i 2).val < win1_2.index t (2 : Fin 3) * 1024 + 1024; omega

end Stats

/-- The statistics row after region 1, from the scaled-q and k arrays it was entered at. -/
theorem arr1_ml (c : Dev nD) (b : Fin 8) (k : Fin 4096) :
    (dat1 (F := Ideal) V c).arrAt 2 cfg1.N (ix3 b (0 : Fin 1) k)
      = Cert.Spec.MLk (Cert.Spec.sK (fun b s h => V c main_v0_0 (ix3 b s h)) (fun b s h => V c main_v0_1 (ix3 b s h))) b k := by
  rw [(dat1 (F := Ideal) V c).arrAt_eq_of_cover 2 (Stats.G1 V c) (fun t hf => Stats.flushed_eq V c t hf) Stats.cover]

end Cert.KernelIdeal.Val

end
-- ==== Proof.KI.Val2.lean ====
/-
  What region 2 leaves in the output array, at the ideal instance: entry (b, q, h) is the accumulator from 0 through
  the four key tiles, each adding `Σ_r exp(s[q, k_r] - ml[k_r])·v[k_r, h]`.

  The road: (1) each payload of the body read at an index — the score tile as a sum over the 64 head coordinates, the
  accumulator step as the old entry plus a sum over the tile's 1024 keys, the re-shapes as the same entry under or
  without a unit axis; (2) the carried state unfolded three steps back from a point with key step 3, which gives the
  accumulator there as 0 plus four tile sums, and each tile sum read off the arrays through the point's blocks (the
  index maps in closed form: point t is batch t / 16, query tile t / 4 % 4, key tile t % 4); (3) the points with key
  step 3 write back blocks that tile the output array, so the array ends holding that entry everywhere.
-/
import proofs.«424057_j71219147702834_3_alg».proof.Proof.KI.Dat2
import proofs.«424057_j71219147702834_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

/-! Everything but the last theorem is auxiliary to region 2 and lives in its own namespace. -/
namespace Out2

/-! ## The two matrix products' operand indices, axis by axis -/

/-- Scores, q times k transposed: the left operand's row is the result's row. -/
theorem sdot_lhs_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- Its column is the contracted coordinate. -/
theorem sdot_lhs_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
/-- The right operand's row is the result's column. -/
theorem sdot_rhs_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
/-- Its column is the contracted coordinate. -/
theorem sdot_rhs_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- Weights times values: the left operand's row is the result's row. -/
theorem pdot_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
/-- Its column is the contracted coordinate. -/
theorem pdot_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
/-- The right operand's row is the contracted coordinate. -/
theorem pdot_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
/-- Its column is the result's column. -/
theorem pdot_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-! ## The payloads at an index -/

/-- The score tile: entry (r, c) is the product of query row r and key row c over the 64 head coordinates. -/
theorem pay5_apply (xq xk : Vec Ideal S1x1024x64 .bf16) (r c : Fin 1024) :
    k2_pay5 (F := Ideal) xq xk (ix2 r c) = ∑ h : Fin 64, xq (ix3 (0 : Fin 1) r h) * xk (ix3 (0 : Fin 1) c h) := by
  unfold k2_pay5
  rw [shapeCast_self]
  simp only [matmul]
  rw [Ideal.matmul_constant_zero_apply, ← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 r c) ((contrEquiv1 dot_S1024x64_S1024x64_S1024x1024_1_1_0_0_n_n 64 rfl rfl).symm k) = ix2 r k := funext fun a => Fin.ext (by
    match a with
    | ⟨0, _⟩ => exact sdot_lhs_0 _ _
    | ⟨1, _⟩ => exact (sdot_lhs_1 _ _).trans hk)
  have er : dot_S1024x64_S1024x64_S1024x1024_1_1_0_0_n_n.rhsIdx (ix2 r c) ((contrEquiv1 dot_S1024x64_S1024x64_S1024x1024_1_1_0_0_n_n 64 rfl rfl).symm k) = ix2 c k := funext fun a => Fin.ext (by
    match a with
    | ⟨0, _⟩ => exact sdot_rhs_0 _ _
    | ⟨1, _⟩ => exact (sdot_rhs_1 _ _).trans hk)
  rw [el, er, shapeCast_1ab_ab_apply, shapeCast_1ab_ab_apply]

/-- The accumulator step: the old accumulator plus, over the 1024 keys of the parked tile, the weight
    exp(score - normaliser) times the value. -/
theorem pay4_apply (sp : Vec Ideal S1024x1024 .f32) (mlp : Vec Ideal S1x1024 .f32) (acc : Vec Ideal S1024x64 .f32)
    (vp : Vec Ideal S1024x64 .bf16) (r : Fin 1024) (h : Fin 64) :
    k2_pay4 (F := Ideal) sp mlp acc vp (ix2 r h)
      = acc (ix2 r h) + ∑ c : Fin 1024, Ideal.exp (sp (ix2 r c) - mlp (ix2 (0 : Fin 1) c)) * vp (ix2 c h) := by
  unfold k2_pay4
  rw [shapeCast_self, addf_apply]
  simp only [matmul]
  rw [Ideal.matmul_constant_zero_apply, ← Equiv.sum_comp (contrEquiv1 dot_S1024x1024_S1024x64_S1024x64_1_0_0_1_n_n 1024 rfl rfl).symm]
  refine congrArg (acc (ix2 r h) + ·) (Finset.sum_congr rfl fun k _ => ?_)
  have hk := contrEquiv1_symm_val dot_S1024x1024_S1024x64_S1024x64_1_0_0_1_n_n 1024 rfl rfl k
  have el : dot_S1024x1024_S1024x64_S1024x64_1_0_0_1_n_n.lhsIdx (ix2 r h) ((contrEquiv1 dot_S1024x1024_S1024x64_S1024x64_1_0_0_1_n_n 1024 rfl rfl).symm k) = ix2 r k := funext fun a => Fin.ext (by
    match a with
    | ⟨0, _⟩ => exact pdot_lhs_0 _ _
    | ⟨1, _⟩ => exact (pdot_lhs_1 _ _).trans hk)
  have er : dot_S1024x1024_S1024x64_S1024x64_1_0_0_1_n_n.rhsIdx (ix2 r h) ((contrEquiv1 dot_S1024x1024_S1024x64_S1024x64_1_0_0_1_n_n 1024 rfl rfl).symm k) = ix2 k h := funext fun a => Fin.ext (by
    match a with
    | ⟨0, _⟩ => exact (pdot_rhs_0 _ _).trans hk
    | ⟨1, _⟩ => exact pdot_rhs_1 _ _)
  rw [el, er, truncf_apply]
  show Ideal.exp (sp (ix2 r k) - broadcastTo S1024x1024 mlp broadcasts_S1x1024_S1024x1024 (ix2 r k)) * vp (ix2 k h) = _
  rw [broadcastTo_1b_ab_apply]

/-- The last key step's second fold is the same function. -/
theorem pay1_apply (sp : Vec Ideal S1024x1024 .f32) (mlp : Vec Ideal S1x1024 .f32) (acc : Vec Ideal S1024x64 .f32)
    (vp : Vec Ideal S1024x64 .bf16) (r : Fin 1024) (h : Fin 64) :
    k2_pay1 (F := Ideal) sp mlp acc vp (ix2 r h)
      = acc (ix2 r h) + ∑ c : Fin 1024, Ideal.exp (sp (ix2 r c) - mlp (ix2 (0 : Fin 1) c)) * vp (ix2 c h) :=
  pay4_apply sp mlp acc vp r h

/-- The zeroed accumulator is the zero word everywhere. -/
theorem pay3_apply (i : S1024x64.Idx) : k2_pay3 (F := Ideal) i = Cert.Spec.zero := by
  unfold k2_pay3
  rw [shapeCast_self]
  rfl

/-- The parked value tile is the value block without its unit axis. -/
theorem pay6_apply (xv : Vec Ideal S1x1024x64 .bf16) (r : Fin 1024) (h : Fin 64) :
    k2_pay6 (F := Ideal) xv (ix2 r h) = xv (ix3 (0 : Fin 1) r h) := by
  unfold k2_pay6
  rw [shapeCast_self, shapeCast_1ab_ab_apply]

/-- The parked normaliser row is the statistics block without its leading unit axis. -/
theorem pay7_apply (xml : Vec Ideal S1x1x1024 .f32) (c : Fin 1024) :
    k2_pay7 (F := Ideal) xml (ix2 (0 : Fin 1) c) = xml (ix3 (0 : Fin 1) (0 : Fin 1) c) := by
  unfold k2_pay7
  rw [shapeCast_self]
  exact shapeCast_apply xml shapeCasts_S1x1x1024_S1x1024 _ _ (by
    rw [Shape.rowMajor_val_three, Shape.rowMajor_val_two]
    rfl)

/-- The output block is the accumulator under a unit axis. -/
theorem pay2_apply (acc : Vec Ideal S1024x64 .f32) (u : Fin 1) (r : Fin 1024) (h : Fin 64) :
    k2_pay2 (F := Ideal) acc (ix3 u r h) = acc (ix2 r h) := by
  unfold k2_pay2
  rw [shapeCast_ab_1ab_apply]

/-! ## Four key steps of one query tile, over abstract blocks -/

/-- What one key step's blocks add to the accumulator's entry (r, h): over the tile's 1024 keys, the weight
    exp(score - normaliser) times the value. -/
def tileSum (xq xk xv : Vec Ideal S1x1024x64 .bf16) (xml : Vec Ideal S1x1x1024 .f32) (r : Fin 1024) (h : Fin 64) : EReal :=
  ∑ c : Fin 1024, Ideal.exp ((∑ e : Fin 64, xq (ix3 (0 : Fin 1) r e) * xk (ix3 (0 : Fin 1) c e)) - xml (ix3 (0 : Fin 1) (0 : Fin 1) c))
    * xv (ix3 (0 : Fin 1) c h)

/-- A fold of parked tiles is the accumulator plus their tile sum. -/
theorem fold_parked (xq xk xv : Vec Ideal S1x1024x64 .bf16) (xml : Vec Ideal S1x1x1024 .f32) (acc : Vec Ideal S1024x64 .f32)
    (r : Fin 1024) (h : Fin 64) :
    k2_pay4 (F := Ideal) (k2_pay5 xq xk) (k2_pay7 xml) acc (k2_pay6 xv) (ix2 r h) = acc (ix2 r h) + tileSum xq xk xv xml r h := by
  rw [pay4_apply]
  unfold tileSum
  refine congrArg (acc (ix2 r h) + ·) (Finset.sum_congr rfl fun k _ => ?_)
  rw [pay5_apply, pay6_apply, pay7_apply]

/-- Reset, two middle steps and the last step: the accumulator is 0 plus the four tile sums in order. -/
theorem acc_four (q0 k0 v0 q1 k1 v1 q2 k2 v2 q3 k3 v3 : Vec Ideal S1x1024x64 .bf16) (m0 m1 m2 m3 : Vec Ideal S1x1x1024 .f32)
    (r : Fin 1024) (h : Fin 64) :
    (last2 (F := Ideal) q3 k3 v3 m3 (step2 q2 k2 v2 m2 (step2 q1 k1 v1 m1 (reset2 q0 k0 v0 m0)))).1 (ix2 r h)
      = (((Cert.Spec.zero + tileSum q0 k0 v0 m0 r h) + tileSum q1 k1 v1 m1 r h) + tileSum q2 k2 v2 m2 r h) + tileSum q3 k3 v3 m3 r h := by
  show k2_pay1 (F := Ideal) (k2_pay5 q3 k3) (k2_pay7 m3)
      (k2_pay4 (k2_pay5 q2 k2) (k2_pay7 m2) (k2_pay4 (k2_pay5 q1 k1) (k2_pay7 m1) (k2_pay4 (k2_pay5 q0 k0) (k2_pay7 m0) (k2_pay3 (F := Ideal)) (k2_pay6 v0)) (k2_pay6 v1)) (k2_pay6 v2))
      (k2_pay6 v3) (ix2 r h) = _
  have e1 : ∀ (sp : Vec Ideal S1024x1024 .f32) (mlp : Vec Ideal S1x1024 .f32) (acc : Vec Ideal S1024x64 .f32) (vp : Vec Ideal S1024x64 .bf16),
      k2_pay1 (F := Ideal) sp mlp acc vp = k2_pay4 sp mlp acc vp := fun _ _ _ _ => rfl
  rw [e1, fold_parked, fold_parked, fold_parked, fold_parked, pay3_apply]

/-! ## The blocks a point reads, at an index -/

/-- The printed index maps in closed form, decided over the grid: point t is batch t / 16, query tile t / 4 % 4,
    key tile t % 4. -/
theorem idx_qo : ∀ t : Fin cfg2.N,
    win2_0.index t (0 : Fin 3) = t.val / 16 ∧ win2_0.index t (1 : Fin 3) = t.val / 4 % 4 ∧ win2_0.index t (2 : Fin 3) = 0
    ∧ win2_4.index t (0 : Fin 3) = t.val / 16 ∧ win2_4.index t (1 : Fin 3) = t.val / 4 % 4 ∧ win2_4.index t (2 : Fin 3) = 0 :=
  (by decide +kernel : ∀ t : Fin grid2.N, _)
theorem idx_kv : ∀ t : Fin cfg2.N,
    win2_1.index t (0 : Fin 3) = t.val / 16 ∧ win2_1.index t (1 : Fin 3) = t.val % 4 ∧ win2_1.index t (2 : Fin 3) = 0
    ∧ win2_2.index t (0 : Fin 3) = t.val / 16 ∧ win2_2.index t (1 : Fin 3) = t.val % 4 ∧ win2_2.index t (2 : Fin 3) = 0
    ∧ win2_3.index t (0 : Fin 3) = t.val / 16 ∧ win2_3.index t (1 : Fin 3) = 0 ∧ win2_3.index t (2 : Fin 3) = t.val % 4 :=
  (by decide +kernel : ∀ t : Fin grid2.N, _)

variable (V : (c : Dev nD) → (b : Ref sig .tc) → Buf (Elt Ideal) ((c : Thread nD τ).loc b))

/-- The scaled-q block of point t: row r of query tile t / 4 % 4 of batch t / 16. -/
theorem blkq_apply (c : Dev nD) (t : Fin cfg2.N) (u : Fin 1) (r : Fin 1024) (e : Fin 64) (i : S8x4096x64.Idx)
    (h0 : (i 0).val = t.val / 16) (h1 : (i 1).val = t.val / 4 % 4 * 1024 + r.val) (h2 : (i 2).val = e.val) :
    iblk2 (F := Ideal) V c 0 t (ix3 u r e) = V c main_v0_0 i := by
  obtain ⟨a0, a1, a2, -⟩ := idx_qo t
  show V c main_v0_0 (((cfg2.win 0).blk t).view.emb (ix3 u r e)) = V c main_v0_0 i
  refine congrArg _ (funext fun a => Fin.ext ?_)
  have hu : u.val = 0 := by omega
  match a with
  | ⟨0, _⟩ => show win2_0.index t (0 : Fin 3) * 1 + 1 * u.val = (i 0).val; omega
  | ⟨1, _⟩ => show win2_0.index t (1 : Fin 3) * 1024 + 1 * r.val = (i 1).val; omega
  | ⟨2, _⟩ => show win2_0.index t (2 : Fin 3) * 64 + 1 * e.val = (i 2).val; omega

/-- The k block of point t: row r of key tile t % 4 of batch t / 16. -/
theorem blkk_apply (c : Dev nD) (t : Fin cfg2.N) (u : Fin 1) (r : Fin 1024) (e : Fin 64) (i : S8x4096x64.Idx)
    (h0 : (i 0).val = t.val / 16) (h1 : (i 1).val = t.val % 4 * 1024 + r.val) (h2 : (i 2).val = e.val) :
    iblk2 (F := Ideal) V c 1 t (ix3 u r e) = V c main_v0_1 i := by
  obtain ⟨a0, a1, a2, -⟩ := idx_kv t
  show V c main_v0_1 (((cfg2.win 1).blk t).view.emb (ix3 u r e)) = V c main_v0_1 i
  refine congrArg _ (funext fun a => Fin.ext ?_)
  have hu : u.val = 0 := by omega
  match a with
  | ⟨0, _⟩ => show win2_1.index t (0 : Fin 3) * 1 + 1 * u.val = (i 0).val; omega
  | ⟨1, _⟩ => show win2_1.index t (1 : Fin 3) * 1024 + 1 * r.val = (i 1).val; omega
  | ⟨2, _⟩ => show win2_1.index t (2 : Fin 3) * 64 + 1 * e.val = (i 2).val; omega

/-- The v block of point t: the same rows of the third array. -/
theorem blkv_apply (c : Dev nD) (t : Fin cfg2.N) (u : Fin 1) (r : Fin 1024) (e : Fin 64) (i : S8x4096x64.Idx)
    (h0 : (i 0).val = t.val / 16) (h1 : (i 1).val = t.val % 4 * 1024 + r.val) (h2 : (i 2).val = e.val) :
    iblk2 (F := Ideal) V c 2 t (ix3 u r e) = V c main_v0_2 i := by
  obtain ⟨-, -, -, a0, a1, a2, -⟩ := idx_kv t
  show V c main_v0_2 (((cfg2.win 2).blk t).view.emb (ix3 u r e)) = V c main_v0_2 i
  refine congrArg _ (funext fun a => Fin.ext ?_)
  have hu : u.val = 0 := by omega
  match a with
  | ⟨0, _⟩ => show win2_2.index t (0 : Fin 3) * 1 + 1 * u.val = (i 0).val; omega
  | ⟨1, _⟩ => show win2_2.index t (1 : Fin 3) * 1024 + 1 * r.val = (i 1).val; omega
  | ⟨2, _⟩ => show win2_2.index t (2 : Fin 3) * 64 + 1 * e.val = (i 2).val; omega

/-- The statistics block of point t: key tile t % 4 of batch t / 16's one row. -/
theorem blkm_apply (c : Dev nD) (t : Fin cfg2.N) (u u' : Fin 1) (r : Fin 1024) (i : S8x1x4096.Idx)
    (h0 : (i 0).val = t.val / 16) (h2 : (i 2).val = t.val % 4 * 1024 + r.val) :
    iblk2 (F := Ideal) V c 3 t (ix3 u u' r) = V c main_v1 i := by
  obtain ⟨-, -, -, -, -, -, a0, a1, a2⟩ := idx_kv t
  show V c main_v1 (((cfg2.win 3).blk t).view.emb (ix3 u u' r)) = V c main_v1 i
  refine congrArg _ (funext fun a => Fin.ext ?_)
  have hu : u.val = 0 := by omega
  have hu' : u'.val = 0 := by omega
  have hi1 : (i 1).val = 0 := by have : (i 1).val < 1 := (i 1).isLt; omega
  match a with
  | ⟨0, _⟩ => show win2_3.index t (0 : Fin 3) * 1 + 1 * u.val = (i 0).val; omega
  | ⟨1, _⟩ => show win2_3.index t (1 : Fin 3) * 1 + 1 * u'.val = (i 1).val; omega
  | ⟨2, _⟩ => show win2_3.index t (2 : Fin 3) * 1024 + 1 * r.val = (i 2).val; omega

/-! ## One key step at a grid point, and the four points of a query tile -/

/-- The tile sum of point t's own blocks is key tile t % 4's contribution to row q of batch b. -/
theorem tile_at (c : Dev nD) (t : Fin cfg2.N) (j : Fin 4) (hj : t.val % 4 = j.val) (b : Fin 8) (q : Fin 4096) (r : Fin 1024) (h : Fin 64)
    (hb : b.val = t.val / 16) (hq : q.val = t.val / 4 % 4 * 1024 + r.val) :
    tileSum (iblk2 (F := Ideal) V c 0 t) (iblk2 V c 1 t) (iblk2 V c 2 t) (iblk2 V c 3 t) r h
      = Cert.Spec.outTile (Cert.Spec.sK (fun b s h => V c main_v0_0 (ix3 b s h)) (fun b s h => V c main_v0_1 (ix3 b s h)))
          (fun b k => V c main_v1 (ix3 b (0 : Fin 1) k)) (fun b s h => V c main_v0_2 (ix3 b s h)) b q h j := by
  unfold tileSum Cert.Spec.outTile Cert.Spec.sK
  refine Finset.sum_congr rfl fun k _ => ?_
  have hk : (Cert.Spec.tix j k).val = t.val % 4 * 1024 + k.val := by
    show 1024 * j.val + k.val = t.val % 4 * 1024 + k.val
    omega
  have eq : ∀ e : Fin 64, iblk2 (F := Ideal) V c 0 t (ix3 (0 : Fin 1) r e) = V c main_v0_0 (ix3 b q e) :=
    fun e => blkq_apply V c t 0 r e (ix3 b q e) hb hq rfl
  have ek : ∀ e : Fin 64, iblk2 (F := Ideal) V c 1 t (ix3 (0 : Fin 1) k e) = V c main_v0_1 (ix3 b (Cert.Spec.tix j k) e) :=
    fun e => blkk_apply V c t 0 k e (ix3 b (Cert.Spec.tix j k) e) hb hk rfl
  have ev : iblk2 (F := Ideal) V c 2 t (ix3 (0 : Fin 1) k h) = V c main_v0_2 (ix3 b (Cert.Spec.tix j k) h) :=
    blkv_apply V c t 0 k h (ix3 b (Cert.Spec.tix j k) h) hb hk rfl
  have em : iblk2 (F := Ideal) V c 3 t (ix3 (0 : Fin 1) (0 : Fin 1) k) = V c main_v1 (ix3 b (0 : Fin 1) (Cert.Spec.tix j k)) :=
    blkm_apply V c t 0 0 k (ix3 b (0 : Fin 1) (Cert.Spec.tix j k)) hb hk
  simp only [eq, ek, ev, em]

/-- The grid has 128 points. -/
theorem N2 : cfg2.N = 128 := by decide

/-- The output block of a point with key step 3: row r is the accumulator from 0 through the four key tiles. -/
theorem out_at (c : Dev nD) (t : Fin cfg2.N) (h3 : t.val % 4 = 3) (u : Fin 1) (r : Fin 1024) (h : Fin 64) (b : Fin 8) (q : Fin 4096)
    (hb : b.val = t.val / 16) (hq : q.val = t.val / 4 % 4 * 1024 + r.val) :
    out2 (F := Ideal) V c t (ix3 u r h)
      = Cert.Spec.outK (Cert.Spec.sK (fun b s h => V c main_v0_0 (ix3 b s h)) (fun b s h => V c main_v0_1 (ix3 b s h)))
          (fun b k => V c main_v1 (ix3 b (0 : Fin 1) k)) (fun b s h => V c main_v0_2 (ix3 b s h)) b q h := by
  have ht : t.val < 128 := N2 ▸ t.isLt
  have l1 : t.val - 1 < cfg2.N := Nat.lt_of_le_of_lt (Nat.sub_le _ _) t.isLt
  have l2 : t.val - 1 - 1 < cfg2.N := Nat.lt_of_le_of_lt (Nat.sub_le _ _) l1
  have l3 : t.val - 1 - 1 - 1 < cfg2.N := Nat.lt_of_le_of_lt (Nat.sub_le _ _) l2
  have s0 := sc2_last V c t h3
  have s1 := sc2_step V c ⟨t.val - 1, l1⟩ (by show ¬ (t.val - 1) % 4 = 0; omega) (by show ¬ (t.val - 1) % 4 = 3; omega)
  have s2 := sc2_step V c ⟨t.val - 1 - 1, l2⟩ (by show ¬ (t.val - 1 - 1) % 4 = 0; omega) (by show ¬ (t.val - 1 - 1) % 4 = 3; omega)
  have s3 := sc2_reset V c ⟨t.val - 1 - 1 - 1, l3⟩ (by show (t.val - 1 - 1 - 1) % 4 = 0; omega)
  unfold out2
  rw [pay2_apply, s0]
  erw [s1, s2, s3]
  rw [acc_four]
  unfold Cert.Spec.outK
  rw [tile_at V c ⟨t.val - 1 - 1 - 1, l3⟩ 0 (by show (t.val - 1 - 1 - 1) % 4 = 0; omega) b q r h (by show b.val = (t.val - 1 - 1 - 1) / 16; omega) (by show q.val = (t.val - 1 - 1 - 1) / 4 % 4 * 1024 + r.val; omega),
    tile_at V c ⟨t.val - 1 - 1, l2⟩ 1 (by show (t.val - 1 - 1) % 4 = 1; omega) b q r h (by show b.val = (t.val - 1 - 1) / 16; omega) (by show q.val = (t.val - 1 - 1) / 4 % 4 * 1024 + r.val; omega),
    tile_at V c ⟨t.val - 1, l1⟩ 2 (by show (t.val - 1) % 4 = 2; omega) b q r h (by show b.val = (t.val - 1) / 16; omega) (by show q.val = (t.val - 1) / 4 % 4 * 1024 + r.val; omega),
    tile_at V c t 3 h3 b q r h hb hq]

/-! ## From the flushed blocks to the array -/

/-- The array the region leaves: at every index the kernel's output entry. -/
def outArr (c : Dev nD) : S8x4096x64.Idx → EReal := fun i =>
  Cert.Spec.outK (Cert.Spec.sK (fun b s h => V c main_v0_0 (ix3 b s h)) (fun b s h => V c main_v0_1 (ix3 b s h)))
    (fun b k => V c main_v1 (ix3 b (0 : Fin 1) k)) (fun b s h => V c main_v0_2 (ix3 b s h)) (i 0) (i 1) (i 2)

/-- What a point with key step 3 writes back is its block of that array. -/
theorem flushed_out (c : Dev nD) (t : Fin cfg2.N) (hf : (cfg2.win 4).flush t = true) :
    (dat2 (F := Ideal) V c).flushed 4 t = ((cfg2.win 4).blk t).view.read (Elt Ideal) (outArr V c) := by
  have h3 : t.val % 4 = 3 := (flush2_4 t).mp hf
  have ht : t.val < 128 := N2 ▸ t.isLt
  show (cfg2.win 4).cut (grid2.coords t) ((dat2 (F := Ideal) V c).after 4 t) = _
  rw [after2_4]
  funext y
  obtain ⟨u, r, h, rfl⟩ : ∃ (u : Fin 1) (r : Fin 1024) (h : Fin 64), y = ix3 u r h :=
    ⟨y 0, y 1, y 2, eq_ix3 (n0 := 1) (n1 := 1024) (n2 := 64) y⟩
  obtain ⟨-, -, -, a0, a1, a2⟩ := idx_qo t
  have hu : u.val = 0 := by omega
  have hb : t.val / 16 < 8 := by omega
  have hq : t.val / 4 % 4 * 1024 + r.val < 4096 := by omega
  have he : ((cfg2.win 4).blk t).view.emb (ix3 u r h)
      = ix3 (⟨t.val / 16, hb⟩ : Fin 8) (⟨t.val / 4 % 4 * 1024 + r.val, hq⟩ : Fin 4096) h := by
    funext a; apply Fin.ext
    match a with
    | ⟨0, _⟩ => show win2_4.index t (0 : Fin 3) * 1 + 1 * u.val = t.val / 16; omega
    | ⟨1, _⟩ => show win2_4.index t (1 : Fin 3) * 1024 + 1 * r.val = t.val / 4 % 4 * 1024 + r.val; omega
    | ⟨2, _⟩ => show win2_4.index t (2 : Fin 3) * 64 + 1 * h.val = h.val; omega
  show out2 (F := Ideal) V c t (ix3 u r h) = outArr V c (((cfg2.win 4).blk t).view.emb (ix3 u r h))
  rw [he]
  exact out_at V c t h3 u r h _ _ rfl rfl

/-- An index of the array is in point t's output block iff each coordinate is in the block's range on its axis. -/
theorem mem_out_blk (t : Fin cfg2.N) (i : S8x4096x64.Idx) :
    i ∈ ((cfg2.win 4).blk t).view.set ↔ ∀ a : Fin 3, win2_4.index t a * S1x1024x64.size a ≤ (i a).val ∧ (i a).val < win2_4.index t a * S1x1024x64.size a + S1x1024x64.size a := by
  show i ∈ ((View.whole main_v2).slice (win2_4.rect t)).set ↔ _
  rw [View.set_slice_whole, Rect.mem_set_unit]
  exact Iff.rfl

/-- Row q of batch b is covered by the point of batch b, query tile q / 1024 and key step 3. -/
theorem out_cover (i : S8x4096x64.Idx) :
    ∃ t : Fin cfg2.N, (cfg2.win 4).flush t = true ∧ i ∈ ((cfg2.win 4).blk t).view.set := by
  have h0 : (i 0).val < 8 := (i 0).isLt
  have h1 : (i 1).val < 4096 := (i 1).isLt
  have h2 : (i 2).val < 64 := (i 2).isLt
  have hlt : 16 * (i 0).val + 4 * ((i 1).val / 1024) + 3 < cfg2.N := by
    show 16 * (i 0).val + 4 * ((i 1).val / 1024) + 3 < 128
    omega
  obtain ⟨-, -, -, a0, a1, a2⟩ := idx_qo ⟨16 * (i 0).val + 4 * ((i 1).val / 1024) + 3, hlt⟩
  have b0 : win2_4.index ⟨16 * (i 0).val + 4 * ((i 1).val / 1024) + 3, hlt⟩ (0 : Fin 3) = (16 * (i 0).val + 4 * ((i 1).val / 1024) + 3) / 16 := a0
  have b1 : win2_4.index ⟨16 * (i 0).val + 4 * ((i 1).val / 1024) + 3, hlt⟩ (1 : Fin 3) = (16 * (i 0).val + 4 * ((i 1).val / 1024) + 3) / 4 % 4 := a1
  refine ⟨⟨16 * (i 0).val + 4 * ((i 1).val / 1024) + 3, hlt⟩, (flush2_4 _).mpr (by show (16 * (i 0).val + 4 * ((i 1).val / 1024) + 3) % 4 = 3; omega), ?_⟩
  rw [mem_out_blk]
  intro a
  match a with
  | ⟨0, _⟩ =>
    show win2_4.index ⟨16 * (i 0).val + 4 * ((i 1).val / 1024) + 3, hlt⟩ (0 : Fin 3) * 1 ≤ (i 0).val ∧ (i 0).val < win2_4.index ⟨16 * (i 0).val + 4 * ((i 1).val / 1024) + 3, hlt⟩ (0 : Fin 3) * 1 + 1
    omega
  | ⟨1, _⟩ =>
    show win2_4.index ⟨16 * (i 0).val + 4 * ((i 1).val / 1024) + 3, hlt⟩ (1 : Fin 3) * 1024 ≤ (i 1).val ∧ (i 1).val < win2_4.index ⟨16 * (i 0).val + 4 * ((i 1).val / 1024) + 3, hlt⟩ (1 : Fin 3) * 1024 + 1024
    omega
  | ⟨2, _⟩ =>
    show win2_4.index ⟨16 * (i 0).val + 4 * ((i 1).val / 1024) + 3, hlt⟩ (2 : Fin 3) * 64 ≤ (i 2).val ∧ (i 2).val < win2_4.index ⟨16 * (i 0).val + 4 * ((i 1).val / 1024) + 3, hlt⟩ (2 : Fin 3) * 64 + 64
    omega

end Out2

variable (V : (c : Dev nD) → (b : Ref sig .tc) → Buf (Elt Ideal) ((c : Thread nD τ).loc b))

/-- The output array after region 2, from the scaled-q, k, v arrays and the statistics row it was entered at. -/
theorem arr2_out (c : Dev nD) (b : Fin 8) (q : Fin 4096) (h : Fin 64) :
    (dat2 (F := Ideal) V c).arrAt 4 cfg2.N (ix3 b q h)
      = Cert.Spec.outK (Cert.Spec.sK (fun b s h => V c main_v0_0 (ix3 b s h)) (fun b s h => V c main_v0_1 (ix3 b s h)))
          (fun b k => V c main_v1 (ix3 b (0 : Fin 1) k)) (fun b s h => V c main_v0_2 (ix3 b s h)) b q h := by
  have e := (dat2 (F := Ideal) V c).arrAt_eq_of_cover 4 (Out2.outArr V c) (fun t hf => Out2.flushed_out V c t hf) Out2.out_cover
  rw [e]
  rfl

end Cert.KernelIdeal.Val

end
-- ==== Proof.KI.Value.lean ====
/-
  The idealized kernel's run with its result named: from memory `m`, every weakly fair execution ends with the
  output array at `Spec.kernelOut` of the three input arrays it reads, the four arguments unchanged. The three
  regions' arrays are chained: region 2 reads the scaled q, k, v that region 0 wrote and the statistics row that
  region 1 wrote from the same q and k.
-/
import proofs.«424057_j71219147702834_3_alg».proof.Proof.KI.Run
import proofs.«424057_j71219147702834_3_alg».proof.Proof.KI.Val0
import proofs.«424057_j71219147702834_3_alg».proof.Proof.KI.Val1
import proofs.«424057_j71219147702834_3_alg».proof.Proof.KI.Val2

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Fr

variable (m : (ℓ : Loc nD τ sig) → Buf (Elt Ideal) ℓ) (ρ : Dev nD → PrngReg)

/-- The kernel's output as a function of memory `m`'s argument arrays. -/
def kout (c : Dev nD) : Buf (Elt Ideal) ((c.tc : Thread nD τ).loc main_v2) :=
  fun i => Cert.Spec.kernelOut (m ((c.tc : Thread nD τ).loc main_arg0)) (m ((c.tc : Thread nD τ).loc main_arg1))
    (m ((c.tc : Thread nD τ).loc main_arg2)) (i 0) (i 1) (i 2)

/-- The scaled-q array region 2 is entered at, entry by entry. -/
theorem q_at (c : Dev nD) (b : Fin 8) (s : Fin 4096) (h : Fin 64) :
    V2 m ρ c main_v0_0 (ix3 b s h) = Cert.Spec.Qs (m ((c.tc : Thread nD τ).loc main_arg0)) (m ((c.tc : Thread nD τ).loc main_arg1)) b s h := by
  rw [V2_main_v0_0, arr0_q, V0_main_arg0, V0_main_arg1]
theorem k_at (c : Dev nD) (b : Fin 8) (s : Fin 4096) (h : Fin 64) :
    V2 m ρ c main_v0_1 (ix3 b s h) = Cert.Spec.proj (m ((c.tc : Thread nD τ).loc main_arg0)) (m ((c.tc : Thread nD τ).loc main_arg2)) b s h := by
  rw [V2_main_v0_1, arr0_k, V0_main_arg0, V0_main_arg2]
theorem v_at (c : Dev nD) (b : Fin 8) (s : Fin 4096) (h : Fin 64) :
    V2 m ρ c main_v0_2 (ix3 b s h) = Cert.Spec.proj (m ((c.tc : Thread nD τ).loc main_arg0)) (m ((c.tc : Thread nD τ).loc main_arg1)) b s h := by
  rw [V2_main_v0_2, arr0_v, V0_main_arg0, V0_main_arg1]
theorem q1_at (c : Dev nD) (b : Fin 8) (s : Fin 4096) (h : Fin 64) :
    V1 m ρ c main_v0_0 (ix3 b s h) = Cert.Spec.Qs (m ((c.tc : Thread nD τ).loc main_arg0)) (m ((c.tc : Thread nD τ).loc main_arg1)) b s h := by
  rw [V1_main_v0_0, arr0_q, V0_main_arg0, V0_main_arg1]
theorem k1_at (c : Dev nD) (b : Fin 8) (s : Fin 4096) (h : Fin 64) :
    V1 m ρ c main_v0_1 (ix3 b s h) = Cert.Spec.proj (m ((c.tc : Thread nD τ).loc main_arg0)) (m ((c.tc : Thread nD τ).loc main_arg2)) b s h := by
  rw [V1_main_v0_1, arr0_k, V0_main_arg0, V0_main_arg2]
theorem ml_at (c : Dev nD) (b : Fin 8) (k : Fin 4096) :
    V2 m ρ c main_v1 (ix3 b (0 : Fin 1) k)
      = Cert.Spec.MLk (Cert.Spec.sK (Cert.Spec.Qs (m ((c.tc : Thread nD τ).loc main_arg0)) (m ((c.tc : Thread nD τ).loc main_arg1)))
          (Cert.Spec.proj (m ((c.tc : Thread nD τ).loc main_arg0)) (m ((c.tc : Thread nD τ).loc main_arg2)))) b k := by
  rw [V2_main_v1]
  refine (arr1_ml (V1 m ρ) c b k).trans ?_
  congr 2
  · funext b s h; exact q1_at m ρ c b s h
  · funext b s h; exact k1_at m ρ c b s h

/-- The output array after the run is `kout`. -/
theorem out_eq (c : Dev nD) : (dat2 (F := Ideal) (V2 m ρ) c).arrAt 4 cfg2.N = kout m c := by
  funext (i : S8x4096x64.Idx)
  obtain ⟨b, q, h, rfl⟩ : ∃ (b : Fin 8) (q : Fin 4096) (h : Fin 64), i = ix3 b q h := ⟨i 0, i 1, i 2, eq_ix3 i⟩
  refine (arr2_out (V2 m ρ) c b q h).trans ?_
  show _ = Cert.Spec.kernelOut (m ((c.tc : Thread nD τ).loc main_arg0)) (m ((c.tc : Thread nD τ).loc main_arg1))
    (m ((c.tc : Thread nD τ).loc main_arg2)) b q h
  unfold Cert.Spec.kernelOut
  congr 1
  · congr 1
    · funext b s h; exact q_at m ρ c b s h
    · funext b s h; exact k_at m ρ c b s h
  · funext b k; exact ml_at m ρ c b k
  · funext b s h; exact v_at m ρ c b s h

/-- The run, with the result named. -/
theorem run : θ_run defs (onTc (τ := τ) (main (F := Ideal))) ⟨m, fun _ => 0, ρ⟩ (fun r => ∀ c : Dev nD,
      r.2.mem ((c.tc : Thread nD τ).loc main_v2) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (out_eq m ρ c), (h c).2⟩) (result m ρ)

end Cert.KernelIdeal.Val

end
-- ==== Proof.Algebra.lean ====
/-
  The kernel's formula and the reference's agree on real inputs.
  With q, k real: the kernel's score `Σ_h (q_h/64)·k_h` is the reference's `(Σ_h q_h k_h)/sqrt 4096` (64² = 4096, and a
  real factor moves across a finite real sum). For one key column with real scores s_q put Z = Σ_q exp(s_q) > 0. The
  running fold over four tiles keeps a pair of reals (m, l) with l·exp m = the sum of exp(s_q) over the tiles met so far
  (exp(-inf) = 0 starts it; each step rescales the old sum by exp(m - m')); this uses only that each m is real, not that
  it is the maximum. So `ml = m + log l = log Z` and the kernel's weight is `exp(s_q - ml) = exp(s_q)/Z`. The reference's
  weight `exp(s_q - M)/Σ_q' exp(s_q' - M)` is `exp(s_q)/Z` too: the factor exp(-M) cancels, whatever real M the column
  maximum is. The key sum split into four tiles of 1024 is the sum over 4096.
-/
import proofs.«424057_j71219147702834_3_alg».proof.Proof.Spec
import Mathlib.Analysis.SpecialFunctions.Log.Basic
import Mathlib.Analysis.SpecialFunctions.Exp

noncomputable section

namespace Cert.Spec

open Idealize.ShloMosaic Idealize.ShloMosaic.ValueIdx

/-! ## The four literals -/

theorem negInf_eq : negInf = ⊥ := by simp [negInf, Ideal.ofBits, Ideal.ieee]
theorem zero_eq : zero = 0 := by simp [zero, Ideal.ofBits, Ideal.ieee]
theorem c64_eq : c64 = ((1 / 64 : ℝ) : EReal) := by
  simp [c64, Ideal.ofBits, Ideal.ieee, -EReal.coe_mul]; norm_num
theorem c4096_eq : c4096 = ((4096 : ℝ) : EReal) := by
  simp [c4096, Ideal.ofBits, Ideal.ieee, -EReal.coe_mul]; norm_num

theorem sqrt_c4096 : Ideal.sqrt c4096 = ((64 : ℝ) : EReal) := by
  rw [c4096_eq, Ideal.sqrt_coe, if_neg (by norm_num)]
  have h : Real.sqrt 4096 = 64 := by
    rw [show (4096 : ℝ) = 64 ^ 2 by norm_num]
    exact Real.sqrt_sq (by norm_num)
  rw [h]

/-! ## Real numbers inside the extended reals -/

/-- The coercion commutes with finite sums. -/
theorem coe_sum {ι : Type} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

theorem coe_max' (x y : ℝ) : max (x : EReal) (y : EReal) = ((max x y : ℝ) : EReal) :=
  (EReal.coe_strictMono.monotone.map_max).symm

/-- The running maximum from `-∞` over a nonempty family of reals is a real number. -/
theorem fold_max_real {ι : Type} (s : Finset ι) (hs : s.Nonempty) (f : ι → ℝ) :
    ∃ m : ℝ, s.fold max (⊥ : EReal) (fun i => ((f i : ℝ) : EReal)) = (m : EReal) := by
  refine Finset.Nonempty.cons_induction ?_ ?_ hs
  · intro a
    exact ⟨f a, by rw [Finset.fold_singleton]; exact max_bot_right _⟩
  · intro a s ha _ ih
    obtain ⟨m, hm⟩ := ih
    exact ⟨max (f a) m, by rw [Finset.fold_cons, hm, coe_max']⟩

theorem exp_sub_coe (x y : ℝ) : Ideal.exp ((x : EReal) - (y : EReal)) = ((Real.exp (x - y) : ℝ) : EReal) := by
  rw [← EReal.coe_sub, Ideal.exp_coe]

/-! ## The four tiles of 1024 cover the 4096 positions -/

/-- A sum over the 4096 positions, cut into the four tiles. -/
theorem sum_tiles {M : Type} [AddCommMonoid M] (f : Fin 4096 → M) :
    ∑ q : Fin 4096, f q = ∑ j : Fin 4, ∑ r : Fin 1024, f (tix j r) := by
  have e : Fin 4 × Fin 1024 ≃ Fin 4096 := (finProdFinEquiv : Fin 4 × Fin 1024 ≃ Fin (4 * 1024))
  have he : ∀ x : Fin 4 × Fin 1024, (finProdFinEquiv : Fin 4 × Fin 1024 ≃ Fin (4 * 1024)) x = tix x.1 x.2 := by
    intro x
    apply Fin.ext
    show x.2.val + 1024 * x.1.val = 1024 * x.1.val + x.2.val
    omega
  rw [← Fintype.sum_prod_type' (f := fun j r => f (tix j r))]
  rw [← Equiv.sum_comp (finProdFinEquiv : Fin 4 × Fin 1024 ≃ Fin (4 * 1024)) f]
  exact Finset.sum_congr rfl fun x _ => by rw [he x]

theorem sum_tiles4 {M : Type} [AddCommMonoid M] (f : Fin 4096 → M) :
    ∑ q : Fin 4096, f q
      = (((∑ r : Fin 1024, f (tix 0 r)) + ∑ r : Fin 1024, f (tix 1 r)) + ∑ r : Fin 1024, f (tix 2 r))
          + ∑ r : Fin 1024, f (tix 3 r) := by
  rw [sum_tiles, Fin.sum_univ_four]

/-! ## The running (max, sum) pair on real scores -/

/-- The running pair is a pair of reals `(m, l)` with `l · exp m = z`: the sum of `exp` of the scores met so far,
    whatever the real `m` is. -/
def Inv (p : EReal × EReal) (z : ℝ) : Prop :=
  ∃ m l : ℝ, p = ((m : EReal), (l : EReal)) ∧ l * Real.exp m = z

/-- The first tile, from `(-∞, 0)`: `exp (-∞) = 0` kills the old sum. -/
theorem inv_init (t : Fin 1024 → ℝ) :
    Inv (mlStep (fun r => ((t r : ℝ) : EReal)) (negInf, zero)) (∑ r : Fin 1024, Real.exp (t r)) := by
  obtain ⟨mt, hmt⟩ := fold_max_real (Finset.univ : Finset (Fin 1024)) Finset.univ_nonempty t
  refine ⟨mt, ∑ r : Fin 1024, Real.exp (t r - mt), ?_, ?_⟩
  · unfold mlStep
    simp only [negInf_eq, zero_eq, hmt, max_bot_left, EReal.bot_sub, Ideal.exp_bot, mul_zero, zero_add, exp_sub_coe,
      coe_sum]
  · rw [Finset.sum_mul]
    refine Finset.sum_congr rfl fun r _ => ?_
    rw [← Real.exp_add]; congr 1; ring

/-- A later tile: the old sum is rescaled by `exp (m - m')`, so `l · exp m` grows by the tile's sum of `exp`. -/
theorem inv_step (t : Fin 1024 → ℝ) {p : EReal × EReal} {z : ℝ} (hp : Inv p z) :
    Inv (mlStep (fun r => ((t r : ℝ) : EReal)) p) (z + ∑ r : Fin 1024, Real.exp (t r)) := by
  obtain ⟨m, l, rfl, hz⟩ := hp
  obtain ⟨mt, hmt⟩ := fold_max_real (Finset.univ : Finset (Fin 1024)) Finset.univ_nonempty t
  refine ⟨max m mt, l * Real.exp (m - max m mt) + ∑ r : Fin 1024, Real.exp (t r - max m mt), ?_, ?_⟩
  · unfold mlStep
    simp only [negInf_eq, hmt, coe_max', exp_sub_coe, coe_sum, ← EReal.coe_mul, ← EReal.coe_add]
  · rw [add_mul, mul_assoc, ← Real.exp_add, Finset.sum_mul, ← hz]
    congr 1
    · congr 2; ring
    · refine Finset.sum_congr rfl fun r _ => ?_
      rw [← Real.exp_add]; congr 1; ring

/-- The kernel's column statistic on a column of real scores is the logarithm of the sum of their `exp`. -/
theorem mlOf_real (c : Fin 4096 → ℝ) :
    mlOf (fun j r => ((c (tix j r) : ℝ) : EReal)) = ((Real.log (∑ q : Fin 4096, Real.exp (c q)) : ℝ) : EReal) := by
  have h3 := inv_step (fun r => c (tix 3 r)) (inv_step (fun r => c (tix 2 r)) (inv_step (fun r => c (tix 1 r))
    (inv_init (fun r => c (tix 0 r)))))
  obtain ⟨m, l, hp, hz⟩ := h3
  have hml : mlOf (fun j r => ((c (tix j r) : ℝ) : EReal))
      = ((m : EReal), (l : EReal)).1 + Ideal.log ((m : EReal), (l : EReal)).2 := by
    rw [← hp]; rfl
  rw [← sum_tiles4 (fun q => Real.exp (c q))] at hz
  have hZ : 0 < ∑ q : Fin 4096, Real.exp (c q) :=
    Finset.sum_pos (fun q _ => Real.exp_pos _) Finset.univ_nonempty
  have hl : 0 < l := by
    have := hZ; rw [← hz] at this
    exact (mul_pos_iff_of_pos_right (Real.exp_pos m)).mp this
  rw [hml]
  show (m : EReal) + Ideal.log (l : EReal) = _
  rw [Ideal.log_coe, if_neg (not_le.mpr hl), ← EReal.coe_add, ← hz, Real.log_mul hl.ne' (Real.exp_pos m).ne',
    Real.log_exp, add_comm]

/-! ## The two softmax weights on a column of real scores -/

/-- The kernel's weight: subtracting `log Z` inside `exp` divides by `Z`. -/
theorem weightK_real (c : Fin 4096 → ℝ) (q : Fin 4096) :
    Ideal.exp ((c q : EReal) - mlOf (fun j r => ((c (tix j r) : ℝ) : EReal)))
      = ((Real.exp (c q) / ∑ q' : Fin 4096, Real.exp (c q') : ℝ) : EReal) := by
  have hZ : 0 < ∑ q' : Fin 4096, Real.exp (c q') :=
    Finset.sum_pos (fun q' _ => Real.exp_pos _) Finset.univ_nonempty
  rw [mlOf_real, exp_sub_coe, Real.exp_sub, Real.exp_log hZ]

/-- The reference's weight: the common factor `exp (-M)` cancels between numerator and denominator, whatever the
    real `M` subtracted is. -/
theorem weightR_real (c : Fin 4096 → ℝ) (q : Fin 4096) :
    Ideal.div
        (Ideal.exp ((c q : EReal)
          - max negInf ((Finset.univ : Finset (Fin 4096)).fold max negInf fun q' => ((c q' : ℝ) : EReal))))
        (zero + ∑ q'' : Fin 4096, Ideal.exp ((c q'' : EReal)
          - max negInf ((Finset.univ : Finset (Fin 4096)).fold max negInf fun q' => ((c q' : ℝ) : EReal))))
      = ((Real.exp (c q) / ∑ q' : Fin 4096, Real.exp (c q') : ℝ) : EReal) := by
  obtain ⟨M, hM⟩ := fold_max_real (Finset.univ : Finset (Fin 4096)) Finset.univ_nonempty c
  have hZ : 0 < ∑ q' : Fin 4096, Real.exp (c q') :=
    Finset.sum_pos (fun q' _ => Real.exp_pos _) Finset.univ_nonempty
  have hL : ∑ q' : Fin 4096, Real.exp (c q' - M) = (∑ q' : Fin 4096, Real.exp (c q')) / Real.exp M := by
    rw [Finset.sum_div]
    exact Finset.sum_congr rfl fun q' _ => Real.exp_sub _ _
  have hL0 : ∑ q' : Fin 4096, Real.exp (c q' - M) ≠ 0 := by
    rw [hL]; exact (div_pos hZ (Real.exp_pos M)).ne'
  have hreal : Real.exp (c q - M) * (1 / ∑ q' : Fin 4096, Real.exp (c q' - M))
      = Real.exp (c q) / ∑ q' : Fin 4096, Real.exp (c q') := by
    rw [hL, Real.exp_sub]
    have hM0 : Real.exp M ≠ 0 := (Real.exp_pos M).ne'
    have hZ0 : ∑ q' : Fin 4096, Real.exp (c q') ≠ 0 := hZ.ne'
    field_simp
  simp only [negInf_eq, zero_eq, hM, max_bot_left, exp_sub_coe, coe_sum, zero_add]
  rw [Ideal.div_coe hL0, ← EReal.coe_mul, hreal]

/-! ## The two outputs on real scores and values -/

/-- With real scores the kernel's and the reference's output entries are the same sum of weight times value. -/
theorem out_eq (s : Fin 8 → Fin 4096 → Fin 4096 → ℝ) (V : Fin 8 → Fin 4096 → Fin 64 → EReal)
    (b : Fin 8) (q : Fin 4096) (h : Fin 64) :
    outK (fun b q k => ((s b q k : ℝ) : EReal)) (MLk fun b q k => ((s b q k : ℝ) : EReal)) V b q h
      = outR (fun b q k => ((s b q k : ℝ) : EReal)) V b q h := by
  have hw : ∀ k : Fin 4096,
      Ideal.exp ((s b q k : EReal) - MLk (fun b q k => ((s b q k : ℝ) : EReal)) b k)
        = pR (fun b q k => ((s b q k : ℝ) : EReal)) b q k := by
    intro k
    have hK := weightK_real (fun q' => s b q' k) q
    have hR := weightR_real (fun q' => s b q' k) q
    unfold MLk pR eR lR mR
    exact hK.trans hR.symm
  unfold outK outR outTile
  rw [zero_eq, zero_add,
    sum_tiles4 (fun k => pR (fun b q k => ((s b q k : ℝ) : EReal)) b q k * V b k h)]
  simp only [hw]

/-! ## The scores are real, and the kernel's is the reference's -/

/-- A projection of real arrays is real. -/
theorem proj_real {X : SX.Idx → EReal} {W : SW.Idx → EReal} (hX : AllReal X) (hW : AllReal W) :
    ∃ p : Fin 8 → Fin 4096 → Fin 64 → ℝ, proj X W = fun b s h => ((p b s h : ℝ) : EReal) := by
  choose x hx using (show ∀ i, ∃ r : ℝ, X i = (r : EReal) from hX)
  choose w hw using (show ∀ i, ∃ r : ℝ, W i = (r : EReal) from hW)
  refine ⟨fun b s h => ∑ e : Fin 768, x (ix3 b s e) * w (ix2 h e), ?_⟩
  funext b s h
  unfold proj
  simp only [hx, hw, ← EReal.coe_mul, coe_sum]

/-- The kernel's score with `1/64` folded into `q` is the reference's product divided by `sqrt 4096 = 64`; both are real. -/
theorem scores_real (qr kr : Fin 8 → Fin 4096 → Fin 64 → ℝ) :
    ∃ s : Fin 8 → Fin 4096 → Fin 4096 → ℝ,
      sK (fun b s h => ((qr b s h : ℝ) : EReal) * c64) (fun b s h => ((kr b s h : ℝ) : EReal))
          = (fun b q k => ((s b q k : ℝ) : EReal))
      ∧ sR (fun b s h => ((qr b s h : ℝ) : EReal)) (fun b s h => ((kr b s h : ℝ) : EReal))
          = (fun b q k => ((s b q k : ℝ) : EReal)) := by
  refine ⟨fun b q k => (∑ h : Fin 64, qr b q h * kr b k h) * (1 / 64), ?_, ?_⟩
  · funext b q k
    unfold sK
    have hreal : ∑ h : Fin 64, qr b q h * (1 / 64) * kr b k h = (∑ h : Fin 64, qr b q h * kr b k h) * (1 / 64) := by
      rw [Finset.sum_mul]
      exact Finset.sum_congr rfl fun h _ => by ring
    simp only [c64_eq, ← EReal.coe_mul, coe_sum, hreal]
  · funext b q k
    unfold sR
    rw [sqrt_c4096, Ideal.div_coe (by norm_num : (64 : ℝ) ≠ 0)]
    simp only [← EReal.coe_mul, coe_sum]

/-- On inputs whose entries are all real numbers the kernel's and the reference's output entries are equal. -/
theorem main (X : SX.Idx → EReal) (Wq Wk : SW.Idx → EReal) (hX : AllReal X) (hq : AllReal Wq) (hk : AllReal Wk)
    (b : Fin 8) (q : Fin 4096) (h : Fin 64) : kernelOut X Wq Wk b q h = refOut X Wq Wk b q h := by
  obtain ⟨qr, hQ⟩ := proj_real hX hq
  obtain ⟨kr, hK⟩ := proj_real hX hk
  obtain ⟨s, hsK, hsR⟩ := scores_real qr kr
  have hQs : Qs X Wq = fun b s h => ((qr b s h : ℝ) : EReal) * c64 := by
    funext b s h; unfold Qs; rw [hQ]
  unfold kernelOut refOut
  rw [hQs, hK, hQ, hsK, hsR]
  exact out_eq s _ b q h

end Cert.Spec

end
-- ==== Proof.RefG.lean ====
/-
  The reference's run read at an output index is `Spec.refOut` of the three argument arrays it reads.

  The reference computes, in program order: the three projections `x·Wqᵀ`, `x·Wkᵀ` and `x·Wqᵀ` again (its value
  array); the scores, each a contraction over the 64 head coordinates divided by `sqrt 4096`; the column maximum over
  the query axis, taken once more against -∞; the exponential of the difference; the column sum from 0; the quotient;
  and the contraction of the quotient with the value array over the key axis. Each stage is read here at an index
  given by its coordinates, as the matching function of `Spec`; the last stage is `Spec.refOut`.
-/
import proofs.«424057_j71219147702834_3_alg».proof.Proof.Gen.ReferenceIdeal.Read
import proofs.«424057_j71219147702834_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Value Cert.ReferenceIdeal.Read

variable (x : FVec Ideal S8x4096x768 .f32) (wq wk : FVec Ideal S64x768 .f32)

/-! ## The three projections -/

/-- The first projection at (b, s, h): the contraction over the 768 embedding coordinates. -/
theorem v0_at (b : Fin 8) (s : Fin 4096) (h : Fin 64) :
    val_main_v0 (F := Ideal) x wq (ix3 b s h) = Spec.proj x wq b s h := by
  rw [val_main_v0_apply]
  refine Finset.sum_congr rfl fun e _ => ?_
  have el : lidx_main_v0 (ix3 b s h) e = ix3 b s e :=
    funext fun a => by match a with | ⟨0, _⟩ => rfl | ⟨1, _⟩ => rfl | ⟨2, _⟩ => rfl
  have er : ridx_main_v0 (ix3 b s h) e = ix2 h e :=
    funext fun a => by match a with | ⟨0, _⟩ => rfl | ⟨1, _⟩ => rfl
  rw [el, er]

/-- The second projection, against the key weights. -/
theorem v1_at (b : Fin 8) (s : Fin 4096) (h : Fin 64) :
    val_main_v1 (F := Ideal) x wk (ix3 b s h) = Spec.proj x wk b s h := by
  rw [val_main_v1_apply]
  refine Finset.sum_congr rfl fun e _ => ?_
  have el : lidx_main_v1 (ix3 b s h) e = ix3 b s e :=
    funext fun a => by match a with | ⟨0, _⟩ => rfl | ⟨1, _⟩ => rfl | ⟨2, _⟩ => rfl
  have er : ridx_main_v1 (ix3 b s h) e = ix2 h e :=
    funext fun a => by match a with | ⟨0, _⟩ => rfl | ⟨1, _⟩ => rfl
  rw [el, er]

/-- The value array: the query projection once more. -/
theorem v2_at (b : Fin 8) (s : Fin 4096) (h : Fin 64) :
    val_main_v2 (F := Ideal) x wq (ix3 b s h) = Spec.proj x wq b s h := by
  rw [val_main_v2_apply]
  refine Finset.sum_congr rfl fun e _ => ?_
  have el : lidx_main_v2 (ix3 b s h) e = ix3 b s e :=
    funext fun a => by match a with | ⟨0, _⟩ => rfl | ⟨1, _⟩ => rfl | ⟨2, _⟩ => rfl
  have er : ridx_main_v2 (ix3 b s h) e = ix2 h e :=
    funext fun a => by match a with | ⟨0, _⟩ => rfl | ⟨1, _⟩ => rfl
  rw [el, er]

/-! ## The scores -/

/-- The plain product of a query row and a key row over the 64 head coordinates. -/
theorem v3_at (b : Fin 8) (q k : Fin 4096) :
    val_main_v3 (F := Ideal) x wq wk (ix3 b q k) = ∑ h : Fin 64, Spec.proj x wq b q h * Spec.proj x wk b k h := by
  rw [val_main_v3_apply]
  refine Finset.sum_congr rfl fun h _ => ?_
  have el : lidx_main_v3 (ix3 b q k) h = ix3 b q h :=
    funext fun a => by match a with | ⟨0, _⟩ => rfl | ⟨1, _⟩ => rfl | ⟨2, _⟩ => rfl
  have er : ridx_main_v3 (ix3 b q k) h = ix3 b k h :=
    funext fun a => by match a with | ⟨0, _⟩ => rfl | ⟨1, _⟩ => rfl | ⟨2, _⟩ => rfl
  rw [el, er, v0_at, v1_at]

/-- The divisor, the same at every index: the square root of the literal 4096. -/
theorem v5_at (i : S8x4096x4096.Idx) : val_main_v5 (F := Ideal) i = Ideal.sqrt Spec.c4096 := by
  rw [val_main_v5_apply, val_main_v4_apply, val_main_cst_apply]
  rfl

/-- The score at (b, q, k). -/
theorem v6_at (b : Fin 8) (q k : Fin 4096) :
    val_main_v6 (F := Ideal) x wq wk (ix3 b q k) = Spec.sR (Spec.proj x wq) (Spec.proj x wk) b q k := by
  rw [val_main_v6_apply, v3_at, v5_at]
  rfl

/-! ## The column maximum -/

/-- The shape fact that names the index inserted on the reduced (query) axis. -/
theorem reduces_q : S8x4096x4096.Reduces [1] S8x4096 := by decide

/-- The reduction with a maximum body over the query axis, at (b, k): the fold of `max` from -∞ over the column. -/
theorem v7_at (b : Fin 8) (k : Fin 4096) :
    val_main_v7 (F := Ideal) x wq wk (ix2 b k)
      = (Finset.univ : Finset (Fin 4096)).fold max Spec.negInf fun q => Spec.sR (Spec.proj x wq) (Spec.proj x wk) b q k := by
  unfold val_main_v7
  rw [Host.reduce_eq_fold_single FloatOps.maximumf _ _ reducesTo_S8x4096x4096_S8x4096_d1 reduces_q h_S_ (ix2 b k)]
  have hf : (val_main_v6 (F := Ideal) x wq wk ∘ reduces_q.lift (ix2 b k))
      = fun q : Fin 4096 => Spec.sR (Spec.proj x wq) (Spec.proj x wk) b q k := funext fun (q : Fin 4096) => by
    have eq : reduces_q.lift (ix2 b k) q = ix3 b q k :=
      funext fun a => Fin.ext (by match a with | ⟨0, _⟩ => rfl | ⟨1, _⟩ => rfl | ⟨2, _⟩ => rfl)
    show val_main_v6 (F := Ideal) x wq wk (reduces_q.lift (ix2 b k) q) = _
    rw [eq, v6_at]
  rw [hf]
  rfl

/-- The broadcast -∞ the maximum is taken against once more. -/
theorem v8_at (i : S8x4096.Idx) : val_main_v8 (F := Ideal) i = Spec.negInf := by
  rw [val_main_v8_apply, val_main_cst_1_apply]
  rfl

/-- The column maximum at (b, k). -/
theorem v9_at (b : Fin 8) (k : Fin 4096) :
    val_main_v9 (F := Ideal) x wq wk (ix2 b k) = Spec.mR (Spec.sR (Spec.proj x wq) (Spec.proj x wk)) b k := by
  rw [val_main_v9_apply, v8_at, v7_at]
  rfl

/-- The column maximum broadcast back along the query axis. -/
theorem v11_at (b : Fin 8) (q k : Fin 4096) :
    val_main_v11 (F := Ideal) x wq wk (ix3 b q k) = Spec.mR (Spec.sR (Spec.proj x wq) (Spec.proj x wk)) b k := by
  have ei : idx_main_v10 (idx_main_v11 (ix3 b q k)) = ix2 b k :=
    funext fun a => by match a with | ⟨0, _⟩ => rfl | ⟨1, _⟩ => rfl
  rw [val_main_v11_apply, val_main_v10_apply, ei, v9_at]

/-! ## The exponentials, their column sums, and the quotient -/

/-- The exponential of the score less its column's maximum. -/
theorem v13_at (b : Fin 8) (q k : Fin 4096) :
    val_main_v13 (F := Ideal) x wq wk (ix3 b q k) = Spec.eR (Spec.sR (Spec.proj x wq) (Spec.proj x wk)) b q k := by
  rw [val_main_v13_apply, val_main_v12_apply, v6_at, v11_at]
  rfl

/-- The column sum of the exponentials over the query axis, from the literal 0. -/
theorem v14_at (b : Fin 8) (k : Fin 4096) :
    val_main_v14 (F := Ideal) x wq wk (ix2 b k) = Spec.lR (Spec.sR (Spec.proj x wq) (Spec.proj x wk)) b k := by
  rw [val_main_v14_apply, val_main_cst_2_apply]
  refine congrArg (_ + ·) (Finset.sum_congr rfl fun q _ => ?_)
  have ei : idx_main_v14 (ix2 b k) q = ix3 b q k :=
    funext fun a => by match a with | ⟨0, _⟩ => rfl | ⟨1, _⟩ => rfl | ⟨2, _⟩ => rfl
  rw [ei, v13_at]

/-- The column sum broadcast back along the query axis. -/
theorem v16_at (b : Fin 8) (q k : Fin 4096) :
    val_main_v16 (F := Ideal) x wq wk (ix3 b q k) = Spec.lR (Spec.sR (Spec.proj x wq) (Spec.proj x wk)) b k := by
  have ei : idx_main_v15 (idx_main_v16 (ix3 b q k)) = ix2 b k :=
    funext fun a => by match a with | ⟨0, _⟩ => rfl | ⟨1, _⟩ => rfl
  rw [val_main_v16_apply, val_main_v15_apply, ei, v14_at]

/-- The normalised weight at (b, q, k). -/
theorem v17_at (b : Fin 8) (q k : Fin 4096) :
    val_main_v17 (F := Ideal) x wq wk (ix3 b q k) = Spec.pR (Spec.sR (Spec.proj x wq) (Spec.proj x wk)) b q k := by
  rw [val_main_v17_apply, v13_at, v16_at]
  rfl

/-! ## The result -/

/-- The reference's result at (b, q, h): the weights of row q contracted with the value array over the key axis.
    (The fourth argument array is not read by the reference.) -/
theorem ref_eq (wv : FVec Ideal S64x768 .f32) (b : Fin 8) (q : Fin 4096) (h : Fin 64) :
    val_main_v18 (F := Ideal) x wq wk (ix3 b q h) = Cert.Spec.refOut x wq wk b q h := by
  rw [val_main_v18_apply]
  show _ = ∑ k : Fin 4096, Spec.pR (Spec.sR (Spec.proj x wq) (Spec.proj x wk)) b q k * Spec.proj x wq b k h
  refine Finset.sum_congr rfl fun k _ => ?_
  have el : lidx_main_v18 (ix3 b q h) k = ix3 b q k :=
    funext fun a => by match a with | ⟨0, _⟩ => rfl | ⟨1, _⟩ => rfl | ⟨2, _⟩ => rfl
  have er : ridx_main_v18 (ix3 b q h) k = ix3 b k h :=
    funext fun a => by match a with | ⟨0, _⟩ => rfl | ⟨1, _⟩ => rfl | ⟨2, _⟩ => rfl
  rw [el, er, v17_at, v2_at]

/-- The same as one equation of arrays, each output index read by its coordinates. -/
theorem ref_fun_eq :
    val_main_v18 (F := Ideal) x wq wk = fun i => Cert.Spec.refOut x wq wk (i 0) (i 1) (i 2) :=
  funext fun i => (congrArg (val_main_v18 (F := Ideal) x wq wk) (eq_ix3 i)).trans (ref_eq x wq wk wq (i 0) (i 1) (i 2))

/-- The same for the composed term the reference's run leaves in its result, written out operation by operation
    (it is the last stage by definition). -/
theorem ref_run_eq :
    (Host.dotGeneral dot_S8x4096x4096_S8x4096x64_S8x4096x64_2_1_1_2_0_0 none (Host.divf (Host.exp (subf (Host.divf (Host.dotGeneral dot_S8x4096x64_S8x4096x64_S8x4096x4096_2_2_1_1_0_0 none (Host.dotGeneral dot_S8x4096x768_S64x768_S8x4096x64_2_1_01_0_n_n none x wq) (Host.dotGeneral dot_S8x4096x768_S64x768_S8x4096x64_2_1_01_0_n_n none x wk)) (broadcastInDim S8x4096x4096 ![] bcast_S_S8x4096x4096 (Host.sqrt (constant S_ .f32 0x45800000#32)))) (broadcastInDim S8x4096x4096 ![0, 1, 2] bcast_S8x1x4096_S8x4096x4096_0_1_2 (broadcastInDim S8x1x4096 ![0, 2] bcast_S8x4096_S8x1x4096_0_2 (maximumf (broadcastInDim S8x4096 ![] bcast_S_S8x4096 (constant S_ .f32 0xFF800000#32)) (Host.reduce FloatOps.maximumf (Host.divf (Host.dotGeneral dot_S8x4096x64_S8x4096x64_S8x4096x4096_2_2_1_1_0_0 none (Host.dotGeneral dot_S8x4096x768_S64x768_S8x4096x64_2_1_01_0_n_n none x wq) (Host.dotGeneral dot_S8x4096x768_S64x768_S8x4096x64_2_1_01_0_n_n none x wk)) (broadcastInDim S8x4096x4096 ![] bcast_S_S8x4096x4096 (Host.sqrt (constant S_ .f32 0x45800000#32)))) (constant S_ .f32 0xFF800000#32) reducesTo_S8x4096x4096_S8x4096_d1 h_S_)))))) (broadcastInDim S8x4096x4096 ![0, 1, 2] bcast_S8x1x4096_S8x4096x4096_0_1_2 (broadcastInDim S8x1x4096 ![0, 2] bcast_S8x4096_S8x1x4096_0_2 (Host.reduceAdd (Host.exp (subf (Host.divf (Host.dotGeneral dot_S8x4096x64_S8x4096x64_S8x4096x4096_2_2_1_1_0_0 none (Host.dotGeneral dot_S8x4096x768_S64x768_S8x4096x64_2_1_01_0_n_n none x wq) (Host.dotGeneral dot_S8x4096x768_S64x768_S8x4096x64_2_1_01_0_n_n none x wk)) (broadcastInDim S8x4096x4096 ![] bcast_S_S8x4096x4096 (Host.sqrt (constant S_ .f32 0x45800000#32)))) (broadcastInDim S8x4096x4096 ![0, 1, 2] bcast_S8x1x4096_S8x4096x4096_0_1_2 (broadcastInDim S8x1x4096 ![0, 2] bcast_S8x4096_S8x1x4096_0_2 (maximumf (broadcastInDim S8x4096 ![] bcast_S_S8x4096 (constant S_ .f32 0xFF800000#32)) (Host.reduce FloatOps.maximumf (Host.divf (Host.dotGeneral dot_S8x4096x64_S8x4096x64_S8x4096x4096_2_2_1_1_0_0 none (Host.dotGeneral dot_S8x4096x768_S64x768_S8x4096x64_2_1_01_0_n_n none x wq) (Host.dotGeneral dot_S8x4096x768_S64x768_S8x4096x64_2_1_01_0_n_n none x wk)) (broadcastInDim S8x4096x4096 ![] bcast_S_S8x4096x4096 (Host.sqrt (constant S_ .f32 0x45800000#32)))) (constant S_ .f32 0xFF800000#32) reducesTo_S8x4096x4096_S8x4096_d1 h_S_)))))) (constant S_ .f32 0x00000000#32) reducesTo_S8x4096x4096_S8x4096_d1 h_S_)))) (Host.dotGeneral dot_S8x4096x768_S64x768_S8x4096x64_2_1_01_0_n_n none x wq) : (⟨S8x4096x64, .f32⟩ : BufTy).Contents (Elt Ideal))
      = fun i => Cert.Spec.refOut x wq wk (i 0) (i 1) (i 2) :=
  (val_main_v18_eq (F := Ideal) x wq wk).trans (ref_fun_eq x wq wk)

end Cert.ReferenceIdeal.RefValue

end
-- ==== Proof.Finite.lean ====
/-
  From the precondition (every float input finite, as the printed predicate says it: |x| < +inf entrywise, all four
  conjoined) to: every entry of each argument array is a real number.
-/
import proofs.«424057_j71219147702834_3_alg».proof.Pre_finite_inputs
import proofs.«424057_j71219147702834_3_alg».proof.Proof.Gen.Pre_finite_inputs
import proofs.«424057_j71219147702834_3_alg».proof.Proof.Spec
import Idealize.ShloMosaic.Lib.ReduceAll
import Idealize.ShloMosaic.Lib.ValueIdx
import Idealize.ShloMosaic.Lib.StableHlo.Predicate
import Idealize.ShloMosaic.PureOps.Ideal.Laws

noncomputable section

namespace Cert.Finite

open Idealize.ShloMosaic Idealize.ShloMosaic.ValueIdx
open Cert.Pre_finite_inputs

/-- A reduction over every axis leaves a result of one index. -/
instance : Subsingleton S_.Idx := ⟨fun a b => funext fun d => d.elim0⟩

/-- The word the predicate compares against, read as an f32 on the extended reals, is +∞: exponent field all ones,
    fraction zero, sign clear. -/
theorem inf_word_eq_top : Ideal.ofBits .f32 0x7F800000#32 = (⊤ : EReal) := by
  simp [Ideal.ofBits, Ideal.ieee]

/-- An extended real whose absolute value `max a (−a)` lies strictly below +∞ is a real number: of the two infinities
    each has absolute value +∞ (for −∞ the maximum is taken by its negation), which is not below itself. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- One entry: where the printed test `|a| < +inf` came out 1, `a` is a real number. On the extended reals the host's
    `abs` is `max a (−a)` and the ordered comparison `LT` is the strict order, so the test's bit is the truth value of
    `max a (−a) < ⊤`. -/
theorem real_of_test (a : Ideal .f32)
    (h : FloatOps.cmpf .olt (FloatOps.hostAbsf a) (FloatOps.ofBits (F := Ideal) .f32 0x7F800000#32) = 1#1) :
    ∃ r : ℝ, a = (r : EReal) := by
  have h' : Ideal.cmp .olt (max (a : EReal) (-(a : EReal))) (Ideal.ofBits .f32 0x7F800000#32) = 1#1 := h
  rw [inf_word_eq_top] at h'
  unfold Ideal.cmp at h'
  exact real_of_abs_lt_top a (of_decide_eq_true ((StableHlo.Predicate.ofBool_eq_one_iff _).1 h'))

/-- One array: `jnp.all(|x| < +inf)`, the reduce by `and` over every axis of the entrywise test against the broadcast
    scalar +inf, came out 1; then every entry of `x` is a real number. The reduce being 1 gives the test's bit 1 at each
    index; the broadcast scalar reads +inf there; the entry lemma finishes. -/
theorem allReal_of_all {s : Shape} {axes : List (Fin s.rank)}
    (hb : S_.BroadcastsInDim s (![] : Fin 0 → Fin s.rank)) (hr : s.ReducesTo axes S_) (h0 : 0 < S_.numel)
    (x : FVec Ideal s .f32)
    (e : Host.reduce IntOp.andi
          (cmpf .olt (Host.absf x) (broadcastInDim s ![] hb (constant (F := Ideal) S_ .f32 0x7F800000#32)))
          (constantI S_ 1 1#1) hr h0 ix0 = 1#1) :
    Cert.Spec.AllReal x := by
  intro i
  have hi := Host.reduce_andi_all _ _ hr h0 ix0 e i
  have hc : broadcastInDim s ![] hb (constant (F := Ideal) S_ .f32 0x7F800000#32) i
      = FloatOps.ofBits (F := Ideal) .f32 0x7F800000#32 :=
    StableHlo.Predicate.bcast_scalar hb h0 _ i
  have hi' : FloatOps.cmpf .olt (FloatOps.hostAbsf (x i))
      (broadcastInDim s ![] hb (constant (F := Ideal) S_ .f32 0x7F800000#32) i) = 1#1 := hi
  rw [hc] at hi'
  exact real_of_test (x i) hi'

/-- The precondition read back. The printed predicate is the `and` of four `jnp.all`s, one per argument, nested to the
    left: ((all x ∧ all wq) ∧ all wk) ∧ all wv. At its one index the `and`s split into the four reduces, each of which
    is the one-array lemma's hypothesis. -/
theorem allReal_of_pre [Cert.Pre_finite_inputs.Facts]
    (x : FVec Ideal S8x4096x768 .f32) (wq wk wv : FVec Ideal S64x768 .f32)
    (h : Cert.Pre_finite_inputs.fn (F := Ideal) x wq wk wv = fun _ => 1#1) :
    Cert.Spec.AllReal x ∧ Cert.Spec.AllReal wq ∧ Cert.Spec.AllReal wk ∧ Cert.Spec.AllReal wv := by
  have h1 := congrFun h ix0
  dsimp only [Cert.Pre_finite_inputs.fn, Cert.Pre_finite_inputs.fn_part1, andi] at h1
  obtain ⟨h123, h4⟩ := IntOp.andi_eq_one.1 h1
  obtain ⟨h12, h3⟩ := IntOp.andi_eq_one.1 h123
  obtain ⟨hx, h2⟩ := IntOp.andi_eq_one.1 h12
  exact ⟨allReal_of_all _ _ _ x hx, allReal_of_all _ _ _ wq h2, allReal_of_all _ _ _ wk h3, allReal_of_all _ _ _ wv h4⟩

end Cert.Finite

end
-- ==== Proof.lean ====
/-
  The certificate of a three-call attention kernel against its jnp reference, over the extended reals.

  Both programs compute softmax ATTENTION OVER THE QUERY AXIS with the scale 1/sqrt(seq_len) = 1/64:
  q = x·Wqᵀ, k = x·Wkᵀ, v = q; scores s = q·kᵀ/64; each key column of s is normalised over the queries; the result is
  the weights times v. The kernel does it in three calls: projections (with 1/64 folded into q), a column-statistics
  pass that leaves `ml = max + log Σ exp(s - max)` per key by a running (max, sum) over four query tiles, and an output
  pass that accumulates `exp(s - ml)·v` over four key tiles. The reference divides by sqrt 4096 after the product and
  normalises by the max-subtracted quotient.

  Frames: each program terminates without a fault and leaves its arguments as launched — for the two kernel programs
  by running the three regions one after the other, each from the buffers the one before left (`Fr.frame`, the same
  argument at the word-level and at the ideal instance); for the reference from its run. The idealization rewrote
  nothing, so `preserves` is `True`. Equivalence: the kernel's result array is `Spec.kernelOut` of the inputs (the
  three regions' arrays read entry by entry and chained), the reference's is `Spec.refOut`, and on finite inputs the two
  are equal (`Spec.main`): the factor 1/64 moves across a finite real sum, `exp(s - log Z) = exp(s)/Z`, and the four
  tiles' sums make up the whole sum.
-/
import proofs.«424057_j71219147702834_3_alg».proof.Defs
import proofs.«424057_j71219147702834_3_alg».proof.Proof.Gen.Kernel
import proofs.«424057_j71219147702834_3_alg».proof.Proof.Gen.KernelIdeal
import proofs.«424057_j71219147702834_3_alg».proof.Proof.Gen.ReferenceIdeal
import proofs.«424057_j71219147702834_3_alg».proof.Proof.Gen.ReferenceIdeal.Run
import proofs.«424057_j71219147702834_3_alg».proof.Proof.Gen.ReferenceIdeal.Read
import proofs.«424057_j71219147702834_3_alg».proof.Proof.Gen.Pre_finite_inputs
import proofs.«424057_j71219147702834_3_alg».proof.Proof.KB.Run
import proofs.«424057_j71219147702834_3_alg».proof.Proof.KI.Value
import proofs.«424057_j71219147702834_3_alg».proof.Proof.Algebra
import proofs.«424057_j71219147702834_3_alg».proof.Proof.RefG
import proofs.«424057_j71219147702834_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program terminates, faults nowhere and leaves its arguments as launched. -/
theorem frame_k : Cert.frame_Kernel :=
  fun m ρ _ => Cert.Kernel.Fr.frame m ρ

/-- The same for the idealized kernel program. -/
theorem frame_ki : Cert.frame_KernelIdeal :=
  fun m ρ _ => Cert.KernelIdeal.Fr.frame m ρ

/-- The reference's frame is its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-- From memories agreeing on the arguments, the idealized kernel ends with its output at `Spec.kernelOut` of the inputs
    and the reference with its result at `Spec.refOut` of the same inputs; the precondition makes every input entry a
    real number, on which the two functions agree. -/
theorem algebraic : Cert.algebraic_KernelIdeal_ReferenceIdeal := by
  intro m ρ m' ρ' hpre hagree
  refine ⟨fun c => Cert.KernelIdeal.Val.kout m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hq, hk, -⟩ := Cert.Finite.allReal_of_pre _ _ _ _ (hpre c)
  rw [(hagree c).1, (hagree c).2.1, (hagree c).2.2.1, Cert.ReferenceIdeal.RefValue.ref_run_eq]
  funext i
  exact (Cert.Spec.main _ _ _ hx hq hk (i 0) (i 1) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
